-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S128 : Shape := ⟨1, ![128]⟩
abbrev S2x640000 : Shape := ⟨2, ![2, 640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg3 : IVec S2x640000 32) (main_v13 : IVec S_ 1) (main_v15 : IVec S2x640000 1) (main_c_5 : IVec S_ 1) : IVec S_ 1 :=
  let main_v16 : IVec S_ 1 := (fun x v => Host.reduce IntOp.andi x v reducesTo_S2x640000_S_d0_1 h_S_) main_v15 main_c_5
  let main_v17 : IVec S_ 1 := andi main_v13 main_v16
  let main_c_6 : IVec S_ 32 := constantI S_ 32 10000#32
  let main_v18 : IVec S2x640000 32 := broadcastInDim S2x640000 ![] bcast_S_S2x640000 main_c_6
  let main_v19 : IVec S2x640000 1 := cmpi .slt main_arg3 main_v18
  let main_c_7 : IVec S_ 1 := constantI S_ 1 1#1
  let main_v20 : IVec S_ 1 := (fun x v => Host.reduce IntOp.andi x v reducesTo_S2x640000_S_d0_1 h_S_) main_v19 main_c_7
  let main_v21 : IVec S_ 1 := andi main_v17 main_v20
  main_v21

def fn {F : FTy → Type} [FloatOps F] (main_arg0 : FVec F S10000x128 .f32) (main_arg1 : FVec F S128x128 .f32) (main_arg2 : FVec F S128 .f32) (main_arg3 : IVec S2x640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x640000 32 := broadcastInDim S2x640000 ![] bcast_S_S2x640000 main_c_4
  let main_v15 : IVec S2x640000 1 := cmpi .sge main_arg3 main_v14
  let main_c_5 : IVec S_ 1 := constantI S_ 1 1#1
  fn_part1 (F := F) main_arg3 main_v13 main_v15 main_c_5
-- ==== Kernel.lean ====
abbrev S10000x128 : Shape := ⟨2, ![10000, 128]⟩
abbrev S128x128 : Shape := ⟨2, ![128, 128]⟩
abbrev S128 : Shape := ⟨1, ![128]⟩
abbrev S2x640000 : Shape := ⟨2, ![2, 640000]⟩
abbrev S10000 : Shape := ⟨1, ![10000]⟩
abbrev S1x10000 : Shape := ⟨2, ![1, 10000]⟩
abbrev S1x1x1x10000 : Shape := ⟨4, ![1, 1, 1, 10000]⟩
abbrev S2x1x1x10000 : Shape := ⟨4, ![2, 1, 1, 10000]⟩
abbrev S2x10000 : Shape := ⟨2, ![2, 10000]⟩
abbrev S2x650000 : Shape := ⟨2, ![2, 650000]⟩
abbrev S1x650000 : Shape := ⟨2, ![1, 650000]⟩
abbrev S650000 : Shape := ⟨1, ![650000]⟩
abbrev S1000x128 : Shape := ⟨2, ![1000, 128]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S1x128 : Shape := ⟨2, ![1, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 71
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S2x640000, .i32⟩
  | .hbm, ⟨4, _⟩ => ⟨S10000, .i32⟩
  | .hbm, ⟨5, _⟩ => ⟨S1x10000, .i32⟩
  | .hbm, ⟨6, _⟩ => ⟨S1x1x1x10000, .i32⟩
  | .hbm, ⟨7, _⟩ => ⟨S2x1x1x10000, .i32⟩
  | .hbm, ⟨8, _⟩ => ⟨S2x10000, .i32⟩
  | .hbm, ⟨9, _⟩ => ⟨S2x650000, .i32⟩
  | .hbm, ⟨10, _⟩ => ⟨S1x650000, .i32⟩
  | .hbm, ⟨11, _⟩ => ⟨S650000, .i32⟩
  | .hbm, ⟨12, _⟩ => ⟨S1x650000, .i32⟩
  | .hbm, ⟨13, _⟩ => ⟨S650000, .i32⟩
  | .hbm, ⟨14, _⟩ => ⟨S128x128, .f32⟩
  | .hbm, ⟨15, _⟩ => ⟨S10000x128, .f32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S10000, .f32⟩
  | .hbm, ⟨20, _⟩ => ⟨S650000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S650000, .f32⟩
  | .hbm, ⟨44, _⟩ => ⟨S_, .f32⟩
  | .hbm, ⟨45, _⟩ => ⟨S10240x10240, .f32⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S650000x1, .i32⟩
  | .hbm, ⟨61, _⟩ => ⟨S650000x1, .i32⟩
  | .hbm, ⟨62, _⟩ => ⟨S650000x2, .i32⟩
  | .hbm, ⟨63, _⟩ => ⟨S10240x10240, .f32⟩
  | .hbm, ⟨64, _⟩ => ⟨S10240x10240, .bf16⟩
  | .hbm, ⟨65, _⟩ => ⟨S_, .i32⟩
  | .hbm, ⟨66, _⟩ => ⟨S_, .f32⟩
  | .hbm, ⟨67, _⟩ => ⟨S10240x128, .f32⟩
  | .hbm, ⟨68, _⟩ => ⟨S1x128, .f32⟩
  | .hbm, ⟨69, _⟩ => ⟨S10240x128, .f32⟩
  | .hbm, ⟨70, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1024x2048, .bf16⟩
  | .local _ .vmem, ⟨6, _⟩ => ⟨S1024x2048, .bf16⟩
  | .local _ .vmem, ⟨7, _⟩ => ⟨S2048x128, .f32⟩
  | .local _ .vmem, ⟨8, _⟩ => ⟨S2048x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_call0_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 5], ![false, false]⟩

def k1_cond2 (i : grid1.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S10000_S1x10000_1 : S10000.BroadcastsInDim S1x10000 (![1] : Fin 1 → Fin S1x10000.rank)
  shapeCasts_S1x10000_S1x1x1x10000 : S1x10000.ShapeCasts S1x1x1x10000
  bcast_S1x1x1x10000_S2x1x1x10000_0_1_2_3 : S1x1x1x10000.BroadcastsInDim S2x1x1x10000 (![0, 1, 2, 3] : Fin 4 → Fin S2x1x1x10000.rank)
  shapeCasts_S2x1x1x10000_S2x10000 : S2x1x1x10000.ShapeCasts S2x10000
  concatenates_S2x640000_S2x10000_S2x650000_d1 : Shape.Concatenates [S2x640000, S2x10000] S2x650000 1
  slices_S2x650000_S1x650000_0_0 : S2x650000.Slices ![0, 0] S1x650000
  shapeCasts_S1x650000_S650000 : S1x650000.ShapeCasts S650000
  slices_S2x650000_S1x650000_1_0 : S2x650000.Slices ![1, 0] S1x650000
  transposes_S128x128_S128x128_1_0 : S128x128.Transposes [1, 0] S128x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  pads_S10000x128_S10240x128_02400_000 : S10000x128.Pads (![0, 0] : Fin 2 → Nat) ![240, 0] ![0, 0] S10240x128
  h_S_ : 0 < S_.numel
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S10240x128_S10000x128_0_0 : S10240x128.Slices ![0, 0] S10000x128
  dot_S1000x128_S128x128_S1000x128_1_0_0_1_n_n_wf : DotDims.WF S1000x128 S128x128 S1000x128 [1] [0] [0] [1] [] []
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S10240x128.size a
  hwx1_1 : ∀ i : grid1.Coords, EltTy.bits .f32 = 32 ∨ (Rect.block (s := S10240x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S10240x128.size a
  hwx1_3 : ∀ i : grid1.Coords, EltTy.bits .f32 = 32 ∨ (Rect.block (s := S10240x128) S1024x128.size (cc1_transform_3 i) (hinb1_3 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S128x128 : Shape := ⟨2, ![128, 128]⟩
abbrev S128 : Shape := ⟨1, ![128]⟩
abbrev S2x640000 : Shape := ⟨2, ![2, 640000]⟩
abbrev S10000 : Shape := ⟨1, ![10000]⟩
abbrev S1x10000 : Shape := ⟨2, ![1, 10000]⟩
abbrev S1x1x1x10000 : Shape := ⟨4, ![1, 1, 1, 10000]⟩
abbrev S2x1x1x10000 : Shape := ⟨4, ![2, 1, 1, 10000]⟩
abbrev S2x10000 : Shape := ⟨2, ![2, 10000]⟩
abbrev S2x650000 : Shape := ⟨2, ![2, 650000]⟩
abbrev S1x650000 : Shape := ⟨2, ![1, 650000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S2x640000, .i32⟩
  | .hbm, ⟨4, _⟩ => ⟨S10000, .i32⟩
  | .hbm, ⟨5, _⟩ => ⟨S1x10000, .i32⟩
  | .hbm, ⟨6, _⟩ => ⟨S1x1x1x10000, .i32⟩
  | .hbm, ⟨7, _⟩ => ⟨S2x1x1x10000, .i32⟩
  | .hbm, ⟨8, _⟩ => ⟨S2x10000, .i32⟩
  | .hbm, ⟨9, _⟩ => ⟨S2x650000, .i32⟩
  | .hbm, ⟨10, _⟩ => ⟨S1x650000, .i32⟩
  | .hbm, ⟨11, _⟩ => ⟨S650000, .i32⟩
  | .hbm, ⟨12, _⟩ => ⟨S1x650000, .i32⟩
  | .hbm, ⟨13, _⟩ => ⟨S650000, .i32⟩
  | .hbm, ⟨14, _⟩ => ⟨S128x128, .f32⟩
  | .hbm, ⟨15, _⟩ => ⟨S10000x128, .f32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S10000, .f32⟩
  | .hbm, ⟨20, _⟩ => ⟨S650000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S650000, .f32⟩
  | .hbm, ⟨44, _⟩ => ⟨S650000x1, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000x128, .f32⟩
  | .hbm, ⟨54, _⟩ => ⟨S650000x128, .f32⟩
  | .hbm, ⟨55, _⟩ => ⟨S650000x128, .f32⟩
  | .hbm, ⟨56, _⟩ => ⟨S_, .f32⟩
  | .hbm, ⟨57, _⟩ => ⟨S10000x128, .f32⟩
  | .hbm, ⟨58, _⟩ => ⟨S650000x1, .i32⟩
  | .hbm, ⟨59, _⟩ => ⟨S10000x128, .f32⟩
  | .hbm, ⟨60, _⟩ => ⟨S1x128, .f32⟩
  | .hbm, ⟨61, _⟩ => ⟨S10000x128, .f32⟩
  | .hbm, ⟨62, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]

class Facts₀ : Prop where
  bcast_S10000_S1x10000_1 : S10000.BroadcastsInDim S1x10000 (![1] : Fin 1 → Fin S1x10000.rank)
  shapeCasts_S1x10000_S1x1x1x10000 : S1x10000.ShapeCasts S1x1x1x10000
  bcast_S1x1x1x10000_S2x1x1x10000_0_1_2_3 : S1x1x1x10000.BroadcastsInDim S2x1x1x10000 (![0, 1, 2, 3] : Fin 4 → Fin S2x1x1x10000.rank)
  shapeCasts_S2x1x1x10000_S2x10000 : S2x1x1x10000.ShapeCasts S2x10000
  concatenates_S2x640000_S2x10000_S2x650000_d1 : Shape.Concatenates [S2x640000, S2x10000] S2x650000 1
  slices_S2x650000_S1x650000_0_0 : S2x650000.Slices ![0, 0] S1x650000
  shapeCasts_S1x650000_S650000 : S1x650000.ShapeCasts S650000
  slices_S2x650000_S1x650000_1_0 : S2x650000.Slices ![1, 0] S1x650000
  transposes_S128x128_S128x128_1_0 : S128x128.Transposes [1, 0] S128x128
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.KB.Lin.lean ====
import proofs.«410450_j35880156791371_3_alg».proof.Proof.Gen.Kernel.Launch
import proofs.«410450_j35880156791371_3_alg».proof.Proof.Gen.Kernel.Skeleton
import proofs.«410450_j35880156791371_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the first call, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's staging buffer: the product of the row block with the transposed weights. -/
def linOut (x0 : Vec F S1000x128 .f32) (x1 : Vec F S128x128 .f32) : Vec F S1000x128 .f32 :=
  k0_pay1 x0 x1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => linOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = linOut (iblk0 V c 0 t) (iblk0 V c 1 t) := by dsimp only [dat0]

/-! ## The input windows' staging buffers at a point

Both inputs are read-only for the body and never cut: whatever the schedule fetched or kept, the buffer the body is
handed holds the window's block at that point. -/

/-- The row window's buffer holds the point's row block of `x`. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's buffer holds the (only) weight block, at the first point by the fetch and at every later one
    because its block index never moves. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

/-- The zero offsets of a rank-2 rectangle, as the constant function. -/
private theorem zeros2 : (![0, 0] : Fin 2 → Nat) = fun _ => 0 := funext fun a => by fin_cases a <;> rfl

/-- The whole-shape rectangle at zero offsets holds every index of the output buffer, so one store through it covers. -/
theorem cover0_2 (p0 : Vec F S1000x128 .f32) (y : S1000x128.Idx) :
    ∃ pc ∈ ([⟨Rect.unit (s := S1000x128) ![0, 0] S1000x128.size inb_S1000x128_S1000x128_0_0, p0⟩] : List (View.Piece (Elt F) S1000x128 .f32)),
      y ∈ pc.1.set :=
  ⟨_, List.mem_singleton_self _, View.mem_set_unit_zero (S := S1000x128) zeros2 inb_S1000x128_S1000x128_0_0 y⟩

set_option maxHeartbeats 1000000 in
/-- The body on whole staging memrefs: the row block `x0` and the weights `x1` are read and left as they were, the
    output buffer (read once, its value dropped) is overwritten whole by the product `linOut x0 x1`. -/
theorem sound_kernel0 (c : Dev nD) (E : Set ℕ) (i : grid0.Coords)
    (arg1 : Memref sig .tc .vmem S1000x128 .f32) (harg1 : arg1.IsWhole)
    (arg2 : Memref sig .tc .vmem S128x128 .f32) (harg2 : arg2.IsWhole)
    (arg3 : Memref sig .tc .vmem S1000x128 .f32) (harg3 : arg3.IsWhole)
    (x0 : Vec F S1000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (linOut x0 x1)) -∗ K ⟨⟩))
      ⊢ wp frame (wpE (defs₀ (F := F)) Variants.none c none) E (cc0__lin_kernel i arg1 harg1 arg2 harg2 arg3 harg3) K := by
  simp only [cc0__lin_kernel_eq_skeleton]; unfold cc0__lin_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads its payload; the payload's two loads read the inputs whole
  rw [View.read_writes_eq_canon _ _ _ (cover0_2 _),
    View.canon_unit_zero (S := S1000x128) zeros2 inb_S1000x128_S1000x128_0_0]
  show k0_pay1 (View.ld (View.read (Elt F) arg1.view f0) (Rect.unit ![0, 0] S1000x128.size inb_S1000x128_S1000x128_0_0))
      (View.ld (View.read (Elt F) arg2.view f1) (Rect.unit ![0, 0] S128x128.size inb_S128x128_S128x128_0_0)) = _
  rw [View.ld_unit_zero (S := S1000x128) zeros2 inb_S1000x128_S1000x128_0_0,
    View.ld_unit_zero (S := S128x128) zeros2 inb_S128x128_S128x128_0_0]
  rfl

/-! ## The body obligation, at a generic point -/

/-- What the body is called with at point `t`: the invariant, the core's debts, the two input buffers at their blocks
    (some fetch destination behind them) and the output buffer at whatever the schedule left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: invariant and debts as found, every buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies at those blocks; the
    invariant and the debts are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Spmm.lean ====
import proofs.«410450_j35880156791371_3_alg».proof.Proof.Gen.Kernel.Launch
import proofs.«410450_j35880156791371_3_alg».proof.Proof.Gen.Kernel.Skeleton
import proofs.«410450_j35880156791371_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the second call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n` (row-major over the 10 × 5 grid, so the reduction step is `n % 5`):
    at a first step the zero fill plus this step's product, afterwards the previous accumulator plus this step's product. -/
def spmmAcc (c : Dev nD) : (n : ℕ) → n < cfg1.N → Vec F S1024x128 .f32
  | 0, hn => k1_pay2 (iblk1 V c 1 ⟨0, hn⟩) (k1_pay1 (F := F)) (iblk1 V c 0 ⟨0, hn⟩)
  | n + 1, hn =>
    if (n + 1) % 5 = 0 then k1_pay2 (iblk1 V c 1 ⟨n + 1, hn⟩) (k1_pay1 (F := F)) (iblk1 V c 0 ⟨n + 1, hn⟩)
    else k1_pay2 (iblk1 V c 1 ⟨n + 1, hn⟩) (spmmAcc c n (Nat.lt_of_succ_lt hn)) (iblk1 V c 0 ⟨n + 1, hn⟩)

/-- What a last reduction step stores into the output window's staging buffer: the accumulator plus the bias row. -/
def spmmOut (c : Dev nD) (t : Fin cfg1.N) : Vec F S1024x128 .f32 :=
  k1_pay3 (spmmAcc V c t.val t.isLt) (iblk1 V c 2 t)

/-- The core's scoped buffers that this call neither stages a window in nor accumulates in, each whole at some
    contents: the body never names them, and the invariant carries them from entry to exit. -/
def otherStg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position `n`: at entry the scoped rest as the launch hands it over; afterwards the
    accumulator buffer at what the point before left, beside the other scoped buffers at anything and the generator
    register. -/
def PhiS (c : Dev nD) : (n : ℕ) → n ≤ cfg1.N → sProp 𝕄
  | 0, _ => Pipeline.ΦA spec1 c
  | n + 1, hn => iprop(owns (c : Thread nD τ) (Memref.whole cc1_scratch0) fullShare (spmmAcc V c n hn) ∗ otherStg (F := F) c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => spmmOut V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = spmmOut V c t := by dsimp only [dat1]

/-- The zero offsets of a rank-2 whole-buffer rectangle, as a constant function. -/
theorem zeros2 : (![0, 0] : Fin 2 → Nat) = fun _ => 0 := funext fun a => by fin_cases a <;> rfl

/-! ## The two conditions in closed form, and where the output window is idle -/

/-- The first branch's condition (the accumulator is zero-filled), from the grid coordinates. -/
abbrev condFirst (i : grid1.Coords) : Prop :=
  (Scalar.cmpi .ne (Scalar.extui (Scalar.cmpi .eq (BitVec.ofNat 32 (i 1).val) 0#32)) 0#32) = 1#1
/-- It holds at the positions ≡ 0 (mod 5): the first reduction step of each row block. -/
theorem hcondFirst : ∀ t : Fin cfg1.N, condFirst (grid1.coords t) ↔ t.val % 5 = 0 :=
  (by decide +kernel : ∀ t : Fin grid1.N, condFirst (grid1.coords t) ↔ t.val % 5 = 0)
/-- The second branch's condition (the output block is stored). -/
abbrev condLast (i : grid1.Coords) : Prop := k1_cond2 i = 1#1
/-- It holds at the positions ≡ 4 (mod 5): the last reduction step of each row block. -/
theorem hcondLast : ∀ t : Fin cfg1.N, condLast (grid1.coords t) ↔ t.val % 5 = 4 :=
  (by decide +kernel : ∀ t : Fin grid1.N, condLast (grid1.coords t) ↔ t.val % 5 = 4)

/-- The three input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from a last step the output window is idle and its block is not written back. -/
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
/-- At a last step it is live. -/
theorem live1_3 : ∀ t : Fin cfg1.N, condLast (grid1.coords t) → cfg1.idle 3 (grid1.coords t) = false := by decide +kernel

/-! ## The body on any whole buffers, one run per case

The three control cases of the body over a reduction step `k`: `k = 0` (the accumulator is zero-filled first, nothing
is stored to the output), `0 < k < 4` (neither branch), `k = 4` (the output block is stored). Each run states what every
buffer holds afterwards through the payload names; a store through the whole-buffer rectangle covers its buffer, so a
later load of that buffer reads the stored payload. -/

set_option maxHeartbeats 1000000 in
/-- A first reduction step on whole buffers: the accumulator, at anything, is zero-filled, read back, and left at the zero
    fill plus this step's product; the inputs' buffers and the output's (no store reaches it) are handed back as found. -/
theorem runFirst (c : Dev nD) (i : grid1.Coords)
    (arg2 : Memref sig .tc .vmem S1024x2048 .bf16) (harg2 : arg2.IsWhole)
    (arg3 : Memref sig .tc .vmem S2048x128 .f32) (harg3 : arg3.IsWhole)
    (arg4 : Memref sig .tc .vmem S1x128 .f32) (harg4 : arg4.IsWhole)
    (arg5 : Memref sig .tc .vmem S1024x128 .f32) (harg5 : arg5.IsWhole)
    (arg6 : Memref sig .tc .vmem S1024x128 .f32) (harg6 : arg6.IsWhole)
    (hc0 : condFirst i) (hc1 : ¬condLast i)
    (xA : Vec F S1024x2048 .bf16) (xh : Vec F S2048x128 .f32) (xb : Vec F S1x128 .f32) (xo : Vec F S1024x128 .f32)
    (E : Set ℕ) (K : PUnit → sProp 𝕄) :
    iprop(owns (c : Thread nD τ) arg2 fullShare xA ∗ owns (c : Thread nD τ) arg3 fullShare xh ∗ owns (c : Thread nD τ) arg4 fullShare xb
        ∗ owns (c : Thread nD τ) arg5 fullShare xo ∗ (∃ d, owns (c : Thread nD τ) arg6 fullShare d)
        ∗ (iprop(owns (c : Thread nD τ) arg2 fullShare xA ∗ owns (c : Thread nD τ) arg3 fullShare xh ∗ owns (c : Thread nD τ) arg4 fullShare xb
            ∗ owns (c : Thread nD τ) arg5 fullShare xo ∗ owns (c : Thread nD τ) arg6 fullShare (k1_pay2 xh (k1_pay1 (F := F)) xA)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  -- the last store covers the buffer, so it reads back as that store's payload; the loads of the inputs read their
  -- contents, and the accumulator read after the zero fill reads the fill
  rw [View.read_writes_eq_canon _ _ _ (fun y => ⟨_, List.mem_cons_self .., View.mem_set_unit_zero zeros2 inb_S1024x128_S1024x128_0_0 y⟩), View.canon_cons_unit_zero zeros2]
  rw [View.readAt_eq_ld, View.readAt_eq_ld, harg3.read_unread, harg2.read_unread, View.ld_unit_zero zeros2, View.ld_unit_zero zeros2]
  unfold runFirst.sl.v6 runFirst.sl.H6_1
  rw [View.readCov_unit_zero _ zeros2]

set_option maxHeartbeats 1000000 in
/-- A middle reduction step on whole buffers: the accumulator, at `xs`, is left at `xs` plus this step's product; the
    inputs' buffers and the output's (no store reaches it) are handed back as found. -/
theorem runMid (c : Dev nD) (i : grid1.Coords)
    (arg2 : Memref sig .tc .vmem S1024x2048 .bf16) (harg2 : arg2.IsWhole)
    (arg3 : Memref sig .tc .vmem S2048x128 .f32) (harg3 : arg3.IsWhole)
    (arg4 : Memref sig .tc .vmem S1x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condFirst i) (hc1 : ¬condLast i)
    (xA : Vec F S1024x2048 .bf16) (xh : Vec F S2048x128 .f32) (xb : Vec F S1x128 .f32) (xo : Vec F S1024x128 .f32)
    (xs : Vec F S1024x128 .f32) (E : Set ℕ) (K : PUnit → sProp 𝕄) :
    iprop(owns (c : Thread nD τ) arg2 fullShare xA ∗ owns (c : Thread nD τ) arg3 fullShare xh ∗ owns (c : Thread nD τ) arg4 fullShare xb
        ∗ owns (c : Thread nD τ) arg5 fullShare xo ∗ owns (c : Thread nD τ) arg6 fullShare xs
        ∗ (iprop(owns (c : Thread nD τ) arg2 fullShare xA ∗ owns (c : Thread nD τ) arg3 fullShare xh ∗ owns (c : Thread nD τ) arg4 fullShare xb
            ∗ owns (c : Thread nD τ) arg5 fullShare xo ∗ owns (c : Thread nD τ) arg6 fullShare (k1_pay2 xh xs xA)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  -- the one store covers the buffer, so it reads back as the store's payload; every load reads its buffer's contents
  rw [View.read_writes_eq_canon _ _ _ (fun y => ⟨_, List.mem_cons_self .., View.mem_set_unit_zero zeros2 inb_S1024x128_S1024x128_0_0 y⟩), View.canon_cons_unit_zero zeros2]
  rw [View.readAt_eq_ld, View.readAt_eq_ld, View.readAt_eq_ld, harg3.read_unread, harg2.read_unread, harg6.read_unread,
    View.ld_unit_zero zeros2, View.ld_unit_zero zeros2, View.ld_unit_zero zeros2]

set_option maxHeartbeats 1000000 in
/-- A last reduction step on whole buffers: the accumulator, at `xs`, is left at `xs` plus this step's product, and the
    output's buffer, at anything, at that sum plus the bias row; the inputs' buffers are handed back as found. -/
theorem runLast (c : Dev nD) (i : grid1.Coords)
    (arg2 : Memref sig .tc .vmem S1024x2048 .bf16) (harg2 : arg2.IsWhole)
    (arg3 : Memref sig .tc .vmem S2048x128 .f32) (harg3 : arg3.IsWhole)
    (arg4 : Memref sig .tc .vmem S1x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condFirst i) (hc1 : condLast i)
    (xA : Vec F S1024x2048 .bf16) (xh : Vec F S2048x128 .f32) (xb : Vec F S1x128 .f32)
    (xs : Vec F S1024x128 .f32) (E : Set ℕ) (K : PUnit → sProp 𝕄) :
    iprop(owns (c : Thread nD τ) arg2 fullShare xA ∗ owns (c : Thread nD τ) arg3 fullShare xh ∗ owns (c : Thread nD τ) arg4 fullShare xb
        ∗ (∃ d, owns (c : Thread nD τ) arg5 fullShare d) ∗ owns (c : Thread nD τ) arg6 fullShare xs
        ∗ (iprop(owns (c : Thread nD τ) arg2 fullShare xA ∗ owns (c : Thread nD τ) arg3 fullShare xh ∗ owns (c : Thread nD τ) arg4 fullShare xb
            ∗ owns (c : Thread nD τ) arg5 fullShare (k1_pay3 (k1_pay2 xh xs xA) xb) ∗ owns (c : Thread nD τ) arg6 fullShare (k1_pay2 xh xs xA)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  -- the accumulator's one store covers its buffer: it reads back as the store's payload, over the inputs' contents
  have hacc : View.canon (runLast.sl.H6_1 c arg2 harg2 arg3 harg3 arg6 harg6 xA xh xs) = k1_pay2 xh xs xA := by
    unfold runLast.sl.H6_1
    rw [View.canon_cons_unit_zero zeros2]
    rw [View.readAt_eq_ld, View.readAt_eq_ld, View.readAt_eq_ld, harg3.read_unread, harg2.read_unread, harg6.read_unread,
      View.ld_unit_zero zeros2, View.ld_unit_zero zeros2, View.ld_unit_zero zeros2]
  have hcov : ∀ y : S1024x128.Idx, ∃ p ∈ runLast.sl.H6_1 c arg2 harg2 arg3 harg3 arg6 harg6 xA xh xs, y ∈ p.1.set := by
    unfold runLast.sl.H6_1
    exact fun y => ⟨_, List.mem_cons_self .., View.mem_set_unit_zero zeros2 inb_S1024x128_S1024x128_0_0 y⟩
  isplitl [H5]
  · iexists _; isplitr
    swap; · iexact H5
    ipureintro
    -- the output's one store covers its buffer; the accumulator read back after its store reads that store's payload
    rw [View.read_writes_eq_canon _ _ _ (fun y => ⟨_, List.mem_cons_self .., View.mem_set_unit_zero zeros2 inb_S1024x128_S1024x128_0_0 y⟩),
      View.canon_cons_unit_zero zeros2]
    unfold runLast.sl.v17
    rw [View.readCov_eq_canon_ld _ _ _ hcov, hacc, View.readAt_eq_ld, harg4.read_unread, View.ld_unit_zero zeros2, View.ld_unit_zero zeros2]
  iexists _; isplitr
  swap; · iexact H6
  ipureintro
  rw [View.read_writes_eq_canon _ _ _ hcov, hacc]

/-! ## The accumulator's case equations and the invariant's rewriting lemmas -/

/-- At a first reduction step the accumulator is the zero fill plus this step's product. -/
theorem spmmAcc_first (c : Dev nD) (t : Fin cfg1.N) (h0 : t.val % 5 = 0) :
    spmmAcc V c t.val t.isLt = k1_pay2 (iblk1 V c 1 t) (k1_pay1 (F := F)) (iblk1 V c 0 t) := by
  obtain ⟨n, hn⟩ := t
  cases n with
  | zero => rfl
  | succ n => exact (if_pos h0).trans rfl

/-- At a later reduction step it is the accumulator of the position before plus this step's product. -/
theorem spmmAcc_later (c : Dev nD) (t : Fin cfg1.N) (h0 : ¬t.val % 5 = 0) :
    spmmAcc V c t.val t.isLt
      = k1_pay2 (iblk1 V c 1 t) (spmmAcc V c (t.val - 1) (Nat.lt_of_le_of_lt (Nat.sub_le _ _) t.isLt)) (iblk1 V c 0 t) := by
  obtain ⟨n, hn⟩ := t
  cases n with
  | zero => exact absurd (Nat.zero_mod _) h0
  | succ n => exact (if_neg h0).trans rfl

theorem PhiS_zero (c : Dev nD) (n : ℕ) (h : n ≤ cfg1.N) (hz : n = 0) : PhiS V c n h = Pipeline.ΦA spec1 c := by
  subst hz; rfl

/-- After position `n`: the accumulator buffer at that position's accumulator. -/
theorem PhiS_succ (c : Dev nD) (n : ℕ) (hn : n < cfg1.N) :
    PhiS V c (n + 1) hn = iprop(owns (c : Thread nD τ) (Memref.whole cc1_scratch0) fullShare (spmmAcc V c n hn) ∗ otherStg (F := F) c ∗ (∃ r, prngReg c r)) := rfl

/-- Before a position that is not the first: the accumulator buffer at what the position before left. -/
theorem PhiS_pos (c : Dev nD) (n : ℕ) (h : n ≤ cfg1.N) (hz : n ≠ 0) :
    PhiS V c n h = iprop(owns (c : Thread nD τ) (Memref.whole cc1_scratch0) fullShare (spmmAcc V c (n - 1) (by omega)) ∗ otherStg (F := F) c ∗ (∃ r, prngReg c r)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- The entry invariant with the scoped rest enumerated: the other scoped buffers, then the accumulator buffer as a
    whole memref at some contents, beside the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) (Memref.whole cc1_scratch0) fullShare d)) ∗ (∃ r, prngReg c r)) := by
  unfold Pipeline.ΦA; rw [scopedRest1_eq]; simp only [owns_whole]; try rfl

/-! ## The inputs' staging buffers hold their blocks -/

/-- Each window's current staging memref at point `t`, as the body is called with it, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)

/-- An input's current staging buffer holds its block at every point, fetched there or not: the body leaves the block
    in place, and an unfetched point has the block index of the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold their blocks; the closed forms say which of the three cases the
    position is in. The invariant hands the body the accumulator buffer (at anything at the first position, at what the
    position before left afterwards) and takes it back at this position's accumulator; away from a last step the output's
    buffer goes back as it was found, at a last step it holds the accumulator plus the bias row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 50 := lt_of_lt_of_eq t.isLt (show cfg1.N = 50 from N_1)
  by_cases h0 : t.val % 5 = 0
  · -- a first step: zero fill, no output store
    have hf : condFirst (grid1.coords t) := (hcondFirst t).mpr h0
    have hl : ¬condLast (grid1.coords t) := fun h => by have := (hcondLast t).mp h; omega
    rw [Dat.leavesExact_idle (dat1 V c) 3 t (idle1_3 t hl) (noFlush1_3 t hl)]
    rw [spmmAcc_first V c t h0]
    by_cases hz : t.val = 0
    · rw [PhiS_castSucc V c t, PhiS_zero V c _ _ hz, PhiA1_eq]
      iintro ⟨⟨⟨B1, B2, B3, B4, B5, HS⟩, Hg⟩, Ho, ⟨%d0, H0⟩, ⟨%d1, H1⟩, ⟨%d2, H2⟩, ⟨%d3, H3⟩⟩
      iapply (runFirst c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS B1 B2 B3 B4 B5 Hg]
      · isplitl [HS]; · iexact HS
        isplitr [Hg]
        · unfold otherStg
          isplitl [B1]; · iexact B1
          isplitl [B2]; · iexact B2
          isplitl [B3]; · iexact B3
          isplitl [B4]; · iexact B4
          iexact B5
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, HB, Hg⟩, Ho, ⟨%d0, H0⟩, ⟨%d1, H1⟩, ⟨%d2, H2⟩, ⟨%d3, H3⟩⟩
      iapply (runFirst c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HB Hg]
      · isplitl [HS]; · iexact HS
        isplitl [HB]; · iexact HB
        iexact Hg
      isplitl [Ho]; · iexact Ho
      isplitl [H0]; · iexact H0
      isplitl [H1]; · iexact H1
      isplitl [H2]; · iexact H2
      iexists _; iexact H3
  · have hf : ¬condFirst (grid1.coords t) := fun h => h0 ((hcondFirst t).mp h)
    have hz : t.val ≠ 0 := fun h => h0 (by rw [h])
    rw [spmmAcc_later V c t h0]
    rw [PhiS_castSucc V c t, PhiS_pos V c _ _ hz]
    by_cases h4 : t.val % 5 = 4
    · -- a last step: the output block is stored
      have hl : condLast (grid1.coords t) := (hcondLast t).mpr h4
      rw [show (dat1 V c).leavesExact 3 t = owns (c : Thread nD τ) (ms1_3 t) fullShare ((dat1 V c).after 3 t) from by
        unfold Dat.leavesExact; rw [live1_3 t hl], after1_3]
      unfold spmmOut
      rw [spmmAcc_later V c t h0]
      iintro ⟨⟨HS, HB, Hg⟩, Ho, ⟨%d0, H0⟩, ⟨%d1, H1⟩, ⟨%d2, H2⟩, ⟨%d3, H3⟩⟩
      iapply (runLast c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HB Hg]
      · isplitl [HS]; · iexact HS
        isplitl [HB]; · iexact HB
        iexact Hg
      isplitl [Ho]; · iexact Ho
      isplitl [H0]; · iexact H0
      isplitl [H1]; · iexact H1
      isplitl [H2]; · iexact H2
      iexact H3
    · -- a middle step: neither
      have hl : ¬condLast (grid1.coords t) := fun h => h4 ((hcondLast t).mp h)
      rw [Dat.leavesExact_idle (dat1 V c) 3 t (idle1_3 t hl) (noFlush1_3 t hl)]
      iintro ⟨⟨HS, HB, Hg⟩, Ho, ⟨%d0, H0⟩, ⟨%d1, H1⟩, ⟨%d2, H2⟩, ⟨%d3, H3⟩⟩
      iapply (runMid c (grid1.coords t) _ _ _ _ _ _ _ _ _ _ hf hl (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HB Hg]
      · isplitl [HS]; · iexact HS
        isplitl [HB]; · iexact HB
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the scoped rest back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold otherStg
  iintro ⟨HS, ⟨B1, B2, B3, B4, B5⟩, Hg⟩
  isplitr [Hg]
  · isplitl [B1]; · iexact B1
    isplitl [B2]; · iexact B2
    isplitl [B3]; · iexact B3
    isplitl [B4]; · iexact B4
    isplitl [B5]; · iexact B5
    iexists _; iexact HS
  iexact Hg

/-- After the last point the invariant gives the scoped rest back, the accumulator's contents forgotten. -/
theorem hout1 (c : Dev nD) : (dat1 V c).Φ (Fin.last cfg1.N) ⊢ Pipeline.ΦA spec1 c :=
  Phi_out1 V c _ (by rw [Fin.val_last]; have : cfg1.N = 50 := N_1; omega)

end Cert.Kernel.Hand

end
-- ==== Proof.KB.Run.lean ====
import proofs.«410450_j35880156791371_3_alg».proof.Proof.Gen.Kernel.Regions
import proofs.«410450_j35880156791371_3_alg».proof.Proof.KB.Lin
import proofs.«410450_j35880156791371_3_alg».proof.Proof.KB.Spmm
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave in the buffers -/

/-- The contents the first call is entered from, read at the TensorCore's references. -/
abbrev E1 : (c : Dev nD) → (b : Ref sig .tc) → Buf (Elt F) ((c : Thread nD τ).loc b) := fun c b => V1 m c b

/-- After the first call: its arrays at what the write-backs leave, every other buffer as entered. -/
def W2 (c : Dev nD) : Valuation τ sig (Elt F) :=
  Pipeline.withArrays spec0 c (V1 m c) fun w => (dat0 (E1 m) c).arrAt w cfg0.N

/-- The first call's result, enough to name the contents the second call is entered from. -/
def outs2 : Outs (F := F) := fun _ r c => W2 m c r

/-- The contents the second call is entered from. -/
abbrev E5 : (c : Dev nD) → (b : Ref sig .tc) → Buf (Elt F) ((c : Thread nD τ).loc b) := fun c b => V5 m (outs2 m) c b

/-- After the second call. -/
def W6 (c : Dev nD) : Valuation τ sig (Elt F) :=
  Pipeline.withArrays spec1 c (V5 m (outs2 m) c) fun w => (dat1 (E5 m) c).arrAt w cfg1.N

/-- What the two calls leave in their result arrays. -/
def houts : Outs (F := F) := fun J r c => if J = 2 then W2 m c r else W6 m c r

theorem houts_2 (r : Ref sig .tc) (c : Dev nD) : houts m 2 r c = W2 m c r := rfl
theorem houts_6 (r : Ref sig .tc) (c : Dev nD) : houts m 6 r c = W6 m c r := rfl

/-- The second call's entry contents do not depend on what the second call leaves. -/
theorem V5_houts (c : Dev nD) : V5 m (houts m) c = V5 m (outs2 m) c := rfl

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w

/-- What the first call's result array holds afterwards. -/
theorem houts_v11 (c : Dev nD) : houts m 2 main_v11 c = (dat0 (E1 m) c).arrAt 2 cfg0.N := W2_arr m c 2
/-- What the second call's result array holds afterwards. -/
theorem houts_v51 (c : Dev nD) : houts m 6 main_v51 c = (dat1 (E5 m) c).arrAt 3 cfg1.N := W6_arr m c 3

/-- At the first call's exit each of its arrays holds what the write-backs leave: the inputs as entered, the result
    at its folded blocks. -/
theorem hF0 (c : Dev nD) (w : Fin cfg0.W) :
    (dat0 (E1 m) c).arrAt w cfg0.N = V2 m (houts m) c (Pipeline.arrRef spec0 w) := by
  match w with
  | ⟨0, _⟩ => exact ((dat0 (E1 m) c).arrAt_in 0 rfl _).trans ((A_eq0 (E1 m) c 0).trans (V2_of m (houts m) c main_arg0 (by decide)).symm)
  | ⟨1, _⟩ => exact ((dat0 (E1 m) c).arrAt_in 1 rfl _).trans ((A_eq0 (E1 m) c 1).trans (V2_of m (houts m) c main_v10 (by decide)).symm)
  | ⟨2, _⟩ => exact (houts_v11 m c).symm.trans (by simp only [V2, Function.update_self])

theorem hrest0 (c : Dev nD) : ∀ b, b ∉ Finset.univ.image (Pipeline.arrRef spec0) → V2 m (houts m) c b = V1 m c b :=
  fun b hb => V2_of m (houts m) c b (by
    intro h
    rw [List.mem_singleton] at h
    exact hb (Finset.mem_image.mpr ⟨2, Finset.mem_univ _, h.symm⟩))

theorem hF1 (c : Dev nD) (w : Fin cfg1.W) :
    (dat1 (E5 m) c).arrAt w cfg1.N = V6 m (houts m) c (Pipeline.arrRef spec1 w) := by
  match w with
  | ⟨0, _⟩ => exact ((dat1 (E5 m) c).arrAt_in 0 rfl _).trans ((A_eq1 (E5 m) c 0).trans (V6_of m (houts m) c main_v48 (by decide)).symm)
  | ⟨1, _⟩ => exact ((dat1 (E5 m) c).arrAt_in 1 rfl _).trans ((A_eq1 (E5 m) c 1).trans (V6_of m (houts m) c main_v49 (by decide)).symm)
  | ⟨2, _⟩ => exact ((dat1 (E5 m) c).arrAt_in 2 rfl _).trans ((A_eq1 (E5 m) c 2).trans (V6_of m (houts m) c main_v50 (by decide)).symm)
  | ⟨3, _⟩ => exact (houts_v51 m c).symm.trans (by simp only [V6, Function.update_self])

theorem hrest1 (c : Dev nD) : ∀ b, b ∉ Finset.univ.image (Pipeline.arrRef spec1) → V6 m (houts m) c b = V5 m (houts m) c b :=
  fun b hb => V6_of m (houts m) c b (by
    intro h
    rw [List.mem_singleton] at h
    exact hb (Finset.mem_image.mpr ⟨3, Finset.mem_univ _, h.symm⟩))

/-! ## The proof data of both calls, and what rides beside the buffers -/

/-- Each call's proof data at the contents it is entered from. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c

/-- No core owes another anything. -/
abbrev L : GSem nD τ sig → Finset Unit := fun _ => ∅
abbrev lv : GSem nD τ sig → Unit → ℕ := fun _ _ => 0

/-- Beside the buffers, between any two items: the generator register at some state, and nothing owed. -/
abbrev Rr (c : Dev nD) : sProp 𝕄 :=
  iprop((∃ r, prngReg c r) ∗ ∃ W, owes (c : Thread nD τ) (0 : CellTallies nD τ sig Unit) W)

set_option backward.isDefEq.respectTransparency.types false in
/-- The first call over the thread state: its arrays split out of the unscoped buffers and put back at the exit
    contents; the generator register into the invariant and out; nothing owed; no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (houts m) c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (houts m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: as the first, its invariant starting from and ending at the scoped rest
    (the accumulator's contents are the invariant's own business in between). -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (V5 m (houts m) c) ∗ Rr c)
  post c := iprop(StableHlo.held (c : Thread nD τ) (Pipeline.ucRefs τ sig) (V6 m (houts m) c) ∗ Rr c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    rw [V5_houts]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E5 m) c)
    unfold Pipeline.ΦA
    iintro ⟨Hp, -, Hr⟩
    isplitl [Hr]; · iexact Hr
    iexact Hp
  hout c := by
    rw [Pipeline.ownSems0_none]
    refine BIBase.Entails.trans (hout1 (E5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (houts m) c b) ((pdats m 1 c).arrAt · cfg1.N) (hF1 m c) (fun b hb => (hrest1 m c b hb).trans (congrFun (V5_houts m c) b))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last link of the chain: the generator register stays with the buffers, the empty debt is handed back. -/
theorem hlast (c : Dev nD) :
    iprop(StableHlo.held (c : Thread nD τ) (Pipeline.ucRefs τ sig) (V7 m (houts m) c) ∗ Rr (F := F) c)
      ⊢ iprop((StableHlo.held (c : Thread nD τ) (Pipeline.ucRefs τ sig) (V7 m (houts m) c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    unscoped buffer ends at the last valuation: the launch contents, then each host stretch, the two calls' result
    arrays at what their write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V7 m (houts m) c b) := by
  refine Pipeline.θ_run_regions_kit_dev (pcfgs (F := F)) adm (pdats m) () cellOf_inj emb₁ defs₀ Variants.none L lv m ρ main
    (segs m (houts m) Variants.none L lv (fun _ c => Rr c) () (pdats m) (reg0 m) (reg1 m))
    (fun c Q => by
      rewrite [main_chain c, Seg.run_eq_chain,
        show (segs m (houts m) Variants.none L lv (fun _ c => Rr c) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V7 m (houts m) c) ∗ ∃ r, prngReg c r))
    (hch := fun c => ⟨.rfl, .rfl, .rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m (houts m) c b)
    (hfin := fun c s' => by
      iintro ⟨⟨Hh, -⟩, HSI⟩
      unfold StableHlo.held
      imodintro
      iapply (pointsTo_read_all (Pipeline.ucRefs τ sig) (fun b => (((c : Thread nD τ)).1, b)) (V7 m (houts m) c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V7_main_arg0 m (houts m) c),
     (h c _ (mem_uc main_arg1 (by decide))).trans (V7_main_arg1 m (houts m) c),
     (h c _ (mem_uc main_arg2 (by decide))).trans (V7_main_arg2 m (houts m) c),
     (h c _ (mem_uc main_arg3 (by decide))).trans (V7_main_arg3 m (houts m) c)⟩) (run_all m ρ)

end Cert.Kernel.Hand

end
-- ==== Proof.KI.Lin.lean ====
import proofs.«410450_j35880156791371_3_alg».proof.Proof.Gen.KernelIdeal.Launch
import proofs.«410450_j35880156791371_3_alg».proof.Proof.Gen.KernelIdeal.Skeleton
import proofs.«410450_j35880156791371_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the first call, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's staging buffer: the product of the row block with the transposed weights. -/
def linOut (x0 : Vec F S1000x128 .f32) (x1 : Vec F S128x128 .f32) : Vec F S1000x128 .f32 :=
  k0_pay1 x0 x1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => linOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = linOut (iblk0 V c 0 t) (iblk0 V c 1 t) := by dsimp only [dat0]

/-! ## The input windows' staging buffers at a point

Both inputs are read-only for the body and never cut: whatever the schedule fetched or kept, the buffer the body is
handed holds the window's block at that point. -/

/-- The row window's buffer holds the point's row block of `x`. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's buffer holds the (only) weight block, at the first point by the fetch and at every later one
    because its block index never moves. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

/-- The zero offsets of a rank-2 rectangle, as the constant function. -/
private theorem zeros2 : (![0, 0] : Fin 2 → Nat) = fun _ => 0 := funext fun a => by fin_cases a <;> rfl

/-- The whole-shape rectangle at zero offsets holds every index of the output buffer, so one store through it covers. -/
theorem cover0_2 (p0 : Vec F S1000x128 .f32) (y : S1000x128.Idx) :
    ∃ pc ∈ ([⟨Rect.unit (s := S1000x128) ![0, 0] S1000x128.size inb_S1000x128_S1000x128_0_0, p0⟩] : List (View.Piece (Elt F) S1000x128 .f32)),
      y ∈ pc.1.set :=
  ⟨_, List.mem_singleton_self _, View.mem_set_unit_zero (S := S1000x128) zeros2 inb_S1000x128_S1000x128_0_0 y⟩

set_option maxHeartbeats 1000000 in
/-- The body on whole staging memrefs: the row block `x0` and the weights `x1` are read and left as they were, the
    output buffer (read once, its value dropped) is overwritten whole by the product `linOut x0 x1`. -/
theorem sound_kernel0 (c : Dev nD) (E : Set ℕ) (i : grid0.Coords)
    (arg1 : Memref sig .tc .vmem S1000x128 .f32) (harg1 : arg1.IsWhole)
    (arg2 : Memref sig .tc .vmem S128x128 .f32) (harg2 : arg2.IsWhole)
    (arg3 : Memref sig .tc .vmem S1000x128 .f32) (harg3 : arg3.IsWhole)
    (x0 : Vec F S1000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (linOut x0 x1)) -∗ K ⟨⟩))
      ⊢ wp frame (wpE (defs₀ (F := F)) Variants.none c none) E (cc0__lin_kernel i arg1 harg1 arg2 harg2 arg3 harg3) K := by
  simp only [cc0__lin_kernel_eq_skeleton]; unfold cc0__lin_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads its payload; the payload's two loads read the inputs whole
  rw [View.read_writes_eq_canon _ _ _ (cover0_2 _),
    View.canon_unit_zero (S := S1000x128) zeros2 inb_S1000x128_S1000x128_0_0]
  show k0_pay1 (View.ld (View.read (Elt F) arg1.view f0) (Rect.unit ![0, 0] S1000x128.size inb_S1000x128_S1000x128_0_0))
      (View.ld (View.read (Elt F) arg2.view f1) (Rect.unit ![0, 0] S128x128.size inb_S128x128_S128x128_0_0)) = _
  rw [View.ld_unit_zero (S := S1000x128) zeros2 inb_S1000x128_S1000x128_0_0,
    View.ld_unit_zero (S := S128x128) zeros2 inb_S128x128_S128x128_0_0]
  rfl

/-! ## The body obligation, at a generic point -/

/-- What the body is called with at point `t`: the invariant, the core's debts, the two input buffers at their blocks
    (some fetch destination behind them) and the output buffer at whatever the schedule left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: invariant and debts as found, every buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies at those blocks; the
    invariant and the debts are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Spmm.lean ====
import proofs.«410450_j35880156791371_3_alg».proof.Proof.Gen.KernelIdeal.Launch
import proofs.«410450_j35880156791371_3_alg».proof.Proof.Gen.KernelIdeal.Skeleton
import proofs.«410450_j35880156791371_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t` of the second call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n` (row-major over the 10 × 5 grid, so the reduction step is `n % 5`):
    at a first step the zero fill plus this step's product, afterwards the previous accumulator plus this step's product. -/
def spmmAcc (c : Dev nD) : (n : ℕ) → n < cfg1.N → Vec F S1024x128 .f32
  | 0, hn => k1_pay2 (iblk1 V c 1 ⟨0, hn⟩) (k1_pay1 (F := F)) (iblk1 V c 0 ⟨0, hn⟩)
  | n + 1, hn =>
    if (n + 1) % 5 = 0 then k1_pay2 (iblk1 V c 1 ⟨n + 1, hn⟩) (k1_pay1 (F := F)) (iblk1 V c 0 ⟨n + 1, hn⟩)
    else k1_pay2 (iblk1 V c 1 ⟨n + 1, hn⟩) (spmmAcc c n (Nat.lt_of_succ_lt hn)) (iblk1 V c 0 ⟨n + 1, hn⟩)

/-- What a last reduction step stores into the output window's staging buffer: the accumulator plus the bias row. -/
def spmmOut (c : Dev nD) (t : Fin cfg1.N) : Vec F S1024x128 .f32 :=
  k1_pay3 (spmmAcc V c t.val t.isLt) (iblk1 V c 2 t)

/-- The core's scoped buffers that this call neither stages a window in nor accumulates in, each whole at some
    contents: the body never names them, and the invariant carries them from entry to exit. -/
def otherStg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position `n`: at entry the scoped rest as the launch hands it over; afterwards the
    accumulator buffer at what the point before left, beside the other scoped buffers at anything and the generator
    register. -/
def PhiS (c : Dev nD) : (n : ℕ) → n ≤ cfg1.N → sProp 𝕄
  | 0, _ => Pipeline.ΦA spec1 c
  | n + 1, hn => iprop(owns (c : Thread nD τ) (Memref.whole cc1_scratch0) fullShare (spmmAcc V c n hn) ∗ otherStg (F := F) c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => spmmOut V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = spmmOut V c t := by dsimp only [dat1]

/-- The zero offsets of a rank-2 whole-buffer rectangle, as a constant function. -/
theorem zeros2 : (![0, 0] : Fin 2 → Nat) = fun _ => 0 := funext fun a => by fin_cases a <;> rfl

/-! ## The two conditions in closed form, and where the output window is idle -/

/-- The first branch's condition (the accumulator is zero-filled), from the grid coordinates. -/
abbrev condFirst (i : grid1.Coords) : Prop :=
  (Scalar.cmpi .ne (Scalar.extui (Scalar.cmpi .eq (BitVec.ofNat 32 (i 1).val) 0#32)) 0#32) = 1#1
/-- It holds at the positions ≡ 0 (mod 5): the first reduction step of each row block. -/
theorem hcondFirst : ∀ t : Fin cfg1.N, condFirst (grid1.coords t) ↔ t.val % 5 = 0 :=
  (by decide +kernel : ∀ t : Fin grid1.N, condFirst (grid1.coords t) ↔ t.val % 5 = 0)
/-- The second branch's condition (the output block is stored). -/
abbrev condLast (i : grid1.Coords) : Prop := k1_cond2 i = 1#1
/-- It holds at the positions ≡ 4 (mod 5): the last reduction step of each row block. -/
theorem hcondLast : ∀ t : Fin cfg1.N, condLast (grid1.coords t) ↔ t.val % 5 = 4 :=
  (by decide +kernel : ∀ t : Fin grid1.N, condLast (grid1.coords t) ↔ t.val % 5 = 4)

/-- The three input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from a last step the output window is idle and its block is not written back. -/
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
/-- At a last step it is live. -/
theorem live1_3 : ∀ t : Fin cfg1.N, condLast (grid1.coords t) → cfg1.idle 3 (grid1.coords t) = false := by decide +kernel

/-! ## The body on any whole buffers, one run per case

The three control cases of the body over a reduction step `k`: `k = 0` (the accumulator is zero-filled first, nothing
is stored to the output), `0 < k < 4` (neither branch), `k = 4` (the output block is stored). Each run states what every
buffer holds afterwards through the payload names; a store through the whole-buffer rectangle covers its buffer, so a
later load of that buffer reads the stored payload. -/

set_option maxHeartbeats 1000000 in
/-- A first reduction step on whole buffers: the accumulator, at anything, is zero-filled, read back, and left at the zero
    fill plus this step's product; the inputs' buffers and the output's (no store reaches it) are handed back as found. -/
theorem runFirst (c : Dev nD) (i : grid1.Coords)
    (arg2 : Memref sig .tc .vmem S1024x2048 .bf16) (harg2 : arg2.IsWhole)
    (arg3 : Memref sig .tc .vmem S2048x128 .f32) (harg3 : arg3.IsWhole)
    (arg4 : Memref sig .tc .vmem S1x128 .f32) (harg4 : arg4.IsWhole)
    (arg5 : Memref sig .tc .vmem S1024x128 .f32) (harg5 : arg5.IsWhole)
    (arg6 : Memref sig .tc .vmem S1024x128 .f32) (harg6 : arg6.IsWhole)
    (hc0 : condFirst i) (hc1 : ¬condLast i)
    (xA : Vec F S1024x2048 .bf16) (xh : Vec F S2048x128 .f32) (xb : Vec F S1x128 .f32) (xo : Vec F S1024x128 .f32)
    (E : Set ℕ) (K : PUnit → sProp 𝕄) :
    iprop(owns (c : Thread nD τ) arg2 fullShare xA ∗ owns (c : Thread nD τ) arg3 fullShare xh ∗ owns (c : Thread nD τ) arg4 fullShare xb
        ∗ owns (c : Thread nD τ) arg5 fullShare xo ∗ (∃ d, owns (c : Thread nD τ) arg6 fullShare d)
        ∗ (iprop(owns (c : Thread nD τ) arg2 fullShare xA ∗ owns (c : Thread nD τ) arg3 fullShare xh ∗ owns (c : Thread nD τ) arg4 fullShare xb
            ∗ owns (c : Thread nD τ) arg5 fullShare xo ∗ owns (c : Thread nD τ) arg6 fullShare (k1_pay2 xh (k1_pay1 (F := F)) xA)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  -- the last store covers the buffer, so it reads back as that store's payload; the loads of the inputs read their
  -- contents, and the accumulator read after the zero fill reads the fill
  rw [View.read_writes_eq_canon _ _ _ (fun y => ⟨_, List.mem_cons_self .., View.mem_set_unit_zero zeros2 inb_S1024x128_S1024x128_0_0 y⟩), View.canon_cons_unit_zero zeros2]
  rw [View.readAt_eq_ld, View.readAt_eq_ld, harg3.read_unread, harg2.read_unread, View.ld_unit_zero zeros2, View.ld_unit_zero zeros2]
  unfold runFirst.sl.v6 runFirst.sl.H6_1
  rw [View.readCov_unit_zero _ zeros2]

set_option maxHeartbeats 1000000 in
/-- A middle reduction step on whole buffers: the accumulator, at `xs`, is left at `xs` plus this step's product; the
    inputs' buffers and the output's (no store reaches it) are handed back as found. -/
theorem runMid (c : Dev nD) (i : grid1.Coords)
    (arg2 : Memref sig .tc .vmem S1024x2048 .bf16) (harg2 : arg2.IsWhole)
    (arg3 : Memref sig .tc .vmem S2048x128 .f32) (harg3 : arg3.IsWhole)
    (arg4 : Memref sig .tc .vmem S1x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condFirst i) (hc1 : ¬condLast i)
    (xA : Vec F S1024x2048 .bf16) (xh : Vec F S2048x128 .f32) (xb : Vec F S1x128 .f32) (xo : Vec F S1024x128 .f32)
    (xs : Vec F S1024x128 .f32) (E : Set ℕ) (K : PUnit → sProp 𝕄) :
    iprop(owns (c : Thread nD τ) arg2 fullShare xA ∗ owns (c : Thread nD τ) arg3 fullShare xh ∗ owns (c : Thread nD τ) arg4 fullShare xb
        ∗ owns (c : Thread nD τ) arg5 fullShare xo ∗ owns (c : Thread nD τ) arg6 fullShare xs
        ∗ (iprop(owns (c : Thread nD τ) arg2 fullShare xA ∗ owns (c : Thread nD τ) arg3 fullShare xh ∗ owns (c : Thread nD τ) arg4 fullShare xb
            ∗ owns (c : Thread nD τ) arg5 fullShare xo ∗ owns (c : Thread nD τ) arg6 fullShare (k1_pay2 xh xs xA)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  -- the one store covers the buffer, so it reads back as the store's payload; every load reads its buffer's contents
  rw [View.read_writes_eq_canon _ _ _ (fun y => ⟨_, List.mem_cons_self .., View.mem_set_unit_zero zeros2 inb_S1024x128_S1024x128_0_0 y⟩), View.canon_cons_unit_zero zeros2]
  rw [View.readAt_eq_ld, View.readAt_eq_ld, View.readAt_eq_ld, harg3.read_unread, harg2.read_unread, harg6.read_unread,
    View.ld_unit_zero zeros2, View.ld_unit_zero zeros2, View.ld_unit_zero zeros2]

set_option maxHeartbeats 1000000 in
/-- A last reduction step on whole buffers: the accumulator, at `xs`, is left at `xs` plus this step's product, and the
    output's buffer, at anything, at that sum plus the bias row; the inputs' buffers are handed back as found. -/
theorem runLast (c : Dev nD) (i : grid1.Coords)
    (arg2 : Memref sig .tc .vmem S1024x2048 .bf16) (harg2 : arg2.IsWhole)
    (arg3 : Memref sig .tc .vmem S2048x128 .f32) (harg3 : arg3.IsWhole)
    (arg4 : Memref sig .tc .vmem S1x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condFirst i) (hc1 : condLast i)
    (xA : Vec F S1024x2048 .bf16) (xh : Vec F S2048x128 .f32) (xb : Vec F S1x128 .f32)
    (xs : Vec F S1024x128 .f32) (E : Set ℕ) (K : PUnit → sProp 𝕄) :
    iprop(owns (c : Thread nD τ) arg2 fullShare xA ∗ owns (c : Thread nD τ) arg3 fullShare xh ∗ owns (c : Thread nD τ) arg4 fullShare xb
        ∗ (∃ d, owns (c : Thread nD τ) arg5 fullShare d) ∗ owns (c : Thread nD τ) arg6 fullShare xs
        ∗ (iprop(owns (c : Thread nD τ) arg2 fullShare xA ∗ owns (c : Thread nD τ) arg3 fullShare xh ∗ owns (c : Thread nD τ) arg4 fullShare xb
            ∗ owns (c : Thread nD τ) arg5 fullShare (k1_pay3 (k1_pay2 xh xs xA) xb) ∗ owns (c : Thread nD τ) arg6 fullShare (k1_pay2 xh xs xA)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  -- the accumulator's one store covers its buffer: it reads back as the store's payload, over the inputs' contents
  have hacc : View.canon (runLast.sl.H6_1 c arg2 harg2 arg3 harg3 arg6 harg6 xA xh xs) = k1_pay2 xh xs xA := by
    unfold runLast.sl.H6_1
    rw [View.canon_cons_unit_zero zeros2]
    rw [View.readAt_eq_ld, View.readAt_eq_ld, View.readAt_eq_ld, harg3.read_unread, harg2.read_unread, harg6.read_unread,
      View.ld_unit_zero zeros2, View.ld_unit_zero zeros2, View.ld_unit_zero zeros2]
  have hcov : ∀ y : S1024x128.Idx, ∃ p ∈ runLast.sl.H6_1 c arg2 harg2 arg3 harg3 arg6 harg6 xA xh xs, y ∈ p.1.set := by
    unfold runLast.sl.H6_1
    exact fun y => ⟨_, List.mem_cons_self .., View.mem_set_unit_zero zeros2 inb_S1024x128_S1024x128_0_0 y⟩
  isplitl [H5]
  · iexists _; isplitr
    swap; · iexact H5
    ipureintro
    -- the output's one store covers its buffer; the accumulator read back after its store reads that store's payload
    rw [View.read_writes_eq_canon _ _ _ (fun y => ⟨_, List.mem_cons_self .., View.mem_set_unit_zero zeros2 inb_S1024x128_S1024x128_0_0 y⟩),
      View.canon_cons_unit_zero zeros2]
    unfold runLast.sl.v17
    rw [View.readCov_eq_canon_ld _ _ _ hcov, hacc, View.readAt_eq_ld, harg4.read_unread, View.ld_unit_zero zeros2, View.ld_unit_zero zeros2]
  iexists _; isplitr
  swap; · iexact H6
  ipureintro
  rw [View.read_writes_eq_canon _ _ _ hcov, hacc]

/-! ## The accumulator's case equations and the invariant's rewriting lemmas -/

/-- At a first reduction step the accumulator is the zero fill plus this step's product. -/
theorem spmmAcc_first (c : Dev nD) (t : Fin cfg1.N) (h0 : t.val % 5 = 0) :
    spmmAcc V c t.val t.isLt = k1_pay2 (iblk1 V c 1 t) (k1_pay1 (F := F)) (iblk1 V c 0 t) := by
  obtain ⟨n, hn⟩ := t
  cases n with
  | zero => rfl
  | succ n => exact (if_pos h0).trans rfl

/-- At a later reduction step it is the accumulator of the position before plus this step's product. -/
theorem spmmAcc_later (c : Dev nD) (t : Fin cfg1.N) (h0 : ¬t.val % 5 = 0) :
    spmmAcc V c t.val t.isLt
      = k1_pay2 (iblk1 V c 1 t) (spmmAcc V c (t.val - 1) (Nat.lt_of_le_of_lt (Nat.sub_le _ _) t.isLt)) (iblk1 V c 0 t) := by
  obtain ⟨n, hn⟩ := t
  cases n with
  | zero => exact absurd (Nat.zero_mod _) h0
  | succ n => exact (if_neg h0).trans rfl

theorem PhiS_zero (c : Dev nD) (n : ℕ) (h : n ≤ cfg1.N) (hz : n = 0) : PhiS V c n h = Pipeline.ΦA spec1 c := by
  subst hz; rfl

/-- After position `n`: the accumulator buffer at that position's accumulator. -/
theorem PhiS_succ (c : Dev nD) (n : ℕ) (hn : n < cfg1.N) :
    PhiS V c (n + 1) hn = iprop(owns (c : Thread nD τ) (Memref.whole cc1_scratch0) fullShare (spmmAcc V c n hn) ∗ otherStg (F := F) c ∗ (∃ r, prngReg c r)) := rfl

/-- Before a position that is not the first: the accumulator buffer at what the position before left. -/
theorem PhiS_pos (c : Dev nD) (n : ℕ) (h : n ≤ cfg1.N) (hz : n ≠ 0) :
    PhiS V c n h = iprop(owns (c : Thread nD τ) (Memref.whole cc1_scratch0) fullShare (spmmAcc V c (n - 1) (by omega)) ∗ otherStg (F := F) c ∗ (∃ r, prngReg c r)) := by
  cases n with
  | zero => exact absurd rfl hz
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- The entry invariant with the scoped rest enumerated: the other scoped buffers, then the accumulator buffer as a
    whole memref at some contents, beside the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) (Memref.whole cc1_scratch0) fullShare d)) ∗ (∃ r, prngReg c r)) := by
  unfold Pipeline.ΦA; rw [scopedRest1_eq]; simp only [owns_whole]; try rfl

/-! ## The inputs' staging buffers hold their blocks -/

/-- Each window's current staging memref at point `t`, as the body is called with it, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)

/-- An input's current staging buffer holds its block at every point, fetched there or not: the body leaves the block
    in place, and an unfetched point has the block index of the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold their blocks; the closed forms say which of the three cases the
    position is in. The invariant hands the body the accumulator buffer (at anything at the first position, at what the
    position before left afterwards) and takes it back at this position's accumulator; away from a last step the output's
    buffer goes back as it was found, at a last step it holds the accumulator plus the bias row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 50 := lt_of_lt_of_eq t.isLt (show cfg1.N = 50 from N_1)
  by_cases h0 : t.val % 5 = 0
  · -- a first step: zero fill, no output store
    have hf : condFirst (grid1.coords t) := (hcondFirst t).mpr h0
    have hl : ¬condLast (grid1.coords t) := fun h => by have := (hcondLast t).mp h; omega
    rw [Dat.leavesExact_idle (dat1 V c) 3 t (idle1_3 t hl) (noFlush1_3 t hl)]
    rw [spmmAcc_first V c t h0]
    by_cases hz : t.val = 0
    · rw [PhiS_castSucc V c t, PhiS_zero V c _ _ hz, PhiA1_eq]
      iintro ⟨⟨⟨B1, B2, B3, B4, B5, HS⟩, Hg⟩, Ho, ⟨%d0, H0⟩, ⟨%d1, H1⟩, ⟨%d2, H2⟩, ⟨%d3, H3⟩⟩
      iapply (runFirst c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS B1 B2 B3 B4 B5 Hg]
      · isplitl [HS]; · iexact HS
        isplitr [Hg]
        · unfold otherStg
          isplitl [B1]; · iexact B1
          isplitl [B2]; · iexact B2
          isplitl [B3]; · iexact B3
          isplitl [B4]; · iexact B4
          iexact B5
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, HB, Hg⟩, Ho, ⟨%d0, H0⟩, ⟨%d1, H1⟩, ⟨%d2, H2⟩, ⟨%d3, H3⟩⟩
      iapply (runFirst c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HB Hg]
      · isplitl [HS]; · iexact HS
        isplitl [HB]; · iexact HB
        iexact Hg
      isplitl [Ho]; · iexact Ho
      isplitl [H0]; · iexact H0
      isplitl [H1]; · iexact H1
      isplitl [H2]; · iexact H2
      iexists _; iexact H3
  · have hf : ¬condFirst (grid1.coords t) := fun h => h0 ((hcondFirst t).mp h)
    have hz : t.val ≠ 0 := fun h => h0 (by rw [h])
    rw [spmmAcc_later V c t h0]
    rw [PhiS_castSucc V c t, PhiS_pos V c _ _ hz]
    by_cases h4 : t.val % 5 = 4
    · -- a last step: the output block is stored
      have hl : condLast (grid1.coords t) := (hcondLast t).mpr h4
      rw [show (dat1 V c).leavesExact 3 t = owns (c : Thread nD τ) (ms1_3 t) fullShare ((dat1 V c).after 3 t) from by
        unfold Dat.leavesExact; rw [live1_3 t hl], after1_3]
      unfold spmmOut
      rw [spmmAcc_later V c t h0]
      iintro ⟨⟨HS, HB, Hg⟩, Ho, ⟨%d0, H0⟩, ⟨%d1, H1⟩, ⟨%d2, H2⟩, ⟨%d3, H3⟩⟩
      iapply (runLast c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HB Hg]
      · isplitl [HS]; · iexact HS
        isplitl [HB]; · iexact HB
        iexact Hg
      isplitl [Ho]; · iexact Ho
      isplitl [H0]; · iexact H0
      isplitl [H1]; · iexact H1
      isplitl [H2]; · iexact H2
      iexact H3
    · -- a middle step: neither
      have hl : ¬condLast (grid1.coords t) := fun h => h4 ((hcondLast t).mp h)
      rw [Dat.leavesExact_idle (dat1 V c) 3 t (idle1_3 t hl) (noFlush1_3 t hl)]
      iintro ⟨⟨HS, HB, Hg⟩, Ho, ⟨%d0, H0⟩, ⟨%d1, H1⟩, ⟨%d2, H2⟩, ⟨%d3, H3⟩⟩
      iapply (runMid c (grid1.coords t) _ _ _ _ _ _ _ _ _ _ hf hl (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HB Hg]
      · isplitl [HS]; · iexact HS
        isplitl [HB]; · iexact HB
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the scoped rest back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold otherStg
  iintro ⟨HS, ⟨B1, B2, B3, B4, B5⟩, Hg⟩
  isplitr [Hg]
  · isplitl [B1]; · iexact B1
    isplitl [B2]; · iexact B2
    isplitl [B3]; · iexact B3
    isplitl [B4]; · iexact B4
    isplitl [B5]; · iexact B5
    iexists _; iexact HS
  iexact Hg

/-- After the last point the invariant gives the scoped rest back, the accumulator's contents forgotten. -/
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KI.Run.lean ====
import proofs.«410450_j35880156791371_3_alg».proof.Proof.Gen.KernelIdeal.Regions
import proofs.«410450_j35880156791371_3_alg».proof.Proof.KI.Lin
import proofs.«410450_j35880156791371_3_alg».proof.Proof.KI.Spmm
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave in the buffers -/

/-- The contents the first call is entered from, read at the TensorCore's references. -/
abbrev E1 : (c : Dev nD) → (b : Ref sig .tc) → Buf (Elt F) ((c : Thread nD τ).loc b) := fun c b => V1 m c b

/-- After the first call: its arrays at what the write-backs leave, every other buffer as entered. -/
def W2 (c : Dev nD) : Valuation τ sig (Elt F) :=
  Pipeline.withArrays spec0 c (V1 m c) fun w => (dat0 (E1 m) c).arrAt w cfg0.N

/-- The first call's result, enough to name the contents the second call is entered from. -/
def outs2 : Outs (F := F) := fun _ r c => W2 m c r

/-- The contents the second call is entered from. -/
abbrev E5 : (c : Dev nD) → (b : Ref sig .tc) → Buf (Elt F) ((c : Thread nD τ).loc b) := fun c b => V5 m (outs2 m) c b

/-- After the second call. -/
def W6 (c : Dev nD) : Valuation τ sig (Elt F) :=
  Pipeline.withArrays spec1 c (V5 m (outs2 m) c) fun w => (dat1 (E5 m) c).arrAt w cfg1.N

/-- What the two calls leave in their result arrays. -/
def houts : Outs (F := F) := fun J r c => if J = 2 then W2 m c r else W6 m c r

theorem houts_2 (r : Ref sig .tc) (c : Dev nD) : houts m 2 r c = W2 m c r := rfl
theorem houts_6 (r : Ref sig .tc) (c : Dev nD) : houts m 6 r c = W6 m c r := rfl

/-- The second call's entry contents do not depend on what the second call leaves. -/
theorem V5_houts (c : Dev nD) : V5 m (houts m) c = V5 m (outs2 m) c := rfl

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w

/-- What the first call's result array holds afterwards. -/
theorem houts_v11 (c : Dev nD) : houts m 2 main_v11 c = (dat0 (E1 m) c).arrAt 2 cfg0.N := W2_arr m c 2
/-- What the second call's result array holds afterwards. -/
theorem houts_v51 (c : Dev nD) : houts m 6 main_v51 c = (dat1 (E5 m) c).arrAt 3 cfg1.N := W6_arr m c 3

/-- At the first call's exit each of its arrays holds what the write-backs leave: the inputs as entered, the result
    at its folded blocks. -/
theorem hF0 (c : Dev nD) (w : Fin cfg0.W) :
    (dat0 (E1 m) c).arrAt w cfg0.N = V2 m (houts m) c (Pipeline.arrRef spec0 w) := by
  match w with
  | ⟨0, _⟩ => exact ((dat0 (E1 m) c).arrAt_in 0 rfl _).trans ((A_eq0 (E1 m) c 0).trans (V2_of m (houts m) c main_arg0 (by decide)).symm)
  | ⟨1, _⟩ => exact ((dat0 (E1 m) c).arrAt_in 1 rfl _).trans ((A_eq0 (E1 m) c 1).trans (V2_of m (houts m) c main_v10 (by decide)).symm)
  | ⟨2, _⟩ => exact (houts_v11 m c).symm.trans (by simp only [V2, Function.update_self])

theorem hrest0 (c : Dev nD) : ∀ b, b ∉ Finset.univ.image (Pipeline.arrRef spec0) → V2 m (houts m) c b = V1 m c b :=
  fun b hb => V2_of m (houts m) c b (by
    intro h
    rw [List.mem_singleton] at h
    exact hb (Finset.mem_image.mpr ⟨2, Finset.mem_univ _, h.symm⟩))

theorem hF1 (c : Dev nD) (w : Fin cfg1.W) :
    (dat1 (E5 m) c).arrAt w cfg1.N = V6 m (houts m) c (Pipeline.arrRef spec1 w) := by
  match w with
  | ⟨0, _⟩ => exact ((dat1 (E5 m) c).arrAt_in 0 rfl _).trans ((A_eq1 (E5 m) c 0).trans (V6_of m (houts m) c main_v48 (by decide)).symm)
  | ⟨1, _⟩ => exact ((dat1 (E5 m) c).arrAt_in 1 rfl _).trans ((A_eq1 (E5 m) c 1).trans (V6_of m (houts m) c main_v49 (by decide)).symm)
  | ⟨2, _⟩ => exact ((dat1 (E5 m) c).arrAt_in 2 rfl _).trans ((A_eq1 (E5 m) c 2).trans (V6_of m (houts m) c main_v50 (by decide)).symm)
  | ⟨3, _⟩ => exact (houts_v51 m c).symm.trans (by simp only [V6, Function.update_self])

theorem hrest1 (c : Dev nD) : ∀ b, b ∉ Finset.univ.image (Pipeline.arrRef spec1) → V6 m (houts m) c b = V5 m (houts m) c b :=
  fun b hb => V6_of m (houts m) c b (by
    intro h
    rw [List.mem_singleton] at h
    exact hb (Finset.mem_image.mpr ⟨3, Finset.mem_univ _, h.symm⟩))

/-! ## The proof data of both calls, and what rides beside the buffers -/

/-- Each call's proof data at the contents it is entered from. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c

/-- No core owes another anything. -/
abbrev L : GSem nD τ sig → Finset Unit := fun _ => ∅
abbrev lv : GSem nD τ sig → Unit → ℕ := fun _ _ => 0

/-- Beside the buffers, between any two items: the generator register at some state, and nothing owed. -/
abbrev Rr (c : Dev nD) : sProp 𝕄 :=
  iprop((∃ r, prngReg c r) ∗ ∃ W, owes (c : Thread nD τ) (0 : CellTallies nD τ sig Unit) W)

set_option backward.isDefEq.respectTransparency.types false in
/-- The first call over the thread state: its arrays split out of the unscoped buffers and put back at the exit
    contents; the generator register into the invariant and out; nothing owed; no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (houts m) c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (houts m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: as the first, its invariant starting from and ending at the scoped rest
    (the accumulator's contents are the invariant's own business in between). -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (V5 m (houts m) c) ∗ Rr c)
  post c := iprop(StableHlo.held (c : Thread nD τ) (Pipeline.ucRefs τ sig) (V6 m (houts m) c) ∗ Rr c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    rw [V5_houts]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E5 m) c)
    unfold Pipeline.ΦA
    iintro ⟨Hp, -, Hr⟩
    isplitl [Hr]; · iexact Hr
    iexact Hp
  hout c := by
    rw [Pipeline.ownSems0_none]
    refine BIBase.Entails.trans (hout1 (E5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (houts m) c b) ((pdats m 1 c).arrAt · cfg1.N) (hF1 m c) (fun b hb => (hrest1 m c b hb).trans (congrFun (V5_houts m c) b))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last link of the chain: the generator register stays with the buffers, the empty debt is handed back. -/
theorem hlast (c : Dev nD) :
    iprop(StableHlo.held (c : Thread nD τ) (Pipeline.ucRefs τ sig) (V7 m (houts m) c) ∗ Rr (F := F) c)
      ⊢ iprop((StableHlo.held (c : Thread nD τ) (Pipeline.ucRefs τ sig) (V7 m (houts m) c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    unscoped buffer ends at the last valuation: the launch contents, then each host stretch, the two calls' result
    arrays at what their write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V7 m (houts m) c b) := by
  refine Pipeline.θ_run_regions_kit_dev (pcfgs (F := F)) adm (pdats m) () cellOf_inj emb₁ defs₀ Variants.none L lv m ρ main
    (segs m (houts m) Variants.none L lv (fun _ c => Rr c) () (pdats m) (reg0 m) (reg1 m))
    (fun c Q => by
      rewrite [main_chain c, Seg.run_eq_chain,
        show (segs m (houts m) Variants.none L lv (fun _ c => Rr c) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V7 m (houts m) c) ∗ ∃ r, prngReg c r))
    (hch := fun c => ⟨.rfl, .rfl, .rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m (houts m) c b)
    (hfin := fun c s' => by
      iintro ⟨⟨Hh, -⟩, HSI⟩
      unfold StableHlo.held
      imodintro
      iapply (pointsTo_read_all (Pipeline.ucRefs τ sig) (fun b => (((c : Thread nD τ)).1, b)) (V7 m (houts m) c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V7_main_arg0 m (houts m) c),
     (h c _ (mem_uc main_arg1 (by decide))).trans (V7_main_arg1 m (houts m) c),
     (h c _ (mem_uc main_arg2 (by decide))).trans (V7_main_arg2 m (houts m) c),
     (h c _ (mem_uc main_arg3 (by decide))).trans (V7_main_arg3 m (houts m) c)⟩) (run_all m ρ)

end Cert.KernelIdeal.Hand

end
-- ==== Proof.Spec.lean ====
import Idealize.ShloMosaic.PureOps.Ideal
import Idealize.ShloMosaic.Lib.ValueIdx
import Mathlib.Algebra.BigOperators.Fin

noncomputable section

open scoped BigOperators

/-! # Graph convolution with symmetric degree normalisation, as two arrangements of one sum

650000 edges (640000 given ones, then one self loop per node) over 10000 nodes with 128 channels. Edge `e` goes from its
source node `r e` to its target node `c e`. Everything is stated on the extended reals. -/

namespace Cert.Gcn

open Idealize.ShloMosaic Idealize.ShloMosaic.ValueIdx

section Maps

variable (r c : Fin 650000 → Fin 10000)
variable (x : Fin 10000 → Fin 128 → EReal) (W : Fin 128 → Fin 128 → EReal) (b : Fin 128 → EReal)

/-- The linear layer: node `n`'s features against output channel `j`'s weight row. -/
def lin (n : Fin 10000) (j : Fin 128) : EReal := ∑ k : Fin 128, x n k * W j k

/-- The in-degree of node `n`: the number of edges whose target it is. -/
def deg (n : Fin 10000) : EReal := ∑ _e ∈ Finset.univ.filter (fun e => c e = n), (1 : EReal)

/-- The degree to the power −1/2 (the exponent is the f32 word of −0.5). -/
def dis (n : Fin 10000) : EReal := Ideal.pow (deg c n) (Ideal.ofBits .f32 0xBF000000#32)

/-- Edge `e`'s weight: the product of its two ends' normalisers. -/
def norm (e : Fin 650000) : EReal := dis c (r e) * dis c (c e)

/-- The edgewise arrangement: node `n` sums its incoming edges' weighted source features, then adds the bias. -/
def ref (n : Fin 10000) (j : Fin 128) : EReal :=
  (∑ e ∈ Finset.univ.filter (fun e => c e = n), norm r c e * lin x W (r e) j) + b j

/-- The dense weighted adjacency on 10240 padded nodes: entry (n, s) sums the weights of the edges from s to n. -/
def adj (n s : Fin 10240) : EReal :=
  ∑ e ∈ Finset.univ.filter (fun e => (c e).val = n.val ∧ (r e).val = s.val), norm r c e

/-- The linear layer's output padded with 240 zero rows. -/
def linPad (s : Fin 10240) (j : Fin 128) : EReal :=
  if h : s.val < 10000 then lin x W ⟨s.val, h⟩ j else 0

/-- One reduction tile of 2048 source nodes of the dense product's row `n`. -/
def tile (n : Fin 10240) (j : Fin 128) (κ : Fin 5) : EReal :=
  ∑ q : Fin 2048, adj r c n ⟨2048 * κ.val + q.val, by omega⟩ * linPad x W ⟨2048 * κ.val + q.val, by omega⟩ j

/-- The dense arrangement: the five tiles accumulated in order, then the bias. -/
def ker (n : Fin 10000) (j : Fin 128) : EReal :=
  let n' : Fin 10240 := ⟨n.val, by omega⟩
  (tile r c x W n' j 0 + tile r c x W n' j 1 + tile r c x W n' j 2 + tile r c x W n' j 3 + tile r c x W n' j 4) + b j

end Maps

section Words

/-- The edge array as 32-bit words: row 0 the sources, row 1 the targets. -/
abbrev EdgeWords : Type := IVec (⟨2, ![2, 640000]⟩ : Shape) 32

/-- Every given end is a node id. -/
def InRange (ei : EdgeWords) : Prop := ∀ i, 0 ≤ (ei i).toInt ∧ (ei i).toInt < 10000

/-- Edge `e`'s source word: a given edge's, or the self loop's node. -/
def rowWord (ei : EdgeWords) (e : Fin 650000) : BitVec 32 :=
  if h : e.val < 640000 then ei (ix2 (0 : Fin 2) (⟨e.val, h⟩ : Fin 640000)) else BitVec.ofNat 32 (e.val - 640000)

/-- Edge `e`'s target word. -/
def colWord (ei : EdgeWords) (e : Fin 650000) : BitVec 32 :=
  if h : e.val < 640000 then ei (ix2 (1 : Fin 2) (⟨e.val, h⟩ : Fin 640000)) else BitVec.ofNat 32 (e.val - 640000)

/-- A word as a node: read signed, negative to 0, clamped to the last node. On a node id it is the id. -/
def nodeOf (w : BitVec 32) : Fin 10000 := ⟨min w.toInt.toNat 9999, by omega⟩

/-- Edge `e`'s source and target nodes. -/
def rowNode (ei : EdgeWords) (e : Fin 650000) : Fin 10000 := nodeOf (rowWord ei e)
def colNode (ei : EdgeWords) (e : Fin 650000) : Fin 10000 := nodeOf (colWord ei e)

end Words

end Cert.Gcn

end
-- ==== Proof.LibBincount.lean ====
/-
  Counting by a scatter that adds: `Host.scatter` with the body the 32-bit addition, `N` scalar updates, an operand
  of `M` words and one-component index vectors (no update window axis, the operand's one axis inserted, the index
  vector on the indices' second axis).

  An update lands where its index word says, the word read SIGNED and not clamped; an update whose index is outside
  `[0, M)` is dropped. So the result at `s` is the operand's word plus the sum of the updates whose index word is `s`
  (`scatter_add_apply`). With the operand all zeros, every update the word `1` and `N < 2 ^ 31`, the result at `s`,
  read unsigned or signed, is the NUMBER of updates whose index word is `s` (`scatter_ones_toNat`,
  `scatter_ones_toInt`).
-/
import Idealize.ShloMosaic.PureOps.Ideal
import Idealize.ShloMosaic.Lib.ValueIdx
import Mathlib.Data.BitVec
import Mathlib.Algebra.BigOperators.Fin

namespace Cert.LibBincount

open Idealize.ShloMosaic Idealize.ShloMosaic.ValueIdx

/-- A left fold whose step adds `u n` at the one place `g n` names (nowhere when it names none), read at one
    place `i0`: the start there plus the `u n` with `g n = some i0`. -/
theorem foldl_step_apply {ι κ A : Type*} [AddMonoid A] (step : (κ → A) → ι → κ → A)
    (g : ι → Option κ) (u : ι → A) [DecidableEq κ]
    (hstep : ∀ r n i', step r n i' = if g n = some i' then r i' + u n else r i')
    (l : List ι) (x : κ → A) (i0 : κ) :
    (l.foldl step x) i0 = x i0 + (l.map fun n => if g n = some i0 then u n else 0).sum := by
  induction l generalizing x with
  | nil => simp
  | cons a l ih =>
    rw [List.foldl_cons, ih, hstep, List.map_cons, List.sum_cons]
    by_cases hg : g a = some i0
    · rw [if_pos hg, if_pos hg, add_assoc]
    · rw [if_neg hg, if_neg hg, zero_add]

/-- A rank-1 index set is its coordinate's range. -/
def idxEquiv1 {n : ℕ} : (⟨1, ![n]⟩ : Shape).Idx ≃ Fin n where
  toFun i := i 0
  invFun a := ix1 a
  left_inv i := (eq_ix1 i).symm
  right_inv _ := rfl

/-- An update of a scatter of scalars at one-component index vectors lands at `s` exactly when its index word,
    read signed, is `s`. -/
theorem resultIdx?_eq_some_iff {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (idx : IVec ⟨2, ![N, 1]⟩ w) (n : Fin N) (s : Fin M) :
    d.resultIdx? (ix1 n) idx = some (ix1 s) ↔ (idx (ix2 n 0)).toInt = (s.val : ℤ) := by
  obtain ⟨uw, iw, sd, iv, wf⟩ := d
  simp only at h1 h2 h3 h4
  subst h1 h2 h3 h4
  have hstart : (ScatterDims.mk [] [0] [0] 1 wf).start (ix1 n) idx 0 = (idx (ix2 n 0)).toInt := by
    unfold ScatterDims.start
    rw [dif_pos (show (0 : Fin 1) ∈ (ScatterDims.mk [] [0] [0] 1 wf).scatterDimsToOperandDims from
      List.mem_singleton.mpr rfl)]
    congr 2
    funext b
    refine Fin.ext ?_
    match b with
    | ⟨0, _⟩ => rfl
    | ⟨1, _⟩ => rfl
  have hwin : (ScatterDims.mk [] [0] [0] 1 wf).window (ix1 n) 0 = 0 := by
    unfold ScatterDims.window
    rw [dif_neg]
    intro hmem
    have hk : (ScatterDims.mk [] [0] [0] 1 wf).sKept = [] :=
      (by decide : (List.finRange 1).filter (fun a : Fin 1 => decide (a ∉ ([0] : List (Fin 1)))) = [])
    rw [hk] at hmem
    exact List.not_mem_nil hmem
  unfold ScatterDims.resultIdx?
  by_cases hin : 0 ≤ (idx (ix2 n 0)).toInt ∧ (idx (ix2 n 0)).toInt < (M : ℤ)
  · rw [dif_pos (by
      intro a
      obtain rfl : a = 0 := Subsingleton.elim _ _
      rw [hstart, hwin]
      simpa using hin)]
    rw [Option.some_inj]
    constructor
    · intro hf
      have h0 := congrArg (fun f => (f 0).val) hf
      simp only [hstart, hwin] at h0
      have h0' : ((idx (ix2 n 0)).toInt + ((0 : ℕ) : ℤ)).toNat = s.val := h0
      omega
    · intro ht
      funext a
      obtain rfl : a = 0 := Subsingleton.elim _ _
      apply Fin.ext
      show ((ScatterDims.mk [] [0] [0] 1 wf).start (ix1 n) idx 0
        + (((ScatterDims.mk [] [0] [0] 1 wf).window (ix1 n) 0 : ℕ) : ℤ)).toNat = s.val
      rw [hstart, hwin, ht]
      simp
  · rw [dif_neg (by
      intro hall
      apply hin
      have := hall 0
      rw [hstart, hwin] at this
      simpa using this)]
    constructor
    · intro hf
      cases hf
    · intro ht
      exfalso
      apply hin
      rw [ht]
      exact ⟨by omega, by exact_mod_cast s.isLt⟩

/-- The scatter at `s`: the operand's word plus the updates whose index word, read signed, is `s`. -/
theorem scatter_add_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : IVec ⟨2, ![N, 1]⟩ w) (upd : (⟨1, ![N]⟩ : Shape).Idx → BitVec 32)
    (s : Fin M) :
    Host.scatter d IntOp.addi x idx upd (ix1 s)
      = x (ix1 s) + ∑ n : Fin N, if (idx (ix2 n 0)).toInt = (s.val : ℤ) then upd (ix1 n) else 0 := by
  unfold Host.scatter
  rw [foldl_step_apply _ (fun n => d.resultIdx? ((Shape.rowMajor ⟨1, ![N]⟩).symm n) idx)
    (fun n => upd ((Shape.rowMajor ⟨1, ![N]⟩).symm n)) ?hstep]
  case hstep =>
    intro r n i'
    generalize d.resultIdx? ((Shape.rowMajor ⟨1, ![N]⟩).symm n) idx = o
    cases o with
    | none => simp
    | some i =>
      by_cases hi : i' = i
      · subst hi; simp [IntOp.addi]
      · simp [hi, Ne.symm hi]
  rw [← Fin.sum_univ_def]
  congr 1
  rw [Equiv.sum_comp (Shape.rowMajor ⟨1, ![N]⟩).symm
    (fun i => if d.resultIdx? i idx = some (ix1 s) then upd i else 0)]
  rw [← Equiv.sum_comp (idxEquiv1 (n := N)).symm]
  refine Finset.sum_congr rfl (fun n _ => ?_)
  show (if d.resultIdx? (ix1 n) idx = some (ix1 s) then upd (ix1 n) else 0) = _
  simp only [resultIdx?_eq_some_iff M N d h1 h2 h3 h4 idx n s]

/-- A set of indices below `N < 2 ^ 31` has fewer than `2 ^ 31` members. -/
theorem card_filter_lt (N : ℕ) (hN : N < 2 ^ 31) (p : Fin N → Prop) [DecidablePred p] :
    (Finset.univ.filter p).card < 2 ^ 31 :=
  lt_of_le_of_lt (le_trans (Finset.card_filter_le _ _) (by simp)) hN

/-- A number below `2 ^ 31` cast to a 32-bit word reads back unsigned as itself. -/
theorem toNat_natCast_of_lt (c : ℕ) (hc : c < 2 ^ 31) : ((c : BitVec 32)).toNat = c := by
  rw [BitVec.natCast_eq_ofNat, BitVec.toNat_ofNat]
  exact Nat.mod_eq_of_lt (by omega)

/-- A number below `2 ^ 31` cast to a 32-bit word reads back signed as itself. -/
theorem toInt_natCast_of_lt (c : ℕ) (hc : c < 2 ^ 31) : ((c : BitVec 32)).toInt = (c : ℤ) := by
  rw [BitVec.toInt_eq_toNat_of_lt (by rw [toNat_natCast_of_lt c hc]; omega), toNat_natCast_of_lt c hc]

/-- All-ones updates into zeros: the scatter at `s` is, as a word, the number of updates whose index word is `s`. -/
theorem scatter_ones_eq_card {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    Host.scatter d IntOp.addi x idx upd (ix1 s)
      = ((Finset.univ.filter fun n : Fin N => (idx (ix2 n 0)).toInt = (s.val : ℤ)).card : BitVec 32) := by
  rw [scatter_add_apply M N d h1 h2 h3 h4 x idx upd s, hx, ← Finset.sum_boole]
  have h0 : ∀ a : BitVec 32, 0#32 + a = a := fun a => by simp
  rw [h0]
  refine Finset.sum_congr rfl (fun n _ => ?_)
  rw [hupd]
  simp

/-- All-ones updates into zeros, fewer than `2 ^ 31` of them: the word at `s` read unsigned counts the updates
    whose index word is `s`. -/
theorem scatter_ones_toNat {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toNat
      = (Finset.univ.filter fun n : Fin N => (idx (ix2 n 0)).toInt = (s.val : ℤ)).card := by
  rw [scatter_ones_eq_card M N d h1 h2 h3 h4 x hx idx upd hupd s]
  exact toNat_natCast_of_lt _ (card_filter_lt N hN _)

/-- The same count, the word read signed. -/
theorem scatter_ones_toInt {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toInt
      = ((Finset.univ.filter fun n : Fin N => (idx (ix2 n 0)).toInt = (s.val : ℤ)).card : ℤ) := by
  rw [scatter_ones_eq_card M N d h1 h2 h3 h4 x hx idx upd hupd s]
  exact toInt_natCast_of_lt _ (card_filter_lt N hN _)

end Cert.LibBincount
-- ==== Proof.LibScatterAdd1.lean ====
/-
  The float scatter that adds, at one-component index vectors: an operand of `M` values, `N` scalar updates, no update
  window axis, the operand's one axis inserted, the index vector on the indices' second axis.

  An update lands where its index word says, the word read SIGNED and not clamped; an update whose index is outside
  `[0, M)` is dropped. At the ideal values the colliding updates are added exactly, in no particular order, so the
  result at `s` is the operand's value there plus the sum, over ALL updates, of the update if its index word is `s`
  and of zero if not.
-/
import proofs.«410450_j35880156791371_3_alg».proof.Proof.LibBincount
import Idealize.ShloMosaic.PureOps.Ideal
import Idealize.ShloMosaic.PureOps.Contract
import Idealize.ShloMosaic.Lib.ValueIdx
import Mathlib.Algebra.BigOperators.Fin

namespace Cert.LibScatterAdd1

open Idealize.ShloMosaic Idealize.ShloMosaic.ValueIdx

/-- The exact accumulating scatter at `s`: the operand's value plus the updates whose index word, read signed, is `s`. -/
theorem hostScatterAdd_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![N, 1]⟩ w) (upd : (⟨1, ![N]⟩ : Shape).Idx → EReal)
    (s : Fin M) :
    Ideal.hostScatterAdd d x idx upd (ix1 s)
      = x (ix1 s) + ∑ n : Fin N, if (idx (ix2 n 0)).toInt = (s.val : ℤ) then upd (ix1 n) else 0 := by
  unfold Ideal.hostScatterAdd
  congr 1
  rw [Finset.sum_filter, ← Equiv.sum_comp (Cert.LibBincount.idxEquiv1 (n := N)).symm]
  refine Finset.sum_congr rfl (fun n _ => ?_)
  show (if d.resultIdx? (ix1 n) idx = some (ix1 s) then upd (ix1 n) else 0) = _
  simp only [Cert.LibBincount.resultIdx?_eq_some_iff M N d h1 h2 h3 h4 idx n s]

/-- The same for the host operation as a program states it, at any float format. -/
theorem scatterAdd_apply {w : ℕ} {φ : FTy} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : FVec Ideal ⟨1, ![M]⟩ φ) (idx : IVec ⟨2, ![N, 1]⟩ w) (upd : FVec Ideal ⟨1, ![N]⟩ φ) (s : Fin M) :
    Host.scatterAdd d x idx upd (ix1 s)
      = (x (ix1 s) + ∑ n : Fin N, if (idx (ix2 n 0)).toInt = (s.val : ℤ) then upd (ix1 n) else 0 : EReal) :=
  hostScatterAdd_apply M N d h1 h2 h3 h4 x idx upd s

end Cert.LibScatterAdd1
-- ==== Proof.KI.HostVal.lean ====
import proofs.«410450_j35880156791371_3_alg».proof.Proof.Gen.KernelIdeal.Regions
import proofs.«410450_j35880156791371_3_alg».proof.Proof.Spec
import proofs.«410450_j35880156791371_3_alg».proof.Proof.LibScatterAdd1
import Idealize.ShloMosaic.Lib.StableHlo.Predicate
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (outs : Outs (F := Ideal))

/-- Core `c`'s edge array. -/
abbrev eiOf (c : Dev nD) : Cert.Gcn.EdgeWords := m ((c.tc : Thread nD τ).loc main_arg3)
/-- Core `c`'s weights and bias as launched. -/
abbrev wOf (c : Dev nD) : S128x128.Idx → EReal := m ((c.tc : Thread nD τ).loc main_arg1)
abbrev bOf (c : Dev nD) : S128.Idx → EReal := m ((c.tc : Thread nD τ).loc main_arg2)
/-- What the two calls leave in their result arrays, at their literal types. -/
abbrev o11 (c : Dev nD) : S10000x128.Idx → EReal := outs 2 main_v11 c
abbrev o51 (c : Dev nD) : S10240x128.Idx → EReal := outs 6 main_v51 c

/-! ## Before the first call: the edge words with the self loops appended, and the transposed weights -/

/-- The self loops' ends: the node ids 0 … 9999 (an iota) as a row, copied to the two rows of a [2,10000] array. -/
private abbrev loops : S2x10000.Idx → BitVec 32 :=
  shapeCast S2x10000
    (broadcastInDim S2x1x1x10000 ![0, 1, 2, 3] bcast_S1x1x1x10000_S2x1x1x10000_0_1_2_3
      (shapeCast S1x1x1x10000
        (broadcastInDim S1x10000 ![1] bcast_S10000_S1x10000_1 (iotaInDim S10000 32 0))
        shapeCasts_S1x10000_S1x1x1x10000))
    shapeCasts_S2x1x1x10000_S2x10000

/-- Both rows of the self loops' array hold, in column n, the word of n. -/
private theorem loops_apply (k : S2x10000.Idx) : loops k = BitVec.ofNat 32 (k 1).val := by
  have h0 : (k 0).val < 2 := (k 0).isLt
  have h1 : (k 1).val < 10000 := (k 1).isLt
  -- [2,10000] from [2,1,1,10000]: the same row-major position
  refine (shapeCast_apply _ shapeCasts_S2x1x1x10000_S2x10000 k
    (ix4 (k 0) (0 : Fin 1) (0 : Fin 1) (k 1)) ?_).trans ?_
  · rw [Shape.rowMajor_val_four, Shape.rowMajor_val_two]
    show (((k 0).val * 1 + 0) * 1 + 0) * 10000 + (k 1).val = (k 0).val * 10000 + (k 1).val
    omega
  -- the copy along the leading axis forgets the row
  refine (broadcastInDim_apply ![0, 1, 2, 3] bcast_S1x1x1x10000_S2x1x1x10000_0_1_2_3 _
    (ix4 (k 0) (0 : Fin 1) (0 : Fin 1) (k 1)) (ix4 (0 : Fin 1) (0 : Fin 1) (0 : Fin 1) (k 1)) ?_).trans ?_
  · intro a
    match a with
    | ⟨0, _⟩ => rfl
    | ⟨1, _⟩ => rfl
    | ⟨2, _⟩ => rfl
    | ⟨3, _⟩ => rfl
  -- [1,1,1,10000] from [1,10000]
  refine (shapeCast_apply _ shapeCasts_S1x10000_S1x1x1x10000
    (ix4 (0 : Fin 1) (0 : Fin 1) (0 : Fin 1) (k 1)) (ix2 (0 : Fin 1) (k 1)) ?_).trans ?_
  · rw [Shape.rowMajor_val_two, Shape.rowMajor_val_four]
    show 0 * 10000 + (k 1).val = ((0 * 1 + 0) * 1 + 0) * 10000 + (k 1).val
    omega
  -- the row from the vector, then the iota at its position
  refine (broadcastInDim_apply ![1] bcast_S10000_S1x10000_1 _ (ix2 (0 : Fin 1) (k 1)) (ix1 (k 1)) ?_).trans ?_
  · intro a
    match a with
    | ⟨0, _⟩ => rfl
  rfl

/-- Row o of the edge array with the self loops appended along the edge axis, as a vector of 650000 words: a given
    edge's word on the first 640000 positions, the loop's node on the last 10000. -/
private theorem wordsRow_apply (ei : S2x640000.Idx → BitVec 32) (o : Nat) (hs : S2x650000.Slices ![o, 0] S1x650000)
    (r : Fin 2) (hr : r.val = o) (e : S650000.Idx) :
    shapeCast S650000
        (extractStridedSlice S1x650000 ![o, 0]
          (concatenate S2x650000 1 [⟨S2x640000, ei⟩, ⟨S2x10000, loops⟩] concatenates_S2x640000_S2x10000_S2x650000_d1) hs)
        shapeCasts_S1x650000_S650000 e
      = if h : (e 0).val < 640000 then ei (ix2 r (⟨(e 0).val, h⟩ : Fin 640000)) else BitVec.ofNat 32 ((e 0).val - 640000) := by
  have he : (e 0).val < 650000 := (e 0).isLt
  -- the vector from the one-row array
  refine (shapeCast_apply _ shapeCasts_S1x650000_S650000 e (ix2 (0 : Fin 1) (e 0)) ?_).trans ?_
  · rw [Shape.rowMajor_val_two, Shape.rowMajor_val_one]
    show 0 * 650000 + (e 0).val = (e 0).val
    omega
  -- the one-row array is row o of the two-row one
  refine (extractStridedSlice_apply ![o, 0] _ hs (ix2 (0 : Fin 1) (e 0)) (ix2 r (e 0)) ?_).trans ?_
  · intro a
    match a with
    | ⟨0, _⟩ => show r.val = o + 0; omega
    | ⟨1, _⟩ => show (e 0).val = 0 + (e 0).val; omega
  by_cases h : (e 0).val < 640000
  · -- a given edge: the first piece at the same coordinates
    rw [dif_pos h]
    exact concatenate_pair_apply_left (1 : Fin 2) ei loops concatenates_S2x640000_S2x10000_S2x650000_d1
      (ix2 r (e 0)) rfl (ix2 r (⟨(e 0).val, h⟩ : Fin 640000))
      (fun b => match b with | ⟨0, _⟩ => rfl | ⟨1, _⟩ => rfl)
  · -- a self loop: the second piece, 640000 positions earlier
    rw [dif_neg h]
    refine (concatenate_pair_apply_right (1 : Fin 2) ei loops concatenates_S2x640000_S2x10000_S2x650000_d1
      (ix2 r (e 0)) rfl rfl (ix2 r (⟨(e 0).val - 640000, by omega⟩ : Fin 10000)) ?_ ?_).trans ?_
    · intro b hb
      match b, hb with
      | ⟨0, _⟩, _ => rfl
      | ⟨1, _⟩, hb => exact absurd rfl hb
    · show (e 0).val - 640000 + 640000 = (e 0).val
      omega
    exact loops_apply _

theorem V1_v7 (c : Dev nD) : (V1 m c main_v7 : S650000.Idx → BitVec 32) = fun (e : S650000.Idx) => Cert.Gcn.rowWord (eiOf m c) (e 0) := by
  have e : (V1 m c main_v7 : S650000.Idx → BitVec 32)
      = shapeCast S650000
          (extractStridedSlice S1x650000 ![0, 0]
            (concatenate S2x650000 1 [⟨S2x640000, eiOf m c⟩, ⟨S2x10000, loops⟩] concatenates_S2x640000_S2x10000_S2x650000_d1)
            slices_S2x650000_S1x650000_0_0)
          shapeCasts_S1x650000_S650000 := by
    dsimp only [V1, hostOps0]; after_results; rfl
  rw [e]
  funext i
  rw [wordsRow_apply (eiOf m c) 0 slices_S2x650000_S1x650000_0_0 (0 : Fin 2) rfl i]
  rfl

theorem V1_v9 (c : Dev nD) : (V1 m c main_v9 : S650000.Idx → BitVec 32) = fun (e : S650000.Idx) => Cert.Gcn.colWord (eiOf m c) (e 0) := by
  have e : (V1 m c main_v9 : S650000.Idx → BitVec 32)
      = shapeCast S650000
          (extractStridedSlice S1x650000 ![1, 0]
            (concatenate S2x650000 1 [⟨S2x640000, eiOf m c⟩, ⟨S2x10000, loops⟩] concatenates_S2x640000_S2x10000_S2x650000_d1)
            slices_S2x650000_S1x650000_1_0)
          shapeCasts_S1x650000_S650000 := by
    dsimp only [V1, hostOps0]; after_results; rfl
  rw [e]
  funext i
  rw [wordsRow_apply (eiOf m c) 1 slices_S2x650000_S1x650000_1_0 (1 : Fin 2) rfl i]
  rfl

theorem V1_v10 (c : Dev nD) : (V1 m c main_v10 : S128x128.Idx → EReal)
    = fun (i : S128x128.Idx) => wOf m c (ix2 (i 1) (i 0)) := by
  have e : (V1 m c main_v10 : S128x128.Idx → EReal) = transpose S128x128 [1, 0] (wOf m c) transposes_S128x128_S128x128_1_0 := by
    dsimp only [V1, hostOps0]; after_results
  rw [e]
  funext i
  exact transpose_apply [1, 0] (wOf m c) transposes_S128x128_S128x128_1_0 i (ix2 (i 1) (i 0))
    (fun b => match b with | ⟨0, _⟩ => rfl | ⟨1, _⟩ => rfl)

theorem V1_arg0 (c : Dev nD) : V1 m c main_arg0 = m ((c.tc : Thread nD τ).loc main_arg0) := by
  exact (V1_of m c main_arg0 (by decide)).trans rfl

/-! ## Between the calls: the dense weighted adjacency, the padded linear output, the bias as a row -/

/-- A [10000,128] array padded below with 240 rows of one value, read at an index: the array's own entry on the first
    10000 rows, the padding value on the rest. -/
private theorem padRows_apply (x : S10000x128.Idx → EReal) (v : S_.Idx → EReal) (i : S10240x128.Idx) :
    pad S10240x128 ![0, 0] ![240, 0] ![0, 0] x v pads_S10000x128_S10240x128_02400_000 h_S_ i
      = if h : (i 0).val < 10000 then x (ix2 (⟨(i 0).val, h⟩ : Fin 10000) (i 1)) else v (Shape.Idx.first h_S_) := by
  unfold pad
  by_cases h : (i 0).val < 10000
  · have hin : ∀ a : Fin S10000x128.rank,
        (![0, 0] : Fin 2 → Nat) a ≤ (i (a.cast pads_S10000x128_S10240x128_02400_000.1)).val
          ∧ ((i (a.cast pads_S10000x128_S10240x128_02400_000.1)).val - (![0, 0] : Fin 2 → Nat) a) % ((![0, 0] : Fin 2 → Nat) a + 1) = 0
          ∧ ((i (a.cast pads_S10000x128_S10240x128_02400_000.1)).val - (![0, 0] : Fin 2 → Nat) a) / ((![0, 0] : Fin 2 → Nat) a + 1) < S10000x128.size a := by
      intro a
      match a with
      | ⟨0, _⟩ =>
        show 0 ≤ (i 0).val ∧ ((i 0).val - 0) % (0 + 1) = 0 ∧ ((i 0).val - 0) / (0 + 1) < 10000
        omega
      | ⟨1, _⟩ =>
        have h1 : (i 1).val < 128 := (i 1).isLt
        show 0 ≤ (i 1).val ∧ ((i 1).val - 0) % (0 + 1) = 0 ∧ ((i 1).val - 0) / (0 + 1) < 128
        omega
    rw [dif_pos hin, dif_pos h]
    refine congrArg x (funext fun a => Fin.ext ?_)
    match a with
    | ⟨0, _⟩ => show ((i 0).val - 0) / (0 + 1) = (i 0).val; omega
    | ⟨1, _⟩ => show ((i 1).val - 0) / (0 + 1) = (i 1).val; omega
  · rw [dif_neg h, dif_neg]
    intro hin
    have h0 := (hin (0 : Fin 2)).2.2
    apply h
    have h0' : ((i 0).val - 0) / (0 + 1) < 10000 := h0
    omega

/-- The integer zero converted to a float is the extended real zero. -/
private theorem sitofp_zero_apply (j : S_.Idx) :
    (sitofp (F := Ideal) .f32 (constantI S_ 32 0#32) : S_.Idx → EReal) j = 0 := by
  show (((0#32 : BitVec 32).toInt : ℝ) : EReal) = 0
  rw [show (0#32 : BitVec 32).toInt = 0 by decide]
  simp

theorem V5_v49 (c : Dev nD) : (V5 m outs c main_v49 : S10240x128.Idx → EReal)
    = fun (i : S10240x128.Idx) => if h : (i 0).val < 10000 then o11 outs c (ix2 (⟨(i 0).val, h⟩ : Fin 10000) (i 1)) else (0 : EReal) := by
  have e : (V5 m outs c main_v49 : S10240x128.Idx → EReal) = pad S10240x128 ![0, 0] ![240, 0] ![0, 0] (V2 m outs c main_v11 : S10000x128.Idx → EReal) (sitofp (F := Ideal) .f32 (constantI S_ 32 0#32) : S_.Idx → EReal) pads_S10000x128_S10240x128_02400_000 h_S_ := by
    dsimp only [V5, hostOps1_2]; after_results; rfl
  have e2 : (V2 m outs c main_v11 : S10000x128.Idx → EReal) = o11 outs c := Function.update_self ..
  rw [e, e2]
  funext i
  rw [padRows_apply, sitofp_zero_apply]

theorem V5_v50 (c : Dev nD) : (V5 m outs c main_v50 : S1x128.Idx → EReal)
    = fun (i : S1x128.Idx) => bOf m c (ix1 (i 1)) := by
  have e : (V5 m outs c main_v50 : S1x128.Idx → EReal) = shapeCast S1x128 (V2 m outs c main_arg2 : S128.Idx → EReal) shapeCasts_S128_S1x128 := by
    dsimp only [V5, hostOps1_2]; after_results; rfl
  have e2 : (V2 m outs c main_arg2 : S128.Idx → EReal) = bOf m c :=
    (V2_of m outs c main_arg2 (by decide)).trans ((V1_of m c main_arg2 (by decide)).trans rfl)
  rw [e, e2]
  funext i
  refine shapeCast_apply (bOf m c) shapeCasts_S128_S1x128 i (ix1 (i 1)) ?_
  rw [Shape.rowMajor_val_one, Shape.rowMajor_val_two]
  have h0 : (i 0).val = 0 := by have := (i 0).isLt; simpa using this
  show (i 1).val = (i 0).val * 128 + (i 1).val
  omega

/-! ## After the second call: the first 10000 rows -/

theorem V7_v52 (c : Dev nD) : (V7 m outs c main_v52 : S10000x128.Idx → EReal)
    = fun (i : S10000x128.Idx) => o51 outs c (ix2 (⟨(i 0).val, Nat.lt_trans (idx2_lt0 i) (by decide)⟩ : Fin 10240) (i 1)) := by
  have e : (V7 m outs c main_v52 : S10000x128.Idx → EReal) = extractStridedSlice S10000x128 ![0, 0] (V6 m outs c main_v51 : S10240x128.Idx → EReal) slices_S10240x128_S10000x128_0_0 := by
    dsimp only [V7, hostOps2]; after_results
  have e2 : (V6 m outs c main_v51 : S10240x128.Idx → EReal) = o51 outs c := Function.update_self ..
  rw [e, e2]
  funext i
  refine extractStridedSlice_apply ![0, 0] (o51 outs c) slices_S10240x128_S10000x128_0_0 i _ ?_
  intro a
  match a with
  | ⟨0, _⟩ => show (i 0).val = 0 + (i 0).val; omega
  | ⟨1, _⟩ => show (i 1).val = 0 + (i 1).val; omega

end Cert.KernelIdeal.Hand

end
-- ==== Proof.Algebra.lean ====
import proofs.«410450_j35880156791371_3_alg».proof.Proof.Spec
import Mathlib.Algebra.BigOperators.Fin
import Mathlib.Algebra.BigOperators.Ring.Finset
import Mathlib.Data.EReal.Basic

noncomputable section

open scoped BigOperators

namespace Cert.Gcn

open Idealize.ShloMosaic Idealize.ShloMosaic.ValueIdx

/-! ## Edge words under the range condition -/

/-- A self loop's word: a number below 10000 written on 32 bits reads back signed as itself. -/
private theorem selfLoop_range (k : Nat) (hk : k < 10000) :
    0 ≤ (BitVec.ofNat 32 k).toInt ∧ (BitVec.ofNat 32 k).toInt < 10000 := by
  have hn : (BitVec.ofNat 32 k).toNat = k := by
    rw [BitVec.toNat_ofNat]; omega
  rw [BitVec.toInt_eq_toNat_cond, hn]
  omega

theorem rowWord_range (ei : EdgeWords) (h : InRange ei) (e : Fin 650000) :
    0 ≤ (rowWord ei e).toInt ∧ (rowWord ei e).toInt < 10000 := by
  unfold rowWord
  split
  · exact h _
  · exact selfLoop_range _ (by omega)

theorem colWord_range (ei : EdgeWords) (h : InRange ei) (e : Fin 650000) :
    0 ≤ (colWord ei e).toInt ∧ (colWord ei e).toInt < 10000 := by
  unfold colWord
  split
  · exact h _
  · exact selfLoop_range _ (by omega)

/-- On a node id the clamp does nothing: the word read signed IS the node. -/
theorem toInt_eq_nodeOf (w : BitVec 32) (h0 : 0 ≤ w.toInt) (h1 : w.toInt < 10000) : w.toInt = ((nodeOf w).val : ℤ) := by
  simp only [nodeOf]
  omega

theorem nodeOf_val (w : BitVec 32) (h0 : 0 ≤ w.toInt) (h1 : w.toInt < 10000) : (nodeOf w).val = w.toInt.toNat := by
  simp only [nodeOf]
  omega

/-! ## Finiteness -/

/-- The cast from the reals to the extended reals goes through a finite sum. -/
private theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The exponent's word has sign 1, exponent field 126 and significand 0: it denotes the real number −1/2. -/
private theorem expWord_isReal : ∃ y : ℝ, Ideal.ofBits .f32 0xBF000000#32 = (y : EReal) := by
  refine ⟨-(1 / 2), ?_⟩
  simp [Ideal.ofBits, Ideal.ieee, -EReal.coe_mul, -EReal.coe_neg]
  norm_num

/-- A degree is a count, hence a real number. -/
private theorem deg_isReal (c : Fin 650000 → Fin 10000) (n : Fin 10000) : ∃ d : ℝ, deg c n = (d : EReal) := by
  refine ⟨∑ _e ∈ Finset.univ.filter (fun e => c e = n), (1 : ℝ), ?_⟩
  rw [coe_sum]
  rfl

/-- A real to a real power is real. -/
private theorem dis_isReal (c : Fin 650000 → Fin 10000) (n : Fin 10000) : ∃ v : ℝ, dis c n = (v : EReal) := by
  obtain ⟨d, hd⟩ := deg_isReal c n
  obtain ⟨y, hy⟩ := expWord_isReal
  refine ⟨Real.rpow d y, ?_⟩
  unfold dis
  rw [hd, hy]
  rfl

/-- Every edge weight is a real number: a degree is a count, and a real to a real power is real. -/
theorem norm_isReal (r c : Fin 650000 → Fin 10000) (e : Fin 650000) : ∃ v : ℝ, norm r c e = (v : EReal) := by
  obtain ⟨a, ha⟩ := dis_isReal c (r e)
  obtain ⟨b, hb⟩ := dis_isReal c (c e)
  refine ⟨a * b, ?_⟩
  unfold norm
  rw [ha, hb, EReal.coe_mul]

/-! ## The two arrangements agree, over the reals

With real edge weights `w` and one real channel `L` of the linear output, the dense row against the padded output is
the sum over the node's incoming edges. Here multiplication distributes over sums without side conditions. -/

section RealForm

variable (r c : Fin 650000 → Fin 10000) (w : Fin 650000 → ℝ) (L : Fin 10000 → ℝ)

/-- The dense adjacency's entry (n, s) over the reals: the weights of the edges from s to n. -/
private def adjR (n : Fin 10000) (s : Fin 10240) : ℝ :=
  ∑ e ∈ Finset.univ.filter (fun e => (c e).val = n.val ∧ (r e).val = s.val), w e

/-- One channel of the linear output over the reals, padded with 240 zeros. -/
private def padR (s : Fin 10240) : ℝ := if h : s.val < 10000 then L ⟨s.val, h⟩ else 0

/-- Five tiles of 2048 are one sum over the 10240 padded nodes: s ↦ (s / 2048, s % 2048) is a bijection. -/
private theorem sum_tiles (F : Fin 10240 → ℝ) :
    ∑ κ : Fin 5, ∑ q : Fin 2048, F ⟨2048 * κ.val + q.val, by omega⟩ = ∑ s : Fin 10240, F s := by
  rw [← Fintype.sum_prod_type' (fun (κ : Fin 5) (q : Fin 2048) => F ⟨2048 * κ.val + q.val, by omega⟩)]
  refine Fintype.sum_equiv (finProdFinEquiv (m := 5) (n := 2048)) _ _ ?_
  rintro ⟨κ, q⟩
  refine congrArg F (Fin.ext ?_)
  simp [finProdFinEquiv]
  omega

/-- An entry of the adjacency's row against the padded output: every edge counted there starts at that very node (so the
    node is a real one, below 10000, and the padded output there is the edge's source's output), and the common factor
    goes into the sum. Written as a sum over all the node's incoming edges, the others contributing zero. -/
private theorem adjR_mul_padR (n : Fin 10000) (s : Fin 10240) :
    adjR r c w n s * padR L s
      = ∑ e ∈ Finset.univ.filter (fun e => c e = n), if (r e).val = s.val then w e * L (r e) else 0 := by
  unfold adjR
  rw [Finset.sum_mul, ← Finset.sum_filter, Finset.filter_filter]
  refine Finset.sum_congr (Finset.filter_congr fun e _ => by rw [Fin.ext_iff]) ?_
  intro e he
  have hs : (r e).val = s.val := (Finset.mem_filter.mp he).2.2
  have hlt : s.val < 10000 := hs ▸ (r e).isLt
  unfold padR
  rw [dif_pos hlt]
  congr 2
  exact Fin.ext hs.symm

/-- The dense row against the padded output regroups the node's incoming edges by their source: after exchanging the
    two sums, each edge meets exactly one padded node, its source. -/
private theorem dense_eq_edgewise (n : Fin 10000) :
    ∑ κ : Fin 5, ∑ q : Fin 2048,
        adjR r c w n ⟨2048 * κ.val + q.val, by omega⟩ * padR L ⟨2048 * κ.val + q.val, by omega⟩
      = ∑ e ∈ Finset.univ.filter (fun e => c e = n), w e * L (r e) := by
  rw [sum_tiles (fun s => adjR r c w n s * padR L s)]
  simp only [adjR_mul_padR]
  rw [Finset.sum_comm]
  refine Finset.sum_congr rfl fun e _ => ?_
  rw [Finset.sum_eq_single (⟨(r e).val, by omega⟩ : Fin 10240)]
  · rw [if_pos rfl]
  · intro s _ hne
    rw [if_neg]
    intro h
    exact hne (Fin.ext h.symm)
  · intro h
    exact absurd (Finset.mem_univ _) h

end RealForm

/-! ## The two arrangements agree -/

/-- With finite features and weights the dense arrangement (five tiles of the padded adjacency against the padded linear
    output) is the edgewise one: each edge's term lands in exactly one column of the adjacency's row, the padded rows
    contribute nothing, and a finite factor moves across a finite sum. -/
theorem ker_eq_ref (r c : Fin 650000 → Fin 10000)
    (x : Fin 10000 → Fin 128 → EReal) (W : Fin 128 → Fin 128 → EReal) (b : Fin 128 → EReal)
    (hx : ∀ n k, ∃ v : ℝ, x n k = (v : EReal)) (hW : ∀ j k, ∃ v : ℝ, W j k = (v : EReal))
    (n : Fin 10000) (j : Fin 128) : ker r c x W b n j = ref r c x W b n j := by
  choose xr hxr using hx
  choose Wr hWr using hW
  choose w hw using norm_isReal r c
  -- every quantity of either arrangement is the cast of its real counterpart
  have hlin : ∀ m, lin x W m j = ((∑ k : Fin 128, xr m k * Wr j k : ℝ) : EReal) := by
    intro m
    unfold lin
    rw [coe_sum]
    refine Finset.sum_congr rfl fun k _ => ?_
    rw [hxr, hWr, EReal.coe_mul]
  have hadj : ∀ s, adj r c ⟨n.val, by omega⟩ s = (adjR r c w n s : EReal) := by
    intro s
    unfold adj adjR
    rw [coe_sum]
    exact Finset.sum_congr rfl fun e _ => hw e
  have hpad : ∀ s, linPad x W s j = (padR (fun m => ∑ k : Fin 128, xr m k * Wr j k) s : EReal) := by
    intro s
    unfold linPad padR
    split_ifs with h
    · exact hlin _
    · exact EReal.coe_zero.symm
  have htile : ∀ κ : Fin 5, tile r c x W ⟨n.val, by omega⟩ j κ
      = ((∑ q : Fin 2048, adjR r c w n ⟨2048 * κ.val + q.val, by omega⟩
            * padR (fun m => ∑ k : Fin 128, xr m k * Wr j k) ⟨2048 * κ.val + q.val, by omega⟩ : ℝ) : EReal) := by
    intro κ
    unfold tile
    rw [coe_sum]
    refine Finset.sum_congr rfl fun q _ => ?_
    rw [hadj, hpad, EReal.coe_mul]
  have href : ∑ e ∈ Finset.univ.filter (fun e => c e = n), norm r c e * lin x W (r e) j
      = ((∑ e ∈ Finset.univ.filter (fun e => c e = n), w e * ∑ k : Fin 128, xr (r e) k * Wr j k : ℝ) : EReal) := by
    rw [coe_sum]
    refine Finset.sum_congr rfl fun e _ => ?_
    rw [hw, hlin, EReal.coe_mul]
  -- the identity over the reals, with the five tiles written out, then the bias on both sides
  have hreal := dense_eq_edgewise r c w (fun m => ∑ k : Fin 128, xr m k * Wr j k) n
  rw [Fin.sum_univ_five] at hreal
  simp only [ker, ref, htile, href, ← EReal.coe_add]
  exact congrArg (fun t : ℝ => (t : EReal) + b j) hreal

end Cert.Gcn

end
-- ==== Proof.KI.HostAdj.lean ====
import proofs.«410450_j35880156791371_3_alg».proof.Proof.KI.HostVal
import proofs.«410450_j35880156791371_3_alg».proof.Proof.Algebra
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (outs : Outs (F := Ideal))

namespace HostAdj

/-! ## The stretch's arrays as functions of the two word vectors

`rowW` holds the edges' source words and `colW` their target words. -/

section Terms
variable (rowW colW : S650000.Idx → BitVec 32)

/-- A word vector with the negative entries raised by `k`. -/
def wrapT (k : BitVec 32) (w : S650000.Idx → BitVec 32) : S650000.Idx → BitVec 32 :=
  select (cmpi .slt w (broadcastInDim S650000 ![] bcast_S_S650000 (constantI S_ 32 0#32)))
    (addi w (broadcastInDim S650000 ![] bcast_S_S650000 (constantI S_ 32 k))) w

/-- A word vector as a column. -/
def colT (w : S650000.Idx → BitVec 32) : S650000x1.Idx → BitVec 32 :=
  broadcastInDim S650000x1 ![0] bcast_S650000_S650000x1_0 w

/-- The degrees: ones added at the target words into zeros. -/
def degT : S10000.Idx → EReal :=
  Host.scatterAdd (F := Ideal) scatter_S10000_S650000x1_S650000_n_0_0_1
    (broadcastInDim S10000 ![] bcast_S_S10000 (constant (F := Ideal) S_ .f32 0x00000000#32))
    (colT colW)
    (broadcastInDim S650000 ![] bcast_S_S650000 (constant (F := Ideal) S_ .f32 0x3F800000#32))

/-- The normalisers: the degrees to the power −1/2. -/
def disT : S10000.Idx → EReal :=
  Host.powf (F := Ideal) (φ := .f32) (degT colW) (broadcastInDim S10000 ![] bcast_S_S10000 (constant (F := Ideal) S_ .f32 0xBF000000#32))

/-- The normalisers gathered at a word vector. -/
def gathT (w : S650000.Idx → BitVec 32) : S650000.Idx → EReal :=
  Host.gather gather_S10000_S650000x1_S650000_n_0_n_n_0_1_1 (disT colW) (colT (wrapT 10000#32 w))

/-- The edge weights. -/
def normT : S650000.Idx → EReal := mulf (F := Ideal) (φ := .f32) (gathT colW rowW) (gathT colW colW)

end Terms

/-! ## A scatter of scalars at index pairs -/

/-- Update `n` of a scatter of scalars at two-component index vectors (operand `[B, C]`, indices `[N, 2]`, updates
    `[N]`, both operand axes inserted, the components naming row and column in that order) lands at `(b, c)` exactly
    when its index pair, read signed and not clamped, is `(b, c)`; a pair outside the matrix lands nowhere. -/
theorem resultIdx?_pair_eq_some_iff {B C N w : ℕ} (d : ScatterDims ⟨2, ![B, C]⟩ ⟨2, ![N, 2]⟩ ⟨1, ![N]⟩)
    (hu : d.updateWindowDims = []) (hi : d.insertedWindowDims = [0, 1]) (hs : d.scatterDimsToOperandDims = [0, 1])
    (hv : d.indexVectorDim = 1) (idx : IVec ⟨2, ![N, 2]⟩ w) (n : Fin N) (b : Fin B) (c : Fin C) :
    d.resultIdx? (ix1 n) idx = some (ix2 b c)
      ↔ (idx (ix2 n (0 : Fin 2))).toInt = (b.val : ℤ) ∧ (idx (ix2 n (1 : Fin 2))).toInt = (c.val : ℤ) := by
  obtain ⟨uw, iw, sd, iv, wf⟩ := d
  simp only at hu hi hs hv
  subst hu hi hs hv
  have hs0 : (ScatterDims.mk [] [0, 1] [0, 1] 1 wf).start (ix1 n) idx 0 = (idx (ix2 n (0 : Fin 2))).toInt := by
    unfold ScatterDims.start
    rw [dif_pos (show (0 : Fin 2) ∈ (ScatterDims.mk [] [0, 1] [0, 1] 1 wf).scatterDimsToOperandDims from
      List.mem_cons_self)]
    congr 2
    funext a
    refine Fin.ext ?_
    match a with
    | ⟨0, _⟩ => rfl
    | ⟨1, _⟩ => rfl
  have hs1 : (ScatterDims.mk [] [0, 1] [0, 1] 1 wf).start (ix1 n) idx 1 = (idx (ix2 n (1 : Fin 2))).toInt := by
    unfold ScatterDims.start
    rw [dif_pos (show (1 : Fin 2) ∈ (ScatterDims.mk [] [0, 1] [0, 1] 1 wf).scatterDimsToOperandDims from
      List.mem_cons_of_mem _ List.mem_cons_self)]
    congr 2
    funext a
    refine Fin.ext ?_
    match a with
    | ⟨0, _⟩ => rfl
    | ⟨1, _⟩ => rfl
  have hk : (ScatterDims.mk [] [0, 1] [0, 1] 1 wf).sKept = [] :=
    (by decide : (List.finRange 2).filter (fun a : Fin 2 => decide (a ∉ ([0, 1] : List (Fin 2)))) = [])
  have hw : ∀ a : Fin 2, (ScatterDims.mk [] [0, 1] [0, 1] 1 wf).window (ix1 n) a = 0 := by
    intro a
    unfold ScatterDims.window
    rw [dif_neg]
    intro hmem
    rw [hk] at hmem
    exact absurd hmem List.not_mem_nil
  have hw0 := hw 0
  have hw1 := hw 1
  have hb := b.isLt
  have hc := c.isLt
  unfold ScatterDims.resultIdx?
  by_cases hin : (0 ≤ (idx (ix2 n (0 : Fin 2))).toInt ∧ (idx (ix2 n (0 : Fin 2))).toInt < (B : ℤ))
      ∧ (0 ≤ (idx (ix2 n (1 : Fin 2))).toInt ∧ (idx (ix2 n (1 : Fin 2))).toInt < (C : ℤ))
  · rw [dif_pos (by
      intro a
      match a with
      | ⟨0, _⟩ =>
        show 0 ≤ (ScatterDims.mk [] [0, 1] [0, 1] 1 wf).start (ix1 n) idx 0
            + (((ScatterDims.mk [] [0, 1] [0, 1] 1 wf).window (ix1 n) 0 : ℕ) : ℤ)
          ∧ (ScatterDims.mk [] [0, 1] [0, 1] 1 wf).start (ix1 n) idx 0
            + (((ScatterDims.mk [] [0, 1] [0, 1] 1 wf).window (ix1 n) 0 : ℕ) : ℤ) < (B : ℤ)
        rw [hs0, hw0]
        omega
      | ⟨1, _⟩ =>
        show 0 ≤ (ScatterDims.mk [] [0, 1] [0, 1] 1 wf).start (ix1 n) idx 1
            + (((ScatterDims.mk [] [0, 1] [0, 1] 1 wf).window (ix1 n) 1 : ℕ) : ℤ)
          ∧ (ScatterDims.mk [] [0, 1] [0, 1] 1 wf).start (ix1 n) idx 1
            + (((ScatterDims.mk [] [0, 1] [0, 1] 1 wf).window (ix1 n) 1 : ℕ) : ℤ) < (C : ℤ)
        rw [hs1, hw1]
        omega)]
    rw [Option.some_inj]
    constructor
    · intro hf
      have h0 : ((ScatterDims.mk [] [0, 1] [0, 1] 1 wf).start (ix1 n) idx 0
          + (((ScatterDims.mk [] [0, 1] [0, 1] 1 wf).window (ix1 n) 0 : ℕ) : ℤ)).toNat = b.val :=
        congrArg (fun f => (f 0).val) hf
      have h1 : ((ScatterDims.mk [] [0, 1] [0, 1] 1 wf).start (ix1 n) idx 1
          + (((ScatterDims.mk [] [0, 1] [0, 1] 1 wf).window (ix1 n) 1 : ℕ) : ℤ)).toNat = c.val :=
        congrArg (fun f => (f 1).val) hf
      rw [hs0, hw0] at h0
      rw [hs1, hw1] at h1
      exact ⟨by omega, by omega⟩
    · rintro ⟨ht0, ht1⟩
      funext a
      apply Fin.ext
      match a with
      | ⟨0, _⟩ =>
        show ((ScatterDims.mk [] [0, 1] [0, 1] 1 wf).start (ix1 n) idx 0
          + (((ScatterDims.mk [] [0, 1] [0, 1] 1 wf).window (ix1 n) 0 : ℕ) : ℤ)).toNat = b.val
        rw [hs0, hw0]
        omega
      | ⟨1, _⟩ =>
        show ((ScatterDims.mk [] [0, 1] [0, 1] 1 wf).start (ix1 n) idx 1
          + (((ScatterDims.mk [] [0, 1] [0, 1] 1 wf).window (ix1 n) 1 : ℕ) : ℤ)).toNat = c.val
        rw [hs1, hw1]
        omega
  · rw [dif_neg (by
      intro hall
      apply hin
      have h0 : 0 ≤ (ScatterDims.mk [] [0, 1] [0, 1] 1 wf).start (ix1 n) idx 0
            + (((ScatterDims.mk [] [0, 1] [0, 1] 1 wf).window (ix1 n) 0 : ℕ) : ℤ)
          ∧ (ScatterDims.mk [] [0, 1] [0, 1] 1 wf).start (ix1 n) idx 0
            + (((ScatterDims.mk [] [0, 1] [0, 1] 1 wf).window (ix1 n) 0 : ℕ) : ℤ) < (B : ℤ) := hall 0
      have h1 : 0 ≤ (ScatterDims.mk [] [0, 1] [0, 1] 1 wf).start (ix1 n) idx 1
            + (((ScatterDims.mk [] [0, 1] [0, 1] 1 wf).window (ix1 n) 1 : ℕ) : ℤ)
          ∧ (ScatterDims.mk [] [0, 1] [0, 1] 1 wf).start (ix1 n) idx 1
            + (((ScatterDims.mk [] [0, 1] [0, 1] 1 wf).window (ix1 n) 1 : ℕ) : ℤ) < (C : ℤ) := hall 1
      rw [hs0, hw0] at h0
      rw [hs1, hw1] at h1
      exact ⟨by omega, by omega⟩)]
    constructor
    · intro hf
      cases hf
    · rintro ⟨ht0, ht1⟩
      exfalso
      apply hin
      omega

/-- The accumulating scatter of scalars at two-component index vectors read at an index: the operand's element plus
    the updates whose index pair, read signed, is that index. -/
theorem scatterAdd_pair_apply {B C N w : ℕ} {φ : FTy} (d : ScatterDims ⟨2, ![B, C]⟩ ⟨2, ![N, 2]⟩ ⟨1, ![N]⟩)
    (hu : d.updateWindowDims = []) (hi : d.insertedWindowDims = [0, 1]) (hs : d.scatterDimsToOperandDims = [0, 1])
    (hv : d.indexVectorDim = 1)
    (x : FVec Ideal ⟨2, ![B, C]⟩ φ) (idx : IVec ⟨2, ![N, 2]⟩ w) (upd : FVec Ideal ⟨1, ![N]⟩ φ)
    (b : Fin B) (c : Fin C) :
    Host.scatterAdd (F := Ideal) d x idx upd (ix2 b c)
      = (x (ix2 b c) + ∑ n : Fin N,
          if (idx (ix2 n (0 : Fin 2))).toInt = (b.val : ℤ) ∧ (idx (ix2 n (1 : Fin 2))).toInt = (c.val : ℤ)
          then upd (ix1 n) else 0 : EReal) := by
  show Ideal.hostScatterAdd d x idx upd (ix2 b c) = _
  unfold Ideal.hostScatterAdd
  congr 1
  rw [Finset.sum_filter, ← Equiv.sum_comp (Cert.LibBincount.idxEquiv1 (n := N)).symm]
  refine Finset.sum_congr rfl (fun n _ => ?_)
  show (if d.resultIdx? (ix1 n) idx = some (ix2 b c) then upd (ix1 n) else 0) = _
  simp only [resultIdx?_pair_eq_some_iff d hu hi hs hv idx n b c]

/-! ## The range condition and the nodes of a word vector -/

/-- Every word of the vector reads signed as a node id. -/
def NodeWords (w : S650000.Idx → BitVec 32) : Prop := ∀ e, 0 ≤ (w e).toInt ∧ (w e).toInt < 10000

/-- The node edge `e`'s word names. -/
abbrev nodeAt (w : S650000.Idx → BitVec 32) (e : Fin 650000) : Fin 10000 := Cert.Gcn.nodeOf (w (ix1 e))

private theorem ofFin_eq_ix1 {n : ℕ} (k : Fin n) : Shape.Idx.ofFin k = ix1 k := by
  funext a
  match a with
  | ⟨0, _⟩ => exact Fin.ext rfl

private theorem ixP_eq_ix2 {n : ℕ} (p : Fin n) : StableHlo.Predicate.ixP p = ix2 p (0 : Fin 1) := by
  funext a
  match a with
  | ⟨0, _⟩ => rfl
  | ⟨1, _⟩ => rfl

/-- The host's power at an index is the extended reals' power of the elements. -/
private theorem hostPowf_apply {s : Shape} {φ : FTy} (a b : FVec Ideal s φ) (i : s.Idx) :
    Host.powf a b i = Ideal.pow (a i) (b i) := rfl

section Readings
variable (rowW colW : S650000.Idx → BitVec 32)

/-- A vector as a column reads, at row `e`, the vector at `e`. -/
theorem colT_apply (w : S650000.Idx → BitVec 32) (e : Fin 650000) : colT w (ix2 e (0 : Fin 1)) = w (ix1 e) := by
  unfold colT
  rw [← ixP_eq_ix2, StableHlo.Predicate.bcast_col1, ofFin_eq_ix1]

/-- A word that does not read negative is not raised. -/
theorem wrapT_apply (k : BitVec 32) (w : S650000.Idx → BitVec 32) (e : S650000.Idx) (h0 : 0 ≤ (w e).toInt) :
    wrapT k w e = w e := by
  show Scalar.select (IntOp.cmpi .slt (w e) 0#32) (IntOp.addi (w e) k) (w e) = w e
  have hlt : (w e).slt 0#32 = false := by
    rw [BitVec.slt_eq_decide, BitVec.toInt_zero]
    exact decide_eq_false (not_lt.mpr h0)
  unfold IntOp.cmpi
  simp only [hlt]
  exact select_zero _ _

/-- The scatter of ones at the target words into zeros counts, at node `s`, the edges whose target is `s`. -/
theorem degT_apply (hc : NodeWords colW) (s : Fin 10000) :
    degT colW (ix1 s) = Cert.Gcn.deg (nodeAt colW) s := by
  unfold degT
  rw [Cert.LibScatterAdd1.scatterAdd_apply 10000 650000 scatter_S10000_S650000x1_S650000_n_0_0_1 rfl rfl rfl rfl]
  rw [broadcastInDim_scalar_apply, constant_apply, Ideal.ofBits_zero_f32, zero_add]
  unfold Cert.Gcn.deg
  rw [Finset.sum_filter]
  refine Finset.sum_congr rfl fun e _ => ?_
  rw [colT_apply, broadcastInDim_scalar_apply, constant_apply, Ideal.ofBits_one_f32]
  have he := hc (ix1 e)
  refine if_congr ?_ rfl rfl
  rw [Cert.Gcn.toInt_eq_nodeOf _ he.1 he.2]
  constructor
  · intro h
    exact Fin.ext (by exact_mod_cast h)
  · intro h
    rw [← h]

/-- The normaliser at node `s`: the count to the power −1/2. -/
theorem disT_apply (hc : NodeWords colW) (s : Fin 10000) :
    disT colW (ix1 s) = Cert.Gcn.dis (nodeAt colW) s := by
  rw [disT, hostPowf_apply, degT_apply colW hc s, broadcastInDim_scalar_apply, constant_apply, Cert.Gcn.dis]

/-- The normalisers gathered at a vector of node ids: edge `e` reads its node's. -/
theorem gathT_apply (hc : NodeWords colW) (w : S650000.Idx → BitVec 32) (hw : NodeWords w) (e : Fin 650000) :
    gathT colW w (ix1 e) = Cert.Gcn.dis (nodeAt colW) (nodeAt w e) := by
  unfold gathT
  rw [← ofFin_eq_ix1 e, StableHlo.Predicate.gather_take gather_S10000_S650000x1_S650000_n_0_n_n_0_1_1 rfl rfl rfl rfl _ _ e
    (by norm_num)]
  have hidx : colT (wrapT 10000#32 w) (StableHlo.Predicate.ixP e) = w (ix1 e) := by
    rw [ixP_eq_ix2, colT_apply, wrapT_apply _ _ _ (hw (ix1 e)).1]
  rw [← disT_apply colW hc, ofFin_eq_ix1]
  congr 2
  apply Fin.ext
  show min (colT (wrapT 10000#32 w) (StableHlo.Predicate.ixP e)).toInt.toNat (10000 - 1) = min (w (ix1 e)).toInt.toNat 9999
  rw [hidx]

/-- Edge `e`'s weight: the product of its two ends' normalisers. -/
theorem normT_apply (hr : NodeWords rowW) (hc : NodeWords colW) (e : Fin 650000) :
    normT rowW colW (ix1 e) = Cert.Gcn.norm (nodeAt rowW) (nodeAt colW) e := by
  rw [normT, mulf_apply, gathT_apply colW hc rowW hr e, gathT_apply colW hc colW hc e, Cert.Gcn.norm]

end Readings

/-! ## The index pairs and the two-component scatter -/

section Adjacency
variable (rowW colW : S650000.Idx → BitVec 32)

/-- The index pairs: column 0 the target words, column 1 the source words. -/
def idxT : S650000x2.Idx → BitVec 32 :=
  concatenate S650000x2 1 [⟨S650000x1, colT (wrapT 10240#32 colW)⟩, ⟨S650000x1, colT (wrapT 10240#32 rowW)⟩]
    concatenates_S650000x1_S650000x1_S650000x2_d1

/-- Component 0 of edge `e`'s pair is its target word. -/
theorem idxT_apply0 (hc : NodeWords colW) (e : Fin 650000) : idxT rowW colW (ix2 e (0 : Fin 2)) = colW (ix1 e) := by
  unfold idxT
  rw [concatenate_pair_apply_left (t := S650000x2) (s₁ := S650000x1) (s₂ := S650000x1) (1 : Fin 2) _ _ _ (ix2 e (0 : Fin 2)) rfl
    (ix2 e (0 : Fin 1))
    (fun b => by match b with | ⟨0, _⟩ => rfl | ⟨1, _⟩ => rfl)]
  rw [colT_apply, wrapT_apply _ _ _ (hc (ix1 e)).1]

/-- Component 1 of edge `e`'s pair is its source word. -/
theorem idxT_apply1 (hr : NodeWords rowW) (e : Fin 650000) : idxT rowW colW (ix2 e (1 : Fin 2)) = rowW (ix1 e) := by
  unfold idxT
  rw [concatenate_pair_apply_right (t := S650000x2) (s₁ := S650000x1) (s₂ := S650000x1) (1 : Fin 2) _ _ _ (ix2 e (1 : Fin 2)) rfl rfl
    (ix2 e (0 : Fin 1))
    (fun b hb => by match b, hb with | ⟨0, _⟩, _ => rfl | ⟨1, _⟩, hb => exact absurd rfl hb) rfl]
  rw [colT_apply, wrapT_apply _ _ _ (hr (ix1 e)).1]

/-- The scatter of the edge weights at the (target, source) pairs into zeros: entry (n, s) sums the weights of the
    edges from s to n. -/
theorem adjT_apply (hr : NodeWords rowW) (hc : NodeWords colW) (n s : Fin 10240) :
    Host.scatterAdd (F := Ideal) scatter_S10240x10240_S650000x2_S650000_n_01_01_1
        (broadcastInDim S10240x10240 ![] bcast_S_S10240x10240 (constant (F := Ideal) S_ .f32 0x00000000#32))
        (idxT rowW colW) (normT rowW colW) (ix2 n s)
      = Cert.Gcn.adj (nodeAt rowW) (nodeAt colW) n s := by
  rw [scatterAdd_pair_apply scatter_S10240x10240_S650000x2_S650000_n_01_01_1 rfl rfl rfl rfl]
  rw [broadcastInDim_scalar_apply, constant_apply, Ideal.ofBits_zero_f32, zero_add]
  unfold Cert.Gcn.adj
  rw [Finset.sum_filter]
  refine Finset.sum_congr rfl fun e _ => ?_
  rw [idxT_apply0 rowW colW hc, idxT_apply1 rowW colW hr, normT_apply rowW colW hr hc e]
  have h1 := hc (ix1 e)
  have h2 := hr (ix1 e)
  refine if_congr ?_ rfl rfl
  rw [Cert.Gcn.toInt_eq_nodeOf _ h1.1 h1.2, Cert.Gcn.toInt_eq_nodeOf _ h2.1 h2.2]
  constructor
  · rintro ⟨a, b⟩
    exact ⟨by exact_mod_cast a, by exact_mod_cast b⟩
  · rintro ⟨a, b⟩
    exact ⟨by exact_mod_cast a, by exact_mod_cast b⟩

end Adjacency

/-! ## The host stretch, cut before the concatenation -/

set_option maxHeartbeats 1000000 in
/-- The stretch's last operations over any contents before them: the pairs concatenated, the scatter, the rounding. -/
theorem tail_v48 (W : Valuation τ sig (Elt Ideal)) :
    (StableHlo.after (List.drop 46 hostOps1) W main_v48 : S10240x10240.Idx → EReal)
      = truncf .bf16 (Host.scatterAdd (F := Ideal) scatter_S10240x10240_S650000x2_S650000_n_01_01_1 (W main_v33)
          (concatenate S650000x2 1 [⟨S650000x1, W main_v44⟩, ⟨S650000x1, W main_v45⟩] concatenates_S650000x1_S650000x1_S650000x2_d1)
          (W main_v32)) bitsLt_bf16_f32 := by
  simp only [hostOps1, List.drop_succ_cons, List.drop_zero]
  after_results

set_option maxHeartbeats 1000000 in
/-- Before the cut: the edge weights. -/
theorem head_v32 (c : Dev nD) : (StableHlo.after (List.take 46 hostOps1) (V2 m outs c) main_v32 : S650000.Idx → EReal)
    = normT (V2 m outs c main_v7) (V2 m outs c main_v9) := by
  simp only [hostOps1, List.take_succ_cons, List.take_zero]
  after_results_simp
  all_goals rfl

set_option maxHeartbeats 1000000 in
/-- Before the cut: the zero array. -/
theorem head_v33 (c : Dev nD) : (StableHlo.after (List.take 46 hostOps1) (V2 m outs c) main_v33 : S10240x10240.Idx → EReal)
    = broadcastInDim S10240x10240 ![] bcast_S_S10240x10240 (constant (F := Ideal) S_ .f32 0x00000000#32) := by
  simp only [hostOps1, List.take_succ_cons, List.take_zero]
  after_results_simp
  all_goals rfl

set_option maxHeartbeats 1000000 in
/-- Before the cut: the target words as a column. -/
theorem head_v44 (c : Dev nD) : (StableHlo.after (List.take 46 hostOps1) (V2 m outs c) main_v44 : S650000x1.Idx → BitVec 32)
    = colT (wrapT 10240#32 (V2 m outs c main_v9)) := by
  simp only [hostOps1, List.take_succ_cons, List.take_zero]
  after_results_simp
  all_goals rfl

set_option maxHeartbeats 1000000 in
/-- Before the cut: the source words as a column. -/
theorem head_v45 (c : Dev nD) : (StableHlo.after (List.take 46 hostOps1) (V2 m outs c) main_v45 : S650000x1.Idx → BitVec 32)
    = colT (wrapT 10240#32 (V2 m outs c main_v7)) := by
  simp only [hostOps1, List.take_succ_cons, List.take_zero]
  after_results_simp
  all_goals rfl

end HostAdj

open HostAdj

/-! ## Between the calls: the dense weighted adjacency

Each edge adds its weight (the product of its two ends' degree normalisers) at (target, source) of a zero 10240 × 10240
array; with every end a node id no index wraps and none is dropped. -/

theorem V5_v48 (c : Dev nD) (hin : Cert.Gcn.InRange (eiOf m c)) : (V5 m outs c main_v48 : S10240x10240.Idx → EReal)
    = fun (i : S10240x10240.Idx) => Cert.Gcn.adj (Cert.Gcn.rowNode (eiOf m c)) (Cert.Gcn.colNode (eiOf m c)) (i 0) (i 1) := by
  rw [V5_of m outs c main_v48 (by decide), V4_of m outs c main_v48 (by decide)]
  have hsplit : V3 m outs c
      = StableHlo.after (List.drop 46 hostOps1) (StableHlo.after (List.take 46 hostOps1) (V2 m outs c)) := by
    show StableHlo.after hostOps1 (V2 m outs c) = _
    rw [← StableHlo.after_append, List.take_append_drop]
  rw [hsplit, tail_v48, head_v32, head_v33, head_v44, head_v45]
  have e7 : (V2 m outs c main_v7 : S650000.Idx → BitVec 32) = fun (e : S650000.Idx) => Cert.Gcn.rowWord (eiOf m c) (e 0) := by
    rw [V2_of m outs c main_v7 (by decide)]
    exact V1_v7 m c
  have e9 : (V2 m outs c main_v9 : S650000.Idx → BitVec 32) = fun (e : S650000.Idx) => Cert.Gcn.colWord (eiOf m c) (e 0) := by
    rw [V2_of m outs c main_v9 (by decide)]
    exact V1_v9 m c
  rw [e7, e9]
  have hr : NodeWords (fun (e : S650000.Idx) => Cert.Gcn.rowWord (eiOf m c) (e 0)) :=
    fun e => Cert.Gcn.rowWord_range (eiOf m c) hin (e 0)
  have hc : NodeWords (fun (e : S650000.Idx) => Cert.Gcn.colWord (eiOf m c) (e 0)) :=
    fun e => Cert.Gcn.colWord_range (eiOf m c) hin (e 0)
  funext i
  obtain ⟨n, s, rfl⟩ : ∃ n s, i = ix2 n s := ⟨i 0, i 1, eq_ix2 i⟩
  rw [truncf_apply]
  refine (adjT_apply _ _ hr hc n s).trans ?_
  rfl

end Cert.KernelIdeal.Hand

end
-- ==== Proof.KI.LinVal.lean ====
import proofs.«410450_j35880156791371_3_alg».proof.Proof.KI.Lin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

open Idealize.ShloMosaic.Pipeline (Dat)

variable (V : (c : Dev nD) → (b : Ref sig .tc) → Buf (Elt Ideal) ((c : Thread nD τ).loc b))

/-- The arrays the first call reads and writes, at their literal types. -/
abbrev aX (c : Dev nD) : S10000x128.Idx → EReal := V c main_arg0
abbrev aWt (c : Dev nD) : S128x128.Idx → EReal := V c main_v10
abbrev linArr (c : Dev nD) : S10000x128.Idx → EReal := (dat0 V c).arrAt 2 cfg0.N

/-! ## The block product at an index -/

/-- On the left operand of the block product, the row axis is free: it carries the output's row. -/
theorem lhs_lin_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- Its column axis is the contracted one. -/
theorem lhs_lin_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- On the right operand the row axis is the contracted one. -/
theorem rhs_lin_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- Its column axis is free: it carries the output's column. -/
theorem rhs_lin_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The block product at row `p`, column `q`: at the ideal values the two narrowings to bf16 and the cast to the same
    shape change nothing, and the product into the zero accumulator is the sum over the contracted coordinate. -/
theorem linOut_apply (x0 : FVec Ideal S1000x128 .f32) (x1 : FVec Ideal S128x128 .f32) (p : Fin 1000) (q : Fin 128) :
    (linOut (F := Ideal) x0 x1 : S1000x128.Idx → EReal) (ix2 p q) = ∑ k : Fin 128, (x0 (ix2 p k) : EReal) * (x1 (ix2 k q) : EReal) := by
  unfold linOut k0_pay1
  rw [shapeCast_self]
  refine (Ideal.matmul_constant_zero_apply dot_S1000x128_S128x128_S1000x128_1_0_0_1_n_n none _ _ (ix2 p q)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_lin_0 _ _).trans hk
    | ⟨1, _⟩ => exact rhs_lin_1 _ _)
  rw [el, er]
  rfl

/-! ## The whole-array product, and each point's block of it -/

/-- Row `i 0` of the features against column `i 1` of the weights: the product as one function of the two arrays. -/
abbrev linG (a : S10000x128.Idx → EReal) (w : S128x128.Idx → EReal) : S10000x128.Idx → EReal :=
  fun i => ∑ k : Fin 128, a (ix2 (i 0) k) * w (ix2 k (i 1))

/-- Where the three windows' blocks sit at each of the ten points: the features' and the output's row block is the
    point's own, the weights' block is always the first (and only) one, and no window moves along the columns. -/
theorem lin_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` holds rows `1000 t … 1000 t + 999` of the feature array. -/
theorem iblk0_rows (c : Dev nD) (t : Fin cfg0.N) (y : S1000x128.Idx) (i : S10000x128.Idx)
    (h0 : (i 0).val = t.val * 1000 + (y 0).val) (h1 : (i 1).val = (y 1).val) :
    (iblk0 V c 0 t : FVec Ideal S1000x128 .f32) y = aX V c i := by
  obtain ⟨e0, e1, -⟩ := lin_idx_facts t
  unfold iblk0
  rw [View.read_apply]
  show V c main_arg0 _ = V c main_arg0 _
  congr 1
  funext a
  apply Fin.ext
  match a with
  | ⟨0, _⟩ => show win0_0.index t (0 : Fin 2) * 1000 + 1 * (y 0).val = (i 0).val; rw [e0, h0]; omega
  | ⟨1, _⟩ => show win0_0.index t (1 : Fin 2) * 128 + 1 * (y 1).val = (i 1).val; rw [e1, h1]; omega

/-- The weights' block at every point is the whole weight array. -/
theorem iblk0_weights (c : Dev nD) (t : Fin cfg0.N) (y : S128x128.Idx) :
    (iblk0 V c 1 t : FVec Ideal S128x128 .f32) y = aWt V c y := by
  obtain ⟨-, -, e2, e3, -⟩ := lin_idx_facts t
  unfold iblk0
  rw [View.read_apply]
  show V c main_v10 _ = V c main_v10 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- A block product whose left operand is rows `r·1000 …` of `a` and whose right operand is `w`, read at an index of the
    block, is the whole-array product at the index `r·1000` rows further down. -/
theorem linOut_rows (x0 : FVec Ideal S1000x128 .f32) (x1 : FVec Ideal S128x128 .f32)
    (a : S10000x128.Idx → EReal) (w : S128x128.Idx → EReal) (r : Nat)
    (hx0 : ∀ (y : S1000x128.Idx) (i : S10000x128.Idx), (i 0).val = r * 1000 + (y 0).val → (i 1).val = (y 1).val → x0 y = a i)
    (hx1 : ∀ y : S128x128.Idx, x1 y = w y)
    (y : S1000x128.Idx) (i : S10000x128.Idx) (h0 : (i 0).val = r * 1000 + (y 0).val) (h1 : (i 1).val = (y 1).val) :
    (linOut (F := Ideal) x0 x1 : S1000x128.Idx → EReal) y = linG a w i := by
  obtain ⟨p, q, rfl⟩ : ∃ (p : Fin 1000) (q : Fin 128), y = ix2 p q := ⟨y 0, y 1, eq_ix2 y⟩
  rw [linOut_apply]
  refine Finset.sum_congr rfl fun k _ => ?_
  rw [hx0 (ix2 p k) (ix2 (i 0) k) h0 rfl, hx1]
  have hq : q = i 1 := Fin.ext h1.symm
  rw [hq]

/-- What point `t` writes back is its row block of the whole-array product. -/
theorem lin_flushed_eq (c : Dev nD) (t : Fin cfg0.N) :
    (dat0 V c).flushed 2 t = ((cfg0.win 2).blk t).view.read (Elt Ideal) (linG (aX V c) (aWt V c)) := by
  show (cfg0.win 2).cut (grid0.coords t) ((dat0 V c).after 2 t) = _
  rw [after0_2]
  obtain ⟨-, -, -, -, e4, e5⟩ := lin_idx_facts t
  funext j
  show (linOut (F := Ideal) (iblk0 V c 0 t) (iblk0 V c 1 t) : S1000x128.Idx → EReal) j = linG (aX V c) (aWt V c) (((cfg0.win 2).blk t).view.emb j)
  refine linOut_rows _ _ (aX V c) (aWt V c) t.val (fun y i h0 h1 => iblk0_rows V c t y i h0 h1) (fun y => iblk0_weights V c t y) j _ ?_ ?_
  · show win0_2.index t (0 : Fin 2) * 1000 + 1 * (j 0).val = t.val * 1000 + (j 0).val; rw [e4]; omega
  · show win0_2.index t (1 : Fin 2) * 128 + 1 * (j 1).val = (j 1).val; rw [e5]; omega

/-! ## The ten row blocks cover the array -/

/-- An index of the output array is in point `t`'s block iff each coordinate is in the block's range on its axis. -/
theorem lin_mem_blk (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v11).slice (win0_2.rect t)).set ↔ _
  rw [View.set_slice_whole, Rect.mem_set_unit]
  exact Iff.rfl

/-- Row `r` lies in the block of point `r / 1000`, and every point writes back. -/
theorem lin_cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : grid0.N = 10 := N_0
  have hlt : (i 0).val / 1000 < cfg0.N := by show (i 0).val / 1000 < grid0.N; rw [hN]; omega
  obtain ⟨-, -, -, -, e4, e5⟩ := lin_idx_facts ⟨(i 0).val / 1000, hlt⟩
  refine ⟨⟨(i 0).val / 1000, hlt⟩, flush0_2 _, ?_⟩
  rw [lin_mem_blk]
  intro a
  match a with
  | ⟨0, _⟩ => show win0_2.index ⟨(i 0).val / 1000, hlt⟩ (0 : Fin 2) * 1000 ≤ (i 0).val ∧ (i 0).val < win0_2.index ⟨(i 0).val / 1000, hlt⟩ (0 : Fin 2) * 1000 + 1000; rw [e4]; show (i 0).val / 1000 * 1000 ≤ (i 0).val ∧ (i 0).val < (i 0).val / 1000 * 1000 + 1000; omega
  | ⟨1, _⟩ => show win0_2.index ⟨(i 0).val / 1000, hlt⟩ (1 : Fin 2) * 128 ≤ (i 1).val ∧ (i 1).val < win0_2.index ⟨(i 0).val / 1000, hlt⟩ (1 : Fin 2) * 128 + 128; rw [e5]; omega

/-- After the first call the output array holds, row by row, the features against the (already transposed) weights:
    its ten row blocks are restrictions of this one function. -/
theorem lin_arr (c : Dev nD) : linArr V c
    = fun (i : S10000x128.Idx) => ∑ k : Fin 128, aX V c (ix2 (i 0) k) * aWt V c (ix2 k (i 1)) :=
  (dat0 V c).arrAt_eq_of_cover 2 (linG (aX V c) (aWt V c)) (fun t _ => lin_flushed_eq V c t) lin_cover

end Cert.KernelIdeal.Hand

end
-- ==== Proof.KI.SpmmVal.lean ====
import proofs.«410450_j35880156791371_3_alg».proof.Proof.KI.Spmm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

open Idealize.ShloMosaic.Pipeline (Dat)

variable (V : (c : Dev nD) → (b : Ref sig .tc) → Buf (Elt Ideal) ((c : Thread nD τ).loc b))

/-- The arrays the second call reads and writes, at their literal types. -/
abbrev aA (c : Dev nD) : S10240x10240.Idx → EReal := V c main_v48
abbrev aH (c : Dev nD) : S10240x128.Idx → EReal := V c main_v49
abbrev aB (c : Dev nD) : S1x128.Idx → EReal := V c main_v50
abbrev spmmArr (c : Dev nD) : S10240x128.Idx → EReal := (dat1 V c).arrAt 3 cfg1.N

/-- One reduction tile of the second call's product at output index `i`. -/
def tl (c : Dev nD) (i : S10240x128.Idx) (κ : Fin 5) : EReal :=
  ∑ q : Fin 2048, aA V c (ix2 (i 0) (⟨2048 * κ.val + q.val, by omega⟩ : Fin 10240))
    * aH V c (ix2 (⟨2048 * κ.val + q.val, by omega⟩ : Fin 10240) (i 1))

namespace SpmmVal

/-! ## The three payloads at an index, over the extended reals -/

/-- The product's left operand index keeps the output row … -/
theorem lhs_mm_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- … and takes the contraction coordinate as its column; -/
theorem lhs_mm_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- the right operand index takes the contraction coordinate as its row … -/
theorem rhs_mm_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- … and keeps the output column. -/
theorem rhs_mm_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product of a [1024,2048] block and a [2048,128] block into the zero splat, at (p, j): the sum over the 2048
    contraction coordinates. -/
theorem mm_apply (a : FVec Ideal S1024x2048 .bf16) (h : FVec Ideal S2048x128 .bf16) (p : Fin 1024) (j : Fin 128) :
    FloatOps.matmul dot_S1024x2048_S2048x128_S1024x128_1_0_0_1_n_n none a h (constant (F := Ideal) S1024x128 .f32 0x00000000#32) (ix2 p j)
      = ∑ q : Fin 2048, a (ix2 p q) * h (ix2 q j) := by
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 p j) ((ValueIdx.contrEquiv1 dot_S1024x2048_S2048x128_S1024x128_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S1024x2048_S2048x128_S1024x128_1_0_0_1_n_n.rhsIdx (ix2 p j) ((ValueIdx.contrEquiv1 dot_S1024x2048_S2048x128_S1024x128_1_0_0_1_n_n 2048 rfl rfl).symm k) = ix2 k j := funext fun a => Fin.ext (by
    match a with
    | ⟨0, _⟩ => exact (rhs_mm_0 _ _).trans hk
    | ⟨1, _⟩ => exact rhs_mm_1 _ _)
  rw [el, er]

/-- The fill a first reduction step stores is zero everywhere. -/
theorem pay1_apply (i : S1024x128.Idx) : k1_pay1 (F := Ideal) i = 0 := by
  unfold k1_pay1
  rw [shapeCast_self]
  exact Ideal.ofBits_zero_f32

/-- A reduction step adds to the accumulator, at (p, j), row p of the A block times column j of the h block. -/
theorem pay2_apply (h : Vec Ideal S2048x128 .f32) (acc : Vec Ideal S1024x128 .f32) (a : Vec Ideal S1024x2048 .bf16)
    (p : Fin 1024) (j : Fin 128) :
    k1_pay2 h acc a (ix2 p j) = acc (ix2 p j) + ∑ q : Fin 2048, a (ix2 p q) * h (ix2 q j) := by
  unfold k1_pay2
  rw [shapeCast_self, shapeCast_self, shapeCast_self]
  refine (addf_apply _ _ _).trans ?_
  refine congrArg (acc (ix2 p j) + ·) ?_
  exact mm_apply a (truncf .bf16 h bitsLt_bf16_f32) p j

/-- The last step's store adds the bias row's entry of the column. -/
theorem pay3_apply (acc : Vec Ideal S1024x128 .f32) (b : Vec Ideal S1x128 .f32) (p : Fin 1024) (j : Fin 128) :
    k1_pay3 acc b (ix2 p j) = acc (ix2 p j) + b (ix2 (0 : Fin 1) j) := by
  unfold k1_pay3
  rw [shapeCast_self]
  refine (addf_apply _ _ _).trans ?_
  refine congrArg (acc (ix2 p j) + ·) ?_
  exact broadcastTo_apply b broadcasts_S1x128_S1024x128 (ix2 p j) (ix2 (0 : Fin 1) j) (fun a => by
    match a with
    | ⟨0, _⟩ => rfl
    | ⟨1, _⟩ => rfl)

/-! ## The blocks the windows read, as entries of the arrays -/

/-- The block indices of the four windows at a grid point, decided once over the 10 × 5 grid: point t is row block
    t / 5 at reduction step t % 5. -/
theorem idx_facts1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0 :=
  (by decide +kernel : ∀ t : Fin grid1.N, _)

/-- The three input blocks at a grid point, at their literal types. -/
abbrev blkA (c : Dev nD) (t : Fin cfg1.N) : Vec Ideal S1024x2048 .bf16 := iblk1 V c 0 t
abbrev blkH (c : Dev nD) (t : Fin cfg1.N) : Vec Ideal S2048x128 .f32 := iblk1 V c 1 t
abbrev blkB (c : Dev nD) (t : Fin cfg1.N) : Vec Ideal S1x128 .f32 := iblk1 V c 2 t

/-- The A block at point t is rows 1024·(t/5)… and columns 2048·(t%5)… of the matrix. -/
theorem blkA_apply (c : Dev nD) (t : Fin cfg1.N) (p : Fin 1024) (q : Fin 2048) (r k : Fin 10240)
    (hr : r.val = 1024 * (t.val / 5) + p.val) (hk : k.val = 2048 * (t.val % 5) + q.val) :
    blkA V c t (ix2 p q) = aA V c (ix2 r k) := by
  obtain ⟨e0, e1, -⟩ := idx_facts1 t
  show V c main_v48 (((cfg1.win 0).blk t).view.emb (ix2 p q)) = V c main_v48 (ix2 r k)
  refine congrArg (V c main_v48) (funext fun a => Fin.ext ?_)
  match a with
  | ⟨0, _⟩ => show win1_0.index t (0 : Fin 2) * 1024 + 1 * p.val = r.val; omega
  | ⟨1, _⟩ => show win1_0.index t (1 : Fin 2) * 2048 + 1 * q.val = k.val; omega

/-- The h block at point t is rows 2048·(t%5)… of the feature matrix, all 128 columns. -/
theorem blkH_apply (c : Dev nD) (t : Fin cfg1.N) (q : Fin 2048) (j : Fin 128) (k : Fin 10240)
    (hk : k.val = 2048 * (t.val % 5) + q.val) :
    blkH V c t (ix2 q j) = aH V c (ix2 k j) := by
  obtain ⟨-, -, e0, e1, -⟩ := idx_facts1 t
  show V c main_v49 (((cfg1.win 1).blk t).view.emb (ix2 q j)) = V c main_v49 (ix2 k j)
  refine congrArg (V c main_v49) (funext fun a => Fin.ext ?_)
  match a with
  | ⟨0, _⟩ => show win1_1.index t (0 : Fin 2) * 2048 + 1 * q.val = k.val; omega
  | ⟨1, _⟩ => show win1_1.index t (1 : Fin 2) * 128 + 1 * j.val = j.val; omega

/-- The bias block at every point is the whole bias row. -/
theorem blkB_apply (c : Dev nD) (t : Fin cfg1.N) (j : Fin 128) :
    blkB V c t (ix2 (0 : Fin 1) j) = aB V c (ix2 (0 : Fin 1) j) := by
  obtain ⟨-, -, -, -, e0, e1, -⟩ := idx_facts1 t
  show V c main_v50 (((cfg1.win 2).blk t).view.emb (ix2 (0 : Fin 1) j)) = V c main_v50 (ix2 (0 : Fin 1) j)
  refine congrArg (V c main_v50) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 128 + 1 * j.val = j.val; omega

/-- So the product of the two blocks at point t, at (p, j), is reduction tile t % 5 of the output entry in row
    1024·(t/5) + p and column j. -/
theorem tile_eq (c : Dev nD) (t : Fin cfg1.N) (i : S10240x128.Idx) (κ : Fin 5) (p : Fin 1024) (j : Fin 128)
    (hi0 : (i 0).val = 1024 * (t.val / 5) + p.val) (hi1 : i 1 = j) (hκ : κ.val = t.val % 5) :
    ∑ q : Fin 2048, blkA V c t (ix2 p q) * blkH V c t (ix2 q j) = tl V c i κ := by
  unfold tl
  refine Finset.sum_congr rfl fun q _ => ?_
  rw [blkA_apply V c t p q (i 0) ⟨2048 * κ.val + q.val, by omega⟩ hi0 (by show 2048 * κ.val + q.val = _; rw [hκ]),
    blkH_apply V c t q j ⟨2048 * κ.val + q.val, by omega⟩ (by show 2048 * κ.val + q.val = _; rw [hκ]), hi1]

/-! ## The accumulator along a row block's five steps -/

/-- The first k + 1 reduction tiles of an output entry, added in step order. -/
def part (c : Dev nD) (i : S10240x128.Idx) : ℕ → EReal
  | 0 => tl V c i 0
  | k + 1 => part c i k + tl V c i ⟨(k + 1) % 5, Nat.mod_lt _ (by decide)⟩

/-- At a first step the accumulator is the zero fill plus the step's product … -/
theorem acc_reset (c : Dev nD) (n : ℕ) (hn : n < cfg1.N) (h0 : n % 5 = 0) :
    spmmAcc V c n hn = k1_pay2 (blkH V c ⟨n, hn⟩) (k1_pay1 (F := Ideal)) (blkA V c ⟨n, hn⟩) := by
  cases n with
  | zero => rfl
  | succ m => rw [spmmAcc, if_pos h0]

/-- … and at a later step the previous accumulator plus the step's product. -/
theorem acc_step (c : Dev nD) (n : ℕ) (hn : n + 1 < cfg1.N) (h : ¬(n + 1) % 5 = 0) :
    spmmAcc V c (n + 1) hn
      = k1_pay2 (blkH V c ⟨n + 1, hn⟩) (spmmAcc V c n (Nat.lt_of_succ_lt hn)) (blkA V c ⟨n + 1, hn⟩) := by
  rw [spmmAcc, if_neg h]

/-- A first step leaves tile 0 alone: zero plus the product. -/
theorem acc_first_apply (c : Dev nD) (n : ℕ) (hn : n < cfg1.N) (h0 : n % 5 = 0) (p : Fin 1024) (j : Fin 128)
    (i : S10240x128.Idx) (hi0 : (i 0).val = 1024 * (n / 5) + p.val) (hi1 : i 1 = j) :
    spmmAcc V c n hn (ix2 p j) = tl V c i 0 := by
  rw [acc_reset V c n hn h0]
  refine (pay2_apply (blkH V c ⟨n, hn⟩) (k1_pay1 (F := Ideal)) (blkA V c ⟨n, hn⟩) p j).trans ?_
  rw [pay1_apply, zero_add]
  exact tile_eq V c ⟨n, hn⟩ i 0 p j hi0 hi1 (by show (0 : ℕ) = n % 5; omega)

/-- After the body at position n = 5·b + k the accumulator holds, at (p, j), tiles 0 … k of the entry in row
    1024·b + p and column j, added in order: by induction on the position, a first step starting afresh. -/
theorem acc_eq (c : Dev nD) : ∀ (n : ℕ) (hn : n < cfg1.N) (p : Fin 1024) (j : Fin 128) (i : S10240x128.Idx),
    (i 0).val = 1024 * (n / 5) + p.val → i 1 = j → spmmAcc V c n hn (ix2 p j) = part V c i (n % 5) := by
  intro n
  induction n with
  | zero =>
    intro hn p j i hi0 hi1
    exact acc_first_apply V c 0 hn rfl p j i hi0 hi1
  | succ m ih =>
    intro hn p j i hi0 hi1
    by_cases h : (m + 1) % 5 = 0
    · rw [h]
      exact acc_first_apply V c (m + 1) hn h p j i hi0 hi1
    · rw [acc_step V c m hn h]
      refine (pay2_apply (blkH V c ⟨m + 1, hn⟩) (spmmAcc V c m (Nat.lt_of_succ_lt hn)) (blkA V c ⟨m + 1, hn⟩) p j).trans ?_
      have e : (m + 1) % 5 = m % 5 + 1 := by omega
      rw [e, ih (Nat.lt_of_succ_lt hn) p j i (by omega) hi1]
      show part V c i (m % 5) + _ = part V c i (m % 5) + tl V c i ⟨(m % 5 + 1) % 5, Nat.mod_lt _ (by decide)⟩
      refine congrArg (part V c i (m % 5) + ·) ?_
      exact tile_eq V c ⟨m + 1, hn⟩ i ⟨(m % 5 + 1) % 5, Nat.mod_lt _ (by decide)⟩ p j hi0 hi1
        (by show (m % 5 + 1) % 5 = (m + 1) % 5; omega)

/-- All five tiles, in order. -/
theorem part_four (c : Dev nD) (i : S10240x128.Idx) :
    part V c i 4 = tl V c i 0 + tl V c i 1 + tl V c i 2 + tl V c i 3 + tl V c i 4 := rfl

/-! ## From the blocks to the array -/

/-- What the output array ends holding: all five tiles in order, plus the bias entry of the column. -/
abbrev spmmG (c : Dev nD) : S10240x128.Idx → EReal := fun i =>
  (tl V c i 0 + tl V c i 1 + tl V c i 2 + tl V c i 3 + tl V c i 4) + aB V c (ix2 (0 : Fin 1) (i 1))

/-- What a last step stores, at (p, j), is the finished entry of row 1024·(t/5) + p and column j. -/
theorem out_apply (c : Dev nD) (t : Fin cfg1.N) (h4 : t.val % 5 = 4) (p : Fin 1024) (j : Fin 128)
    (i : S10240x128.Idx) (hi0 : (i 0).val = 1024 * (t.val / 5) + p.val) (hi1 : i 1 = j) :
    spmmOut V c t (ix2 p j) = spmmG V c i := by
  unfold spmmOut
  refine (pay3_apply (spmmAcc V c t.val t.isLt) (blkB V c t) p j).trans ?_
  rw [acc_eq V c t.val t.isLt p j i hi0 hi1, h4, part_four, blkB_apply V c t j]
  show _ = (tl V c i 0 + tl V c i 1 + tl V c i 2 + tl V c i 3 + tl V c i 4) + aB V c (ix2 (0 : Fin 1) (i 1))
  rw [hi1]

/-- What a point that writes back writes is its block of that one whole-array function. -/
theorem flushed_eq1 (c : Dev nD) (t : Fin cfg1.N) (hf : (cfg1.win 3).flush t = true) :
    (dat1 V c).flushed 3 t = ((cfg1.win 3).blk t).view.read (Elt Ideal) (spmmG V c) := by
  have h4 : t.val % 5 = 4 := (flush1_3 t).mp hf
  obtain ⟨-, -, -, -, -, -, e0, e1⟩ := idx_facts1 t
  show (cfg1.win 3).cut (grid1.coords t) ((dat1 V c).after 3 t) = _
  rw [after1_3]
  funext y
  show spmmOut V c t y = spmmG V c (((cfg1.win 3).blk t).view.emb y)
  refine (congrArg (spmmOut V c t) (eq_ix2 (n0 := 1024) (n1 := 128) y)).trans ?_
  refine out_apply V c t h4 (y 0) (y 1) (((cfg1.win 3).blk t).view.emb y) ?_ (Fin.ext ?_)
  · show win1_3.index t (0 : Fin 2) * 1024 + 1 * (y 0).val = 1024 * (t.val / 5) + (y 0).val
    omega
  · show win1_3.index t (1 : Fin 2) * 128 + 1 * (y 1).val = (y 1).val
    omega

/-- An index of the output array is in point t's block iff each coordinate is in the block's range on its axis. -/
theorem mem_blk1 (t : Fin cfg1.N) (i : S10240x128.Idx) :
    i ∈ ((cfg1.win 3).blk t).view.set ↔ ∀ a : Fin 2, win1_3.index t a * S1024x128.size a ≤ (i a).val
      ∧ (i a).val < win1_3.index t a * S1024x128.size a + S1024x128.size a := by
  show i ∈ ((View.whole main_v51).slice (win1_3.rect t)).set ↔ _
  rw [View.set_slice_whole, Rect.mem_set_unit]
  exact Iff.rfl

/-- Row r of the output is written back by the last step of its row block, point 5·(r / 1024) + 4. -/
theorem cover1 (i : S10240x128.Idx) :
    ∃ t : Fin cfg1.N, (cfg1.win 3).flush t = true ∧ i ∈ ((cfg1.win 3).blk t).view.set := by
  have hi0 : (i 0).val < 10240 := (i 0).isLt
  have hi1 : (i 1).val < 128 := (i 1).isLt
  have hlt : 5 * ((i 0).val / 1024) + 4 < cfg1.N := lt_of_lt_of_eq (by omega : 5 * ((i 0).val / 1024) + 4 < 50) N_1.symm
  have hq : (5 * ((i 0).val / 1024) + 4) / 5 = (i 0).val / 1024 := by omega
  obtain ⟨-, -, -, -, -, -, e0, e1⟩ := idx_facts1 ⟨5 * ((i 0).val / 1024) + 4, hlt⟩
  refine ⟨⟨5 * ((i 0).val / 1024) + 4, hlt⟩, (flush1_3 _).mpr (by show (5 * ((i 0).val / 1024) + 4) % 5 = 4; omega), ?_⟩
  rw [mem_blk1]
  intro a
  match a with
  | ⟨0, _⟩ =>
    show win1_3.index ⟨5 * ((i 0).val / 1024) + 4, hlt⟩ (0 : Fin 2) * 1024 ≤ (i 0).val
      ∧ (i 0).val < win1_3.index ⟨5 * ((i 0).val / 1024) + 4, hlt⟩ (0 : Fin 2) * 1024 + 1024
    rw [e0]
    show (5 * ((i 0).val / 1024) + 4) / 5 * 1024 ≤ (i 0).val ∧ (i 0).val < (5 * ((i 0).val / 1024) + 4) / 5 * 1024 + 1024
    rw [hq]
    omega
  | ⟨1, _⟩ =>
    show win1_3.index ⟨5 * ((i 0).val / 1024) + 4, hlt⟩ (1 : Fin 2) * 128 ≤ (i 1).val
      ∧ (i 1).val < win1_3.index ⟨5 * ((i 0).val / 1024) + 4, hlt⟩ (1 : Fin 2) * 128 + 128
    rw [e1]
    omega

end SpmmVal

open SpmmVal in
/-- After the second call the output array holds the five tiles accumulated in order plus the bias row: each row block
    is written back once, after its fifth step. -/
theorem spmm_arr (c : Dev nD) : spmmArr V c
    = fun (i : S10240x128.Idx) => (tl V c i 0 + tl V c i 1 + tl V c i 2 + tl V c i 3 + tl V c i 4) + aB V c (ix2 (0 : Fin 1) (i 1)) :=
  (dat1 V c).arrAt_eq_of_cover 3 (spmmG V c) (fun t hf => flushed_eq1 V c t hf) cover1

end Cert.KernelIdeal.Hand

end
-- ==== Proof.KI.Value.lean ====
import proofs.«410450_j35880156791371_3_alg».proof.Proof.KI.Run
import proofs.«410450_j35880156791371_3_alg».proof.Proof.KI.HostVal
import proofs.«410450_j35880156791371_3_alg».proof.Proof.KI.HostAdj
import proofs.«410450_j35880156791371_3_alg».proof.Proof.KI.LinVal
import proofs.«410450_j35880156791371_3_alg».proof.Proof.KI.SpmmVal
import proofs.«410450_j35880156791371_3_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

open Cert.Gcn

variable (m : (ℓ : Loc nD τ sig) → Buf (Elt Ideal) ℓ)

/-- Core `c`'s features as launched. -/
abbrev xOf (c : Dev nD) : S10000x128.Idx → EReal := m ((c.tc : Thread nD τ).loc main_arg0)

/-- The features, weights and bias as functions of coordinates. -/
abbrev xF (c : Dev nD) : Fin 10000 → Fin 128 → EReal := fun n k => xOf m c (ix2 n k)
abbrev wF (c : Dev nD) : Fin 128 → Fin 128 → EReal := fun j k => wOf m c (ix2 j k)
abbrev bF (c : Dev nD) : Fin 128 → EReal := fun j => bOf m c (ix1 j)

/-- What the first call leaves: the linear layer's output. -/
theorem first_eq (c : Dev nD) (n : Fin 10000) (j : Fin 128) :
    o11 (houts m) c (ix2 n j) = lin (xF m c) (wF m c) n j := by
  have h1 : o11 (houts m) c = linArr (E1 m) c := houts_v11 m c
  rw [h1, lin_arr (E1 m) c]
  unfold lin
  refine Finset.sum_congr rfl fun k _ => ?_
  have hx : aX (E1 m) c = xOf m c := V1_arg0 m c
  have hw := V1_v10 m c
  rw [hx, show aWt (E1 m) c (ix2 k ((ix2 n j : S10000x128.Idx) 1)) = wOf m c (ix2 j k) from congrFun hw (ix2 k j)]

/-- One tile of the second call's product is the tile of the dense arrangement. -/
theorem tile_eq (c : Dev nD) (hin : InRange (eiOf m c)) (i : S10240x128.Idx) (κ : Fin 5) :
    tl (E5 m) c i κ = tile (rowNode (eiOf m c)) (colNode (eiOf m c)) (xF m c) (wF m c) (i 0) (i 1) κ := by
  unfold tl tile
  refine Finset.sum_congr rfl fun q _ => ?_
  have hA : aA (E5 m) c = fun (i : S10240x10240.Idx) => adj (rowNode (eiOf m c)) (colNode (eiOf m c)) (i 0) (i 1) :=
    V5_v48 m (houts m) c hin
  have hH : aH (E5 m) c = fun (i : S10240x128.Idx) =>
      if h : (i 0).val < 10000 then o11 (houts m) c (ix2 (⟨(i 0).val, h⟩ : Fin 10000) (i 1)) else (0 : EReal) :=
    V5_v49 m (houts m) c
  rw [hA, hH]
  dsimp only
  unfold linPad
  by_cases hs : 2048 * κ.val + q.val < 10000
  · rw [dif_pos hs, dif_pos hs]
    exact congrArg (fun z => adj (rowNode (eiOf m c)) (colNode (eiOf m c)) (i 0) (⟨2048 * κ.val + q.val, by omega⟩ : Fin 10240) * z)
      (first_eq m c ⟨2048 * κ.val + q.val, hs⟩ (i 1))
  · rw [dif_neg hs, dif_neg hs]

/-- The kernel program's result array is the dense arrangement of the graph convolution. -/
theorem result_eq (c : Dev nD) (hin : InRange (eiOf m c)) :
    (V7 m (houts m) c main_v52 : S10000x128.Idx → EReal)
      = fun (i : S10000x128.Idx) => ker (rowNode (eiOf m c)) (colNode (eiOf m c)) (xF m c) (wF m c) (bF m c) (i 0) (i 1) := by
  rw [V7_v52 m (houts m) c]
  funext i
  have h2 : o51 (houts m) c = spmmArr (E5 m) c := houts_v51 m c
  have h3 := congrFun (spmm_arr (E5 m) c) (ix2 (⟨(i 0).val, Nat.lt_trans (idx2_lt0 i) (by decide)⟩ : Fin 10240) (i 1))
  refine (congrFun h2 _).trans (h3.trans ?_)
  have t := fun κ => tile_eq m c hin (ix2 (⟨(i 0).val, Nat.lt_trans (idx2_lt0 i) (by decide)⟩ : Fin 10240) (i 1)) κ
  rw [t 0, t 1, t 2, t 3, t 4]
  have hB := congrFun (V5_v50 m (houts m) c) (ix2 (0 : Fin 1) (i 1))
  unfold ker
  exact congrArg (fun z =>
      (tile (rowNode (eiOf m c)) (colNode (eiOf m c)) (xF m c) (wF m c) (⟨(i 0).val, Nat.lt_trans (idx2_lt0 i) (by decide)⟩ : Fin 10240) (i 1) 0
        + tile (rowNode (eiOf m c)) (colNode (eiOf m c)) (xF m c) (wF m c) (⟨(i 0).val, Nat.lt_trans (idx2_lt0 i) (by decide)⟩ : Fin 10240) (i 1) 1
        + tile (rowNode (eiOf m c)) (colNode (eiOf m c)) (xF m c) (wF m c) (⟨(i 0).val, Nat.lt_trans (idx2_lt0 i) (by decide)⟩ : Fin 10240) (i 1) 2
        + tile (rowNode (eiOf m c)) (colNode (eiOf m c)) (xF m c) (wF m c) (⟨(i 0).val, Nat.lt_trans (idx2_lt0 i) (by decide)⟩ : Fin 10240) (i 1) 3
        + tile (rowNode (eiOf m c)) (colNode (eiOf m c)) (xF m c) (wF m c) (⟨(i 0).val, Nat.lt_trans (idx2_lt0 i) (by decide)⟩ : Fin 10240) (i 1) 4) + z) hB

end Cert.KernelIdeal.Hand

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.RefValue.lean ====
import proofs.«410450_j35880156791371_3_alg».proof.Proof.Gen.ReferenceIdeal.Read
import proofs.«410450_j35880156791371_3_alg».proof.Proof.Spec
import proofs.«410450_j35880156791371_3_alg».proof.Proof.LibRowGatherScatter
import proofs.«410450_j35880156791371_3_alg».proof.Proof.LibScatterAdd1
import Idealize.ShloMosaic.Lib.StableHlo.Predicate
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx
open Cert.ReferenceIdeal.Read

/-- The self-loop block: either of its two rows holds, at position k, the word of k. -/
theorem v4_apply (r : Fin 2) (k : Fin 10000) :
    val_main_v4 (F := Ideal) (ix2 r k) = BitVec.ofNat 32 k.val := by
  rw [val_main_v4_apply, val_main_v3_apply, val_main_v2_apply, val_main_v1_apply, val_main_v0_apply]
  congr 1
  have hr := r.isLt
  have hk := k.isLt
  show ((((0 * 1 + 0) * 1 + 0) * 10000 + (r.val * 10000 + k.val) % 10000) % 10000) = k.val
  omega

/-- The joined edge array at a position among the given edges reads the given array there. -/
theorem v5_left (x3 : (⟨S2x640000, .i32⟩ : BufTy).Contents (Elt Ideal)) (r : Fin 2) (e : Fin 650000) (h : e.val < 640000) :
    val_main_v5 (F := Ideal) x3 (ix2 r e) = x3 (ix2 r (⟨e.val, h⟩ : Fin 640000)) := by
  unfold val_main_v5
  generalize val_main_v4 (F := Ideal) = y
  exact concatenate_pair_apply_left 1 x3 y concatenates_S2x640000_S2x10000_S2x650000_d1 (ix2 r e) rfl
    (ix2 r (⟨e.val, h⟩ : Fin 640000)) (fun b => match b with
      | ⟨0, _⟩ => rfl
      | ⟨1, _⟩ => rfl)

/-- The joined edge array at a position past the given edges reads the self loop's word: the position less 640000. -/
theorem v5_right (x3 : (⟨S2x640000, .i32⟩ : BufTy).Contents (Elt Ideal)) (r : Fin 2) (e : Fin 650000) (h : ¬ e.val < 640000) :
    val_main_v5 (F := Ideal) x3 (ix2 r e) = BitVec.ofNat 32 (e.val - 640000) := by
  have he := e.isLt
  have hk : e.val - 640000 < 10000 := by omega
  rw [← v4_apply r ⟨e.val - 640000, hk⟩]
  unfold val_main_v5
  generalize val_main_v4 (F := Ideal) = y
  exact concatenate_pair_apply_right 1 x3 y concatenates_S2x640000_S2x10000_S2x650000_d1 (ix2 r e) rfl rfl
    (ix2 r (⟨e.val - 640000, hk⟩ : Fin 10000)) (by
      intro b hb
      have hb0 : b.val ≠ 1 := fun h => hb (Fin.ext h)
      have hb1 : b.val < 2 := b.isLt
      obtain rfl : b = (⟨0, by decide⟩ : Fin 2) := Fin.ext (by show b.val = 0; omega)
      rfl)
    (by show e.val - 640000 + 640000 = e.val; omega)

/-- The source-word vector at edge e is the edge's source word. -/
theorem v7_eq (x3 : (⟨S2x640000, .i32⟩ : BufTy).Contents (Elt Ideal)) (e : Fin 650000) :
    val_main_v7 (F := Ideal) x3 (ix1 e) = Cert.Gcn.rowWord x3 e := by
  rw [val_main_v7_apply, val_main_v6_apply]
  have hidx : idx_main_v6 (idx_main_v7 (ix1 e)) = ix2 (0 : Fin 2) e := by
    funext a
    refine Fin.ext ?_
    match a with
    | ⟨0, _⟩ => rfl
    | ⟨1, _⟩ => exact Nat.mod_eq_of_lt e.isLt
  rw [hidx]
  unfold Cert.Gcn.rowWord
  by_cases h : e.val < 640000
  · rw [dif_pos h, v5_left x3 0 e h]
  · rw [dif_neg h, v5_right x3 0 e h]

/-- The target-word vector at edge e is the edge's target word. -/
theorem v9_eq (x3 : (⟨S2x640000, .i32⟩ : BufTy).Contents (Elt Ideal)) (e : Fin 650000) :
    val_main_v9 (F := Ideal) x3 (ix1 e) = Cert.Gcn.colWord x3 e := by
  rw [val_main_v9_apply, val_main_v8_apply]
  have hidx : idx_main_v8 (idx_main_v9 (ix1 e)) = ix2 (1 : Fin 2) e := by
    funext a
    refine Fin.ext ?_
    match a with
    | ⟨0, _⟩ => rfl
    | ⟨1, _⟩ => exact Nat.mod_eq_of_lt e.isLt
  rw [hidx]
  unfold Cert.Gcn.colWord
  by_cases h : e.val < 640000
  · rw [dif_pos h, v5_left x3 1 e h]
  · rw [dif_neg h, v5_right x3 1 e h]

/-- Every source word, a self loop's too, reads signed as a node id. -/
theorem rowWord_range (x3 : (⟨S2x640000, .i32⟩ : BufTy).Contents (Elt Ideal)) (hin : Cert.Gcn.InRange x3) (e : Fin 650000) :
    0 ≤ (Cert.Gcn.rowWord x3 e).toInt ∧ (Cert.Gcn.rowWord x3 e).toInt < 10000 := by
  unfold Cert.Gcn.rowWord
  by_cases h : e.val < 640000
  · rw [dif_pos h]; exact hin _
  · rw [dif_neg h]
    have he := e.isLt
    rw [StableHlo.Predicate.toInt_ofNat_small _ (by omega)]
    omega

/-- Every target word, a self loop's too, reads signed as a node id. -/
theorem colWord_range (x3 : (⟨S2x640000, .i32⟩ : BufTy).Contents (Elt Ideal)) (hin : Cert.Gcn.InRange x3) (e : Fin 650000) :
    0 ≤ (Cert.Gcn.colWord x3 e).toInt ∧ (Cert.Gcn.colWord x3 e).toInt < 10000 := by
  unfold Cert.Gcn.colWord
  by_cases h : e.val < 640000
  · rw [dif_pos h]; exact hin _
  · rw [dif_neg h]
    have he := e.isLt
    rw [StableHlo.Predicate.toInt_ofNat_small _ (by omega)]
    omega

/-- The wrap of a negative index (add the extent when the word is negative) leaves a word that is not negative alone. -/
theorem wrap_id (w a : BitVec 32) (h0 : 0 ≤ w.toInt) :
    Scalar.select (IntOp.cmpi .slt w 0#32) a w = w := by
  unfold Scalar.select
  rw [if_neg]
  intro h
  have h1 : w.slt 0#32 = true := (StableHlo.Predicate.ofBool_eq_one_iff _).mp h
  simp only [BitVec.slt, decide_eq_true_eq] at h1
  have h2 : (0#32 : BitVec 32).toInt = 0 := by decide
  omega

/-- A target word reads signed as n exactly when the edge's target node is n. -/
theorem colWord_toInt_iff (x3 : (⟨S2x640000, .i32⟩ : BufTy).Contents (Elt Ideal)) (hin : Cert.Gcn.InRange x3) (e : Fin 650000)
    (n : Fin 10000) : (Cert.Gcn.colWord x3 e).toInt = (n.val : ℤ) ↔ Cert.Gcn.colNode x3 e = n := by
  obtain ⟨h0, h1⟩ := colWord_range x3 hin e
  have hn := n.isLt
  constructor
  · intro h
    refine Fin.ext ?_
    show min (Cert.Gcn.colWord x3 e).toInt.toNat 9999 = n.val
    omega
  · intro h
    have h' : min (Cert.Gcn.colWord x3 e).toInt.toNat 9999 = n.val := congrArg Fin.val h
    omega

/-- The all-ones update vector reads the extended real one. -/
theorem v12_eq (e : Fin 650000) : val_main_v12 (F := Ideal) (ix1 e) = (1 : EReal) := by
  rw [val_main_v12_apply, val_main_cst_apply]
  exact Ideal.ofBits_one_f32

/-- The zero vector the count starts from reads zero. -/
theorem v13_eq (n : Fin 10000) : val_main_v13 (F := Ideal) (ix1 n) = (0 : EReal) := by
  rw [val_main_v13_apply, val_main_cst_0_apply]
  exact Ideal.ofBits_zero_f32

/-- The target words kept as a column read, at row e, the edge's target word. -/
theorem v14_eq (x3 : (⟨S2x640000, .i32⟩ : BufTy).Contents (Elt Ideal)) (e : Fin 650000) :
    val_main_v14 (F := Ideal) x3 (ix2 e 0) = Cert.Gcn.colWord x3 e := by
  rw [val_main_v14_apply, ← v9_eq]
  congr 1
  funext a
  match a with
  | ⟨0, _⟩ => rfl

/-- The scatter of ones by target word: at node n, the number of edges whose target node is n. -/
theorem v15_eq (x3 : (⟨S2x640000, .i32⟩ : BufTy).Contents (Elt Ideal)) (hin : Cert.Gcn.InRange x3) (n : Fin 10000) :
    val_main_v15 (F := Ideal) x3 (ix1 n) = Cert.Gcn.deg (Cert.Gcn.colNode x3) n := by
  unfold val_main_v15 Cert.Gcn.deg
  refine (Cert.LibScatterAdd1.scatterAdd_apply 10000 650000 scatter_S10000_S650000x1_S650000_n_0_0_1 rfl rfl rfl rfl
    (val_main_v13 (F := Ideal)) (val_main_v14 (F := Ideal) x3) (val_main_v12 (F := Ideal)) n).trans ?_
  rw [v13_eq, zero_add, Finset.sum_filter]
  refine Finset.sum_congr rfl fun e _ => ?_
  rw [v14_eq, v12_eq]
  by_cases h : Cert.Gcn.colNode x3 e = n
  · rw [if_pos h, if_pos ((colWord_toInt_iff x3 hin e n).mpr h)]
  · rw [if_neg h, if_neg (fun h' => h ((colWord_toInt_iff x3 hin e n).mp h'))]

/-- The power vector at node n: the degree to the exponent whose word is that of minus one half. -/
theorem v17_eq (x3 : (⟨S2x640000, .i32⟩ : BufTy).Contents (Elt Ideal)) (hin : Cert.Gcn.InRange x3) (n : Fin 10000) :
    val_main_v17 (F := Ideal) x3 (ix1 n) = Cert.Gcn.dis (Cert.Gcn.colNode x3) n := by
  rw [val_main_v17_apply, v15_eq x3 hin, val_main_v16_apply, val_main_cst_1_apply]
  rfl

/-- A rank-1 index built either way is the same index. -/
theorem ofFin_eq_ix1 {n : ℕ} (k : Fin n) : Shape.Idx.ofFin k = ix1 k := by
  funext a
  obtain rfl : a = 0 := Subsingleton.elim _ _
  exact Fin.ext rfl

/-- Row p of a one-column array, built either way, is the same index. -/
theorem ixP_eq_ix2 {n : ℕ} (p : Fin n) : StableHlo.Predicate.ixP p = ix2 p (0 : Fin 1) := by
  funext a
  match a with
  | ⟨0, _⟩ => rfl
  | ⟨1, _⟩ => rfl

/-- The take of a 10000-entry table at a column of 650000 start words: position e reads the table at the node its
    start word names. -/
theorem gather1_apply (x : (⟨S10000, .f32⟩ : BufTy).Contents (Elt Ideal)) (idx : (⟨S650000x1, .i32⟩ : BufTy).Contents (Elt Ideal))
    (e : Fin 650000) :
    Host.gather gather_S10000_S650000x1_S650000_n_0_n_n_0_1_1 x idx (ix1 e)
      = x (ix1 (Cert.Gcn.nodeOf (idx (ix2 e 0)))) := by
  rw [← ofFin_eq_ix1, StableHlo.Predicate.gather_take gather_S10000_S650000x1_S650000_n_0_n_n_0_1_1 rfl rfl rfl rfl x idx e
    (by decide), ofFin_eq_ix1]
  refine congrArg (fun k : Fin 10000 => x (ix1 k)) (Fin.ext ?_)
  show min (idx (StableHlo.Predicate.ixP e)).toInt.toNat (10000 - 1) = min (idx (ix2 e 0)).toInt.toNat 9999
  rw [ixP_eq_ix2]

/-- The wrapped source words are the source words: none is negative. -/
theorem v22_eq (x3 : (⟨S2x640000, .i32⟩ : BufTy).Contents (Elt Ideal)) (hin : Cert.Gcn.InRange x3) (e : Fin 650000) :
    val_main_v22 (F := Ideal) x3 (ix1 e) = Cert.Gcn.rowWord x3 e := by
  rw [val_main_v22_apply, val_main_v19_apply, v7_eq, val_main_v18_apply, val_main_c_apply]
  exact wrap_id _ _ (rowWord_range x3 hin e).1

/-- The same words kept as a column. -/
theorem v23_eq (x3 : (⟨S2x640000, .i32⟩ : BufTy).Contents (Elt Ideal)) (hin : Cert.Gcn.InRange x3) (e : Fin 650000) :
    val_main_v23 (F := Ideal) x3 (ix2 e 0) = Cert.Gcn.rowWord x3 e := by
  rw [val_main_v23_apply, ← v22_eq x3 hin]
  congr 1
  funext a
  match a with
  | ⟨0, _⟩ => rfl

/-- The normaliser taken at the source words: edge e reads its source node's normaliser. -/
theorem v24_eq (x3 : (⟨S2x640000, .i32⟩ : BufTy).Contents (Elt Ideal)) (hin : Cert.Gcn.InRange x3) (e : Fin 650000) :
    val_main_v24 (F := Ideal) x3 (ix1 e) = Cert.Gcn.dis (Cert.Gcn.colNode x3) (Cert.Gcn.rowNode x3 e) := by
  unfold val_main_v24
  rw [gather1_apply, v23_eq x3 hin, v17_eq x3 hin]
  rfl

/-- The wrapped target words are the target words. -/
theorem v29_eq (x3 : (⟨S2x640000, .i32⟩ : BufTy).Contents (Elt Ideal)) (hin : Cert.Gcn.InRange x3) (e : Fin 650000) :
    val_main_v29 (F := Ideal) x3 (ix1 e) = Cert.Gcn.colWord x3 e := by
  rw [val_main_v29_apply, val_main_v26_apply, v9_eq, val_main_v25_apply, val_main_c_3_apply]
  exact wrap_id _ _ (colWord_range x3 hin e).1

/-- The same words kept as a column. -/
theorem v30_eq (x3 : (⟨S2x640000, .i32⟩ : BufTy).Contents (Elt Ideal)) (hin : Cert.Gcn.InRange x3) (e : Fin 650000) :
    val_main_v30 (F := Ideal) x3 (ix2 e 0) = Cert.Gcn.colWord x3 e := by
  rw [val_main_v30_apply, ← v29_eq x3 hin]
  congr 1
  funext a
  match a with
  | ⟨0, _⟩ => rfl

/-- The normaliser taken at the target words: edge e reads its target node's normaliser. -/
theorem v31_eq (x3 : (⟨S2x640000, .i32⟩ : BufTy).Contents (Elt Ideal)) (hin : Cert.Gcn.InRange x3) (e : Fin 650000) :
    val_main_v31 (F := Ideal) x3 (ix1 e) = Cert.Gcn.dis (Cert.Gcn.colNode x3) (Cert.Gcn.colNode x3 e) := by
  unfold val_main_v31
  rw [gather1_apply, v30_eq x3 hin, v17_eq x3 hin]
  rfl

/-- The product of the two: edge e's weight. -/
theorem v32_eq (x3 : (⟨S2x640000, .i32⟩ : BufTy).Contents (Elt Ideal)) (hin : Cert.Gcn.InRange x3) (e : Fin 650000) :
    val_main_v32 (F := Ideal) x3 (ix1 e) = Cert.Gcn.norm (Cert.Gcn.rowNode x3) (Cert.Gcn.colNode x3) e := by
  rw [val_main_v32_apply, v24_eq x3 hin, v31_eq x3 hin]
  rfl

/-- The weights laid along the channels: row e holds edge e's weight in every column. -/
theorem v41_eq (x3 : (⟨S2x640000, .i32⟩ : BufTy).Contents (Elt Ideal)) (hin : Cert.Gcn.InRange x3) (e : Fin 650000) (c : Fin 128) :
    val_main_v41 (F := Ideal) x3 (ix2 e c) = Cert.Gcn.norm (Cert.Gcn.rowNode x3) (Cert.Gcn.colNode x3) e := by
  rw [val_main_v41_apply, val_main_v33_apply, ← v32_eq x3 hin]
  congr 1
  funext a
  match a with
  | ⟨0, _⟩ => rfl

/-- The contraction with the transposed weights: node n's features against channel j's weight row. -/
theorem v11_eq (x0 : (⟨S10000x128, .f32⟩ : BufTy).Contents (Elt Ideal)) (x1 : (⟨S128x128, .f32⟩ : BufTy).Contents (Elt Ideal))
    (n : Fin 10000) (j : Fin 128) :
    val_main_v11 (F := Ideal) x0 x1 (ix2 n j)
      = Cert.Gcn.lin (fun n k => x0 (ix2 n k)) (fun j k => x1 (ix2 j k)) n j := by
  rw [val_main_v11_apply]
  unfold Cert.Gcn.lin
  refine Finset.sum_congr rfl fun k _ => ?_
  rw [val_main_v10_apply]
  have h1 : lidx_main_v11 (ix2 n j) k = ix2 n k := by
    funext a
    match a with
    | ⟨0, _⟩ => rfl
    | ⟨1, _⟩ => rfl
  have h2 : idx_main_v10 (ridx_main_v11 (ix2 n j) k) = ix2 j k := by
    funext a
    match a with
    | ⟨0, _⟩ => rfl
    | ⟨1, _⟩ => rfl
  rw [h1, h2]

/-- The source words wrapped a second time (for the row gather) are again the source words. -/
theorem v38_eq (x3 : (⟨S2x640000, .i32⟩ : BufTy).Contents (Elt Ideal)) (hin : Cert.Gcn.InRange x3) (e : Fin 650000) :
    val_main_v38 (F := Ideal) x3 (ix1 e) = Cert.Gcn.rowWord x3 e := by
  rw [val_main_v38_apply, val_main_v35_apply, v7_eq, val_main_v34_apply, val_main_c_5_apply]
  exact wrap_id _ _ (rowWord_range x3 hin e).1

/-- The same words kept as a column. -/
theorem v39_eq (x3 : (⟨S2x640000, .i32⟩ : BufTy).Contents (Elt Ideal)) (hin : Cert.Gcn.InRange x3) (e : Fin 650000) :
    val_main_v39 (F := Ideal) x3 (ix2 e 0) = Cert.Gcn.rowWord x3 e := by
  rw [val_main_v39_apply, ← v38_eq x3 hin]
  congr 1
  funext a
  match a with
  | ⟨0, _⟩ => rfl

/-- The row gather of a 10000-row matrix at a column of 650000 start words: row e is the row of the node its start
    word names. -/
theorem gatherRows_apply (x : (⟨S10000x128, .f32⟩ : BufTy).Contents (Elt Ideal)) (idx : (⟨S650000x1, .i32⟩ : BufTy).Contents (Elt Ideal))
    (e : Fin 650000) (c : Fin 128) :
    Host.gather gather_S10000x128_S650000x1_S650000x128_1_0_n_n_0_1_1128 x idx (ix2 e c)
      = x (ix2 (Cert.Gcn.nodeOf (idx (ix2 e 0))) c) :=
  Cert.Lib.RowGS.gather_rows_apply (N := 10000) (D := 128) (E := 650000) (by decide)
    gather_S10000x128_S650000x1_S650000x128_1_0_n_n_0_1_1128 rfl rfl rfl rfl rfl rfl rfl x idx e c

/-- The rows of the linear layer taken at the source words: row e is the source node's row. -/
theorem v40_eq (x0 : (⟨S10000x128, .f32⟩ : BufTy).Contents (Elt Ideal)) (x1 : (⟨S128x128, .f32⟩ : BufTy).Contents (Elt Ideal))
    (x3 : (⟨S2x640000, .i32⟩ : BufTy).Contents (Elt Ideal)) (hin : Cert.Gcn.InRange x3) (e : Fin 650000) (c : Fin 128) :
    val_main_v40 (F := Ideal) x0 x1 x3 (ix2 e c)
      = Cert.Gcn.lin (fun n k => x0 (ix2 n k)) (fun j k => x1 (ix2 j k)) (Cert.Gcn.rowNode x3 e) c := by
  unfold val_main_v40
  rw [gatherRows_apply, v39_eq x3 hin]
  exact v11_eq x0 x1 (Cert.Gcn.rowNode x3 e) c

/-- The messages: edge e's weight times its source node's row. -/
theorem v42_eq (x0 : (⟨S10000x128, .f32⟩ : BufTy).Contents (Elt Ideal)) (x1 : (⟨S128x128, .f32⟩ : BufTy).Contents (Elt Ideal))
    (x3 : (⟨S2x640000, .i32⟩ : BufTy).Contents (Elt Ideal)) (hin : Cert.Gcn.InRange x3) (e : Fin 650000) (c : Fin 128) :
    val_main_v42 (F := Ideal) x0 x1 x3 (ix2 e c)
      = Cert.Gcn.norm (Cert.Gcn.rowNode x3) (Cert.Gcn.colNode x3) e
        * Cert.Gcn.lin (fun n k => x0 (ix2 n k)) (fun j k => x1 (ix2 j k)) (Cert.Gcn.rowNode x3 e) c := by
  rw [val_main_v42_apply, v41_eq x3 hin, v40_eq x0 x1 x3 hin]
  rfl

/-- The zero matrix the aggregation starts from. -/
theorem v43_eq (n : Fin 10000) (c : Fin 128) : val_main_v43 (F := Ideal) (ix2 n c) = (0 : EReal) := by
  rw [val_main_v43_apply, val_main_cst_7_apply]
  exact Ideal.ofBits_zero_f32

/-- The target words kept as a column, for the aggregation. -/
theorem v44_eq (x3 : (⟨S2x640000, .i32⟩ : BufTy).Contents (Elt Ideal)) (e : Fin 650000) :
    val_main_v44 (F := Ideal) x3 (ix2 e 0) = Cert.Gcn.colWord x3 e := by
  rw [val_main_v44_apply, ← v9_eq]
  congr 1
  funext a
  match a with
  | ⟨0, _⟩ => rfl

/-- The scatter that adds 650000 rows into a 10000-row matrix at a column of index words: row n gains the rows whose
    index word reads signed as n. -/
theorem scatterRows_apply (x : (⟨S10000x128, .f32⟩ : BufTy).Contents (Elt Ideal)) (idx : (⟨S650000x1, .i32⟩ : BufTy).Contents (Elt Ideal))
    (upd : (⟨S650000x128, .f32⟩ : BufTy).Contents (Elt Ideal)) (n : Fin 10000) (c : Fin 128) :
    Host.scatterAdd (F := Ideal) (φ := .f32) scatter_S10000x128_S650000x1_S650000x128_1_0_0_1 x idx upd (ix2 n c)
      = (x (ix2 n c) + ∑ e : Fin 650000, if (idx (ix2 e 0)).toInt = (n.val : ℤ) then upd (ix2 e c) else 0 : EReal) :=
  Cert.Lib.RowGS.scatterAdd_rows_apply (N := 10000) (D := 128) (E := 650000)
    scatter_S10000x128_S650000x1_S650000x128_1_0_0_1 rfl rfl rfl rfl x idx upd n c

/-- The messages added into their target nodes' rows: node n sums the messages of the edges whose target it is. -/
theorem v45_eq (x0 : (⟨S10000x128, .f32⟩ : BufTy).Contents (Elt Ideal)) (x1 : (⟨S128x128, .f32⟩ : BufTy).Contents (Elt Ideal))
    (x3 : (⟨S2x640000, .i32⟩ : BufTy).Contents (Elt Ideal)) (hin : Cert.Gcn.InRange x3) (n : Fin 10000) (c : Fin 128) :
    val_main_v45 (F := Ideal) x0 x1 x3 (ix2 n c)
      = ∑ e ∈ Finset.univ.filter (fun e => Cert.Gcn.colNode x3 e = n),
          Cert.Gcn.norm (Cert.Gcn.rowNode x3) (Cert.Gcn.colNode x3) e
            * Cert.Gcn.lin (fun n k => x0 (ix2 n k)) (fun j k => x1 (ix2 j k)) (Cert.Gcn.rowNode x3 e) c := by
  unfold val_main_v45
  rw [scatterRows_apply, v43_eq, zero_add, Finset.sum_filter]
  refine Finset.sum_congr rfl fun e _ => ?_
  rw [v44_eq, v42_eq x0 x1 x3 hin]
  by_cases h : Cert.Gcn.colNode x3 e = n
  · rw [if_pos h, if_pos ((colWord_toInt_iff x3 hin e n).mpr h)]
  · rw [if_neg h, if_neg (fun h' => h ((colWord_toInt_iff x3 hin e n).mp h'))]

/-- The result at node n, channel c: the node's aggregated messages plus the channel's bias. -/
theorem result_ix2 (x0 : (⟨S10000x128, .f32⟩ : BufTy).Contents (Elt Ideal)) (x1 : (⟨S128x128, .f32⟩ : BufTy).Contents (Elt Ideal))
    (x2 : (⟨S128, .f32⟩ : BufTy).Contents (Elt Ideal)) (x3 : (⟨S2x640000, .i32⟩ : BufTy).Contents (Elt Ideal))
    (hin : Cert.Gcn.InRange x3) (n : Fin 10000) (c : Fin 128) :
    val_main_v48 (F := Ideal) x0 x1 x2 x3 (ix2 n c)
      = Cert.Gcn.ref (Cert.Gcn.rowNode x3) (Cert.Gcn.colNode x3) (fun n k => x0 (ix2 n k)) (fun j k => x1 (ix2 j k))
          (fun j => x2 (ix1 j)) n c := by
  have hidx : idx_main_v46 (idx_main_v47 (ix2 n c)) = ix1 c := by
    funext a
    match a with
    | ⟨0, _⟩ => rfl
  rw [val_main_v48_apply, v45_eq x0 x1 x3 hin, val_main_v47_apply, val_main_v46_apply, hidx, Ideal.addf_def]
  unfold Cert.Gcn.ref
  rfl

/-- The reference's result, element by element, is the edgewise arrangement of the graph convolution over the edge
    array's nodes, provided every given end is a node id. -/
theorem result_eq (x0 : (⟨S10000x128, .f32⟩ : BufTy).Contents (Elt Ideal)) (x1 : (⟨S128x128, .f32⟩ : BufTy).Contents (Elt Ideal))
    (x2 : (⟨S128, .f32⟩ : BufTy).Contents (Elt Ideal)) (x3 : (⟨S2x640000, .i32⟩ : BufTy).Contents (Elt Ideal))
    (hin : Cert.Gcn.InRange x3) (i : S10000x128.Idx) :
    Cert.ReferenceIdeal.Read.val_main_v48 (F := Ideal) x0 x1 x2 x3 i
      = Cert.Gcn.ref (Cert.Gcn.rowNode x3) (Cert.Gcn.colNode x3) (fun n k => x0 (ix2 n k)) (fun j k => x1 (ix2 j k))
          (fun j => x2 (ix1 j)) (i 0) (i 1) :=
  (congrArg (val_main_v48 (F := Ideal) x0 x1 x2 x3) (eq_ix2 i)).trans (result_ix2 x0 x1 x2 x3 hin (i 0) (i 1))

end Cert.ReferenceIdeal.RefValue

end
-- ==== Proof.PreFacts.lean ====
import proofs.«410450_j35880156791371_3_alg».proof.Defs
import proofs.«410450_j35880156791371_3_alg».proof.Proof.Gen.Pre_finite_inputs
import proofs.«410450_j35880156791371_3_alg».proof.Proof.Spec
import Idealize.ShloMosaic.Lib.ReduceAll
import Idealize.ShloMosaic.Lib.StableHlo.Predicate
import Idealize.ShloMosaic.Lib.ValueIdx

noncomputable section

namespace Cert.Proof.PreFacts

open Idealize.ShloMosaic Idealize.ShloMosaic.ValueIdx Idealize.SL.Sem

variable (m : (ℓ : Loc Cert.KernelIdeal.nD Cert.KernelIdeal.τ Cert.KernelIdeal.sig) → Buf (Elt Ideal) ℓ)

/-- The scalar shape has one index. -/
instance : Subsingleton Cert.Pre_finite_inputs.S_.Idx := ⟨fun a b => funext fun d => d.elim0⟩

/-- The f32 word 0x7F800000 is +∞. -/
theorem inf_word : Ideal.ofBits .f32 0x7F800000#32 = (⊤ : EReal) := by
  simp [Ideal.ofBits, Ideal.ieee]

/-- An extended real whose absolute value max x (−x) is strictly below +∞ is a real: at ⊥ and at ⊤ the maximum is ⊤. -/
theorem real_of_abs_lt_top (x : EReal) (h : max x (-x) < ⊤) : ∃ v : ℝ, x = (v : EReal) := by
  induction x using EReal.rec with
  | bot => simp at h
  | coe v => exact ⟨v, rfl⟩
  | top => simp at h

/-- The elementwise comparison |x| < +∞ coming out 1 says x is a real. -/
theorem real_of_cmp (x : EReal)
    (h : FloatOps.cmpf (F := Ideal) (φ := .f32) .olt (FloatOps.hostAbsf (F := Ideal) (φ := .f32) x) (FloatOps.ofBits (F := Ideal) .f32 0x7F800000#32) = 1#1) :
    ∃ v : ℝ, x = (v : EReal) := by
  have h' : BitVec.ofBool (decide (max x (-x) < Ideal.ofBits .f32 0x7F800000#32)) = 1#1 := h
  rw [inf_word, StableHlo.Predicate.ofBool_eq_one_iff, decide_eq_true_eq] at h'
  exact real_of_abs_lt_top x h'

/-- jnp.all(|X| < inf) = 1 over an array of any shape: every entry of X is a real. The reduction by "and" into
    the scalar is 1 only if every compared element is 1; the broadcast scalar is +∞ everywhere. -/
theorem finite_of_all {s : Shape} {axes : List (Fin s.rank)}
    (hb : Cert.Pre_finite_inputs.S_.BroadcastsInDim s (![] : Fin 0 → Fin s.rank))
    (hr : s.ReducesTo axes Cert.Pre_finite_inputs.S_) (h0 : 0 < Cert.Pre_finite_inputs.S_.numel)
    (X : FVec Ideal s .f32)
    (e : Host.reduce IntOp.andi
          (cmpf CmpFPredicate.olt (Host.absf X)
            (broadcastInDim s ![] hb (constant (F := Ideal) Cert.Pre_finite_inputs.S_ FTy.f32 0x7F800000#32)))
          (constantI Cert.Pre_finite_inputs.S_ 1 1#1) hr h0 ix0 = 1#1)
    (i : s.Idx) : ∃ v : ℝ, X i = (v : EReal) :=
  real_of_cmp (X i) (Host.reduce_andi_all _ _ hr h0 ix0 e i)

/-- A signed comparison a ≥ 0 that came out 1. -/
theorem toInt_nonneg_of_sge (a : BitVec 32) (h : IntOp.cmpi .sge a 0#32 = 1#1) : 0 ≤ a.toInt := by
  unfold IntOp.cmpi at h
  rw [StableHlo.Predicate.ofBool_eq_one_iff] at h
  simp only [BitVec.sle, decide_eq_true_eq] at h
  have h0 : (0#32 : BitVec 32).toInt = 0 := by decide
  omega

/-- A signed comparison a < 10000 that came out 1. -/
theorem toInt_lt_of_slt (a : BitVec 32) (h : IntOp.cmpi .slt a 10000#32 = 1#1) : a.toInt < 10000 := by
  unfold IntOp.cmpi at h
  rw [StableHlo.Predicate.ofBool_eq_one_iff] at h
  simp only [BitVec.slt, decide_eq_true_eq] at h
  have h0 : (10000#32 : BitVec 32).toInt = 10000 := by decide
  omega

/-- The precondition on one device, split into its jnp.all conjuncts: the printed predicate is the "and" of five
    scalars, each a reduction by "and" of an elementwise comparison; read at the one scalar index, all five are 1. -/
theorem conjuncts (h : @Cert.Pre_KernelIdeal Cert.Pre_finite_inputs.Gen.facts m) (c : Dev Cert.KernelIdeal.nD) :
    (∀ i, ∃ v : ℝ, (m ((c.tc : Thread Cert.KernelIdeal.nD Cert.KernelIdeal.τ).loc Cert.KernelIdeal.main_arg0) : Cert.KernelIdeal.S10000x128.Idx → EReal) i = (v : EReal))
    ∧ (∀ i, ∃ v : ℝ, (m ((c.tc : Thread Cert.KernelIdeal.nD Cert.KernelIdeal.τ).loc Cert.KernelIdeal.main_arg1) : Cert.KernelIdeal.S128x128.Idx → EReal) i = (v : EReal))
    ∧ Cert.Gcn.InRange (m ((c.tc : Thread Cert.KernelIdeal.nD Cert.KernelIdeal.τ).loc Cert.KernelIdeal.main_arg3)) := by
  have e := congrFun (h c) ValueIdx.ix0
  dsimp only [Cert.Pre_finite_inputs.fn, Cert.Pre_finite_inputs.fn_part1] at e
  simp only [andi, IntOp.andi_eq_one] at e
  obtain ⟨⟨⟨⟨hx, hW⟩, hb⟩, hge⟩, hlt⟩ := e
  refine ⟨fun i => finite_of_all _ _ _ _ hx i, fun i => finite_of_all _ _ _ _ hW i, fun i => ⟨?_, ?_⟩⟩
  · -- the element of the ≥ 0 mask at i is 1; the broadcast scalar reads 0 there
    exact toInt_nonneg_of_sge _ (Host.reduce_andi_all _ _ _ _ ix0 hge i)
  · -- the element of the < 10000 mask at i is 1; the broadcast scalar reads 10000 there
    exact toInt_lt_of_slt _ (Host.reduce_andi_all _ _ _ _ ix0 hlt i)

/-- Under the precondition every given end of an edge is a node id. -/
theorem inRange (h : @Cert.Pre_KernelIdeal Cert.Pre_finite_inputs.Gen.facts m) (c : Dev Cert.KernelIdeal.nD) :
    Cert.Gcn.InRange (m ((c.tc : Thread Cert.KernelIdeal.nD Cert.KernelIdeal.τ).loc Cert.KernelIdeal.main_arg3)) :=
  (conjuncts m h c).2.2

/-- Under the precondition every feature is a real number. -/
theorem finite_x (h : @Cert.Pre_KernelIdeal Cert.Pre_finite_inputs.Gen.facts m) (c : Dev Cert.KernelIdeal.nD) (i : Cert.KernelIdeal.S10000x128.Idx) :
    ∃ v : ℝ, (m ((c.tc : Thread Cert.KernelIdeal.nD Cert.KernelIdeal.τ).loc Cert.KernelIdeal.main_arg0) : Cert.KernelIdeal.S10000x128.Idx → EReal) i = (v : EReal) :=
  (conjuncts m h c).1 i

/-- Under the precondition every weight is a real number. -/
theorem finite_W (h : @Cert.Pre_KernelIdeal Cert.Pre_finite_inputs.Gen.facts m) (c : Dev Cert.KernelIdeal.nD) (i : Cert.KernelIdeal.S128x128.Idx) :
    ∃ v : ℝ, (m ((c.tc : Thread Cert.KernelIdeal.nD Cert.KernelIdeal.τ).loc Cert.KernelIdeal.main_arg1) : Cert.KernelIdeal.S128x128.Idx → EReal) i = (v : EReal) :=
  (conjuncts m h c).2.1 i

end Cert.Proof.PreFacts

end
-- ==== Proof.lean ====
/- A graph convolution with symmetric degree normalisation, computed two ways, certified equal over the extended reals.

   640000 given edges and one self loop per node over 10000 nodes, 128 channels in and out. The reference transforms the
   features linearly (x · Wᵀ), gives edge e the weight deg(source)^(-1/2) · deg(target)^(-1/2) with deg the in-degree
   counted over all 650000 edges, gathers each edge's source row, scales it, sums the scaled rows into the edge's target
   node, and adds the bias. The kernel program computes the same linear transform in a first call (ten row blocks),
   builds the weighted adjacency densely on 10240 padded nodes (entry (n, s) sums the weights of the edges s → n),
   multiplies it with the zero-padded transform in a second call that accumulates five tiles of 2048 source nodes per
   row block and adds the bias after the fifth, and keeps the first 10000 rows.

   The two agree when every given end of an edge is a node id in [0, 10000): outside that range the reference's
   row gather clamps the index while the dense adjacency puts the weight in a padded column that meets a zero row,
   so the precondition states the range beside the finiteness of the float inputs. Under it each edge's term lands
   in exactly one column of the adjacency's row, the padded rows and columns contribute nothing, and, all factors being
   real, a factor moves across a finite sum: the dense sum over source nodes regroups the edges by source.

   Frames: the word-level and the idealized kernel program run through their two calls with every buffer's contents
   named between items (the launch contents, then each host stretch, each call's result array at what its write-backs
   leave); the reference's frame is its run with the result dropped. The idealization rewrote nothing. -/
import proofs.«410450_j35880156791371_3_alg».proof.Defs
import proofs.«410450_j35880156791371_3_alg».proof.Proof.Gen.Kernel
import proofs.«410450_j35880156791371_3_alg».proof.Proof.Gen.KernelIdeal
import proofs.«410450_j35880156791371_3_alg».proof.Proof.Gen.ReferenceIdeal
import proofs.«410450_j35880156791371_3_alg».proof.Proof.Gen.Pre_finite_inputs
import proofs.«410450_j35880156791371_3_alg».proof.Proof.Gen.ReferenceIdeal.Run
import proofs.«410450_j35880156791371_3_alg».proof.Proof.Gen.ReferenceIdeal.Read
import proofs.«410450_j35880156791371_3_alg».proof.Proof.KB.Run
import proofs.«410450_j35880156791371_3_alg».proof.Proof.KI.Run
import proofs.«410450_j35880156791371_3_alg».proof.Proof.KI.Value
import proofs.«410450_j35880156791371_3_alg».proof.Proof.RefValue
import proofs.«410450_j35880156791371_3_alg».proof.Proof.PreFacts
import proofs.«410450_j35880156791371_3_alg».proof.Proof.Algebra
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Hand.frame m ρ

/-- So does the idealized one. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result array: the kernel program's is the dense arrangement, the
    reference's the edgewise one, of arguments that agree; the two arrangements are equal when every end is a node id
    and the features and weights are finite. -/
theorem algebraic : Cert.algebraic_KernelIdeal_ReferenceIdeal := by
  intro m ρ m' ρ' hpre hagree
  refine ⟨fun c => Cert.KernelIdeal.Gen.V7 m (Cert.KernelIdeal.Hand.houts m) c Cert.KernelIdeal.main_v52, ?_, ?_⟩
  · exact (θ_run Cert.KernelIdeal.defs _ _).mono (fun _ h c =>
      ⟨h c _ (Cert.KernelIdeal.Hand.mem_uc Cert.KernelIdeal.main_v52 (by decide)),
       (h c _ (Cert.KernelIdeal.Hand.mem_uc Cert.KernelIdeal.main_arg0 (by decide))).trans (Cert.KernelIdeal.Gen.V7_main_arg0 m _ c),
       (h c _ (Cert.KernelIdeal.Hand.mem_uc Cert.KernelIdeal.main_arg1 (by decide))).trans (Cert.KernelIdeal.Gen.V7_main_arg1 m _ c),
       (h c _ (Cert.KernelIdeal.Hand.mem_uc Cert.KernelIdeal.main_arg2 (by decide))).trans (Cert.KernelIdeal.Gen.V7_main_arg2 m _ c),
       (h c _ (Cert.KernelIdeal.Hand.mem_uc Cert.KernelIdeal.main_arg3 (by decide))).trans (Cert.KernelIdeal.Gen.V7_main_arg3 m _ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    have hin := Cert.Proof.PreFacts.inRange m hpre c
    rw [Cert.ReferenceIdeal.Read.val_main_v48_eq m' c, (hagree c).1, (hagree c).2.1, (hagree c).2.2.1, (hagree c).2.2.2]
    funext i
    rw [Cert.ReferenceIdeal.RefValue.result_eq _ _ _ _ hin i]
    refine Eq.trans ?_ (congrFun (Cert.KernelIdeal.Hand.result_eq m c hin) i).symm
    exact (Cert.Gcn.ker_eq_ref _ _ _ _ _ (fun n k => Cert.Proof.PreFacts.finite_x m hpre c _)
      (fun j k => Cert.Proof.PreFacts.finite_W m hpre c _) _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
